-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v25)) (v1 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_v19) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S512x128 : Shape := ⟨2, ![512, 128]⟩
abbrev S128x1 : Shape := ⟨2, ![128, 1]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S128x1 : S_.BroadcastsInDim S128x1 (![] : Fin 0 → Fin S128x1.rank)
  reducesTo_S128x1_S_d0_1 : S128x1.ReducesTo [0, 1] S_

variable [Facts]

def fn_part1 {F : FTy → Type} [FloatOps F] (main_v13 : IVec S_ 1) (main_v16 : IVec S128x1 1) : IVec S_ 1 :=
  let main_c_5 : IVec S_ 1 := constantI S_ 1 1#1
  let main_v17 : IVec S_ 1 := (fun x v => Host.reduce IntOp.andi x v reducesTo_S128x1_S_d0_1 h_S_) main_v16 main_c_5
  let main_v18 : IVec S_ 1 := andi main_v13 main_v17
  main_v18

def fn {F : FTy → Type} [FloatOps F] (main_arg0 : FVec F S100000x512 .f32) (main_arg1 : FVec F S512x128 .f32) (main_arg2 : FVec F S512x128 .f32) (main_arg3 : FVec F S128x1 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x128 .f32 := Host.absf main_arg1
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S512x128 .f32 := Host.absf main_arg2
  let main_cst_2 : FVec F S_ .f32 := constant S_ .f32 0x7F800000#32
  let main_v10 : FVec F S512x128 .f32 := broadcastInDim S512x128 ![] bcast_S_S512x128 main_cst_2
  let main_v11 : IVec S512x128 1 := cmpf .olt main_v9 main_v10
  let main_c_3 : IVec S_ 1 := constantI S_ 1 1#1
  let main_v12 : IVec S_ 1 := (fun x v => Host.reduce IntOp.andi x v reducesTo_S512x128_S_d0_1 h_S_) main_v11 main_c_3
  let main_v13 : IVec S_ 1 := andi main_v8 main_v12
  let main_v14 : FVec F S128x1 .f32 := Host.absf main_arg3
  let main_cst_4 : FVec F S_ .f32 := constant S_ .f32 0x7F800000#32
  let main_v15 : FVec F S128x1 .f32 := broadcastInDim S128x1 ![] bcast_S_S128x1 main_cst_4
  let main_v16 : IVec S128x1 1 := cmpf .olt main_v14 main_v15
  fn_part1 (F := F) main_v13 main_v16
-- ==== Kernel.lean ====
abbrev S100000x512 : Shape := ⟨2, ![100000, 512]⟩
abbrev S512x128 : Shape := ⟨2, ![512, 128]⟩
abbrev S128x1 : Shape := ⟨2, ![128, 1]⟩
abbrev S512x256 : Shape := ⟨2, ![512, 256]⟩
abbrev S1x128 : Shape := ⟨2, ![1, 128]⟩
abbrev S100000x1 : Shape := ⟨2, ![100000, 1]⟩
abbrev S2x1x1 : Shape := ⟨3, ![2, 1, 1]⟩
abbrev S2x1x512 : Shape := ⟨3, ![2, 1, 512]⟩
abbrev S2000x512 : Shape := ⟨2, ![2000, 512]⟩
abbrev S2000x1 : Shape := ⟨2, ![2000, 1]⟩
abbrev S1x1x1 : Shape := ⟨3, ![1, 1, 1]⟩
abbrev S1x1x512 : Shape := ⟨3, ![1, 1, 512]⟩
abbrev S1x1 : Shape := ⟨2, ![1, 1]⟩
abbrev S1x512 : Shape := ⟨2, ![1, 512]⟩
abbrev S2000x256 : Shape := ⟨2, ![2000, 256]⟩
abbrev S2000x128 : Shape := ⟨2, ![2000, 128]⟩
abbrev S2000 : Shape := ⟨1, ![2000]⟩
abbrev S1 : Shape := ⟨1, ![1]⟩
abbrev S2x1 : Shape := ⟨2, ![2, 1]⟩
abbrev S2x512 : Shape := ⟨2, ![2, 512]⟩
abbrev S_ : Shape := ⟨0, ![]⟩
abbrev S512 : Shape := ⟨1, ![512]⟩
abbrev S1x100000x1 : Shape := ⟨3, ![1, 100000, 1]⟩

abbrev nBuf : Space → Nat
  | .hbm => 36
  | .vmem => 15
  | .smem => 0
  | _ => 0

abbrev bufTy : (tb : Table) → Fin (tcTables nBuf tb) → BufTy
  | .hbm, ⟨0, _⟩ => ⟨S100000x512, .f32⟩
  | .hbm, ⟨1, _⟩ => ⟨S512x128, .f32⟩
  | .hbm, ⟨2, _⟩ => ⟨S512x128, .f32⟩
  | .hbm, ⟨3, _⟩ => ⟨S128x1, .f32⟩
  | .hbm, ⟨4, _⟩ => ⟨S512x256, .f32⟩
  | .hbm, ⟨5, _⟩ => ⟨S1x128, .f32⟩
  | .hbm, ⟨6, _⟩ => ⟨S100000x1, .f32⟩
  | .hbm, ⟨7, _⟩ => ⟨S2x1x1, .f32⟩
  | .hbm, ⟨8, _⟩ => ⟨S2x1x1, .f32⟩
  | .hbm, ⟨9, _⟩ => ⟨S2x1x512, .f32⟩
  | .hbm, ⟨10, _⟩ => ⟨S2x1, .f32⟩
  | .hbm, ⟨11, _⟩ => ⟨S2x1, .f32⟩
  | .hbm, ⟨12, _⟩ => ⟨S2x512, .f32⟩
  | .hbm, ⟨13, _⟩ => ⟨S_, .f32⟩
  | .hbm, ⟨14, _⟩ => ⟨S1, .f32⟩
  | .hbm, ⟨15, _⟩ => ⟨S1x1, .f32⟩
  | .hbm, ⟨16, _⟩ => ⟨S2x1, .f32⟩
  | .hbm, ⟨17, _⟩ => ⟨S2x1, .f32⟩
  | .hbm, ⟨18, _⟩ => ⟨S2x1, .f32⟩
  | .hbm, ⟨19, _⟩ => ⟨S2x1, .f32⟩
  | .hbm, ⟨20, _⟩ => ⟨S_, .f32⟩
  | .hbm, ⟨21, _⟩ => ⟨S1, .f32⟩
  | .hbm, ⟨22, _⟩ => ⟨S1x1, .f32⟩
  | .hbm, ⟨23, _⟩ => ⟨S2x512, .f32⟩
  | .hbm, ⟨24, _⟩ => ⟨S2x512, .f32⟩
  | .hbm, ⟨25, _⟩ => ⟨S_, .f32⟩
  | .hbm, ⟨26, _⟩ => ⟨S512, .f32⟩
  | .hbm, ⟨27, _⟩ => ⟨S1x512, .f32⟩
  | .hbm, ⟨28, _⟩ => ⟨S1x512, .f32⟩
  | .hbm, ⟨29, _⟩ => ⟨S1x512, .f32⟩
  | .hbm, ⟨30, _⟩ => ⟨S100000x1, .f32⟩
  | .hbm, ⟨31, _⟩ => ⟨S100000x1, .f32⟩
  | .hbm, ⟨32, _⟩ => ⟨S100000x1, .f32⟩
  | .hbm, ⟨33, _⟩ => ⟨S100000x1, .f32⟩
  | .hbm, ⟨34, _⟩ => ⟨S100000x1, .f32⟩
  | .hbm, ⟨35, _⟩ => ⟨S1x100000x1, .f32⟩
  | .local _ .vmem, ⟨0, _⟩ => ⟨S2000x512, .f32⟩
  | .local _ .vmem, ⟨1, _⟩ => ⟨S2000x512, .f32⟩
  | .local _ .vmem, ⟨2, _⟩ => ⟨S512x256, .f32⟩
  | .local _ .vmem, ⟨3, _⟩ => ⟨S1x128, .f32⟩
  | .local _ .vmem, ⟨4, _⟩ => ⟨S2000x1, .f32⟩
  | .local _ .vmem, ⟨5, _⟩ => ⟨S2000x1, .f32⟩
  | .local _ .vmem, ⟨6, _⟩ => ⟨S1x1x1, .f32⟩
  | .local _ .vmem, ⟨7, _⟩ => ⟨S1x1x1, .f32⟩
  | .local _ .vmem, ⟨8, _⟩ => ⟨S1x1x1, .f32⟩
  | .local _ .vmem, ⟨9, _⟩ => ⟨S1x1x1, .f32⟩
  | .local _ .vmem, ⟨10, _⟩ => ⟨S1x1x512, .f32⟩
  | .local _ .vmem, ⟨11, _⟩ => ⟨S1x1x512, .f32⟩
  | .local _ .vmem, ⟨12, _⟩ => ⟨S1x1, .f32⟩
  | .local _ .vmem, ⟨13, _⟩ => ⟨S1x1, .f32⟩
  | .local _ .vmem, ⟨14, _⟩ => ⟨S1x512, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![2, 25], ![false, false]⟩

def k0_cond2 (i : grid0.Coords) : BitVec 1 :=
  let arg1 : BitVec 32 := BitVec.ofNat 32 (i 1).val
  let c24_i32 : BitVec 32 := 24#32
  let v47 : BitVec 1 := Scalar.cmpi .eq arg1 c24_i32
  let v48 : BitVec 32 := Scalar.extui v47
  let c0_i32_24 : BitVec 32 := 0#32
  let v49 : BitVec 1 := Scalar.cmpi .ne v48 c0_i32_24
  v49

def cc0_transform_0 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  concatenates_S512x128_S512x128_S512x256_d1 : Shape.Concatenates [S512x128, S512x128] S512x256 1
  shapeCasts_S128x1_S1x128 : S128x1.ShapeCasts S1x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S2000x512_S2000x512_0_0 : ∀ a, (![0, 0] : Fin 2 → Nat) a + S2000x512.size a ≤ S2000x512.size a
  h_S2000x512 : 0 < S2000x512.numel
  inb_S512x256_S512x256_0_0 : ∀ a, (![0, 0] : Fin 2 → Nat) a + S512x256.size a ≤ S512x256.size a
  h_S512x256 : 0 < S512x256.numel
  shapeCasts_S512x256_S512x256 : S512x256.ShapeCasts S512x256
  slices_S2000x256_o0_0_S2000x128 : S2000x256.Slices ![0, 0] S2000x128
  slices_S2000x256_o0_128_S2000x128 : S2000x256.Slices ![0, 128] S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  reduces_S2000x128_S2000 : S2000x128.Reduces [1] S2000
  shapeCasts_S2000_S2000x1 : S2000.ShapeCasts S2000x1
  inb_S2000x1_S2000x1_0_0 : ∀ a, (![0, 0] : Fin 2 → Nat) a + S2000x1.size a ≤ S2000x1.size a
  h_S2000x1 : 0 < S2000x1.numel
  reduces_S2000x1_S1 : S2000x1.Reduces [0] S1
  shapeCasts_S1_S1x1 : S1.ShapeCasts S1x1
  broadcasts_S1x1_S2000x1 : S1x1.Broadcasts S2000x1
  broadcasts_S1x1_S1x512 : S1x1.Broadcasts S1x512
  shapeCasts_S1x1_S1x1x1 : S1x1.ShapeCasts S1x1x1
  inb_S1x1x1_S1x1x1_0_0_0 : ∀ a, (![0, 0, 0] : Fin 3 → Nat) a + S1x1x1.size a ≤ S1x1x1.size a
  h_S1x1x1 : 0 < S1x1x1.numel
  shapeCasts_S1x512_S1x1x512 : S1x512.ShapeCasts S1x1x512
  inb_S1x1x512_S1x1x512_0_0_0 : ∀ a, (![0, 0, 0] : Fin 3 → Nat) a + S1x1x512.size a ≤ S1x1x512.size a
  h_S1x1x512 : 0 < S1x1x512.numel
  shapeCasts_S2x1x1_S2x1 : S2x1x1.ShapeCasts S2x1
  shapeCasts_S2x1x512_S2x512 : S2x1x512.ShapeCasts S2x512
  reducesTo_S2x1_S1_d0 : S2x1.ReducesTo [0] S1
  h_S_ : 0 < S_.numel
  bcast_S1_S1x1_1 : S1.BroadcastsInDim S1x1 (![1] : Fin 1 → Fin S1x1.rank)
  bcast_S1x1_S2x1_0_1 : S1x1.BroadcastsInDim S2x1 (![0, 1] : Fin 2 → Fin S2x1.rank)
  bcast_S2x1_S2x512_0_1 : S2x1.BroadcastsInDim S2x512 (![0, 1] : Fin 2 → Fin S2x512.rank)
  reducesTo_S2x512_S512_d0 : S2x512.ReducesTo [0] S512
  bcast_S512_S1x512_1 : S512.BroadcastsInDim S1x512 (![1] : Fin 1 → Fin S1x512.rank)
  bcast_S1x1_S1x512_0_1 : S1x1.BroadcastsInDim S1x512 (![0, 1] : Fin 2 → Fin S1x512.rank)
  bcast_S1x1_S100000x1_0_1 : S1x1.BroadcastsInDim S100000x1 (![0, 1] : Fin 2 → Fin S100000x1.rank)
  shapeCasts_S100000x1_S1x100000x1 : S100000x1.ShapeCasts S1x100000x1
  dot_S2000x512_S512x256_S2000x256_1_0_0_1_n_n_wf : DotDims.WF S2000x512 S512x256 S2000x256 [1] [0] [0] [1] [] []
  dot_S2000x1_S2000x512_S1x512_0_0_1_1_n_n_wf : DotDims.WF S2000x1 S2000x512 S1x512 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x1.size a ≤ S100000x1.size a
  hwx0_3 : ∀ i : grid0.Coords, EltTy.bits .f32 = 32 ∨ (Rect.block (s := S100000x1) S2000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1.size a ≤ S2x1x1.size a
  hwx0_4 : ∀ i : grid0.Coords, EltTy.bits .f32 = 32 ∨ (Rect.block (s := S2x1x1) S1x1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x1.size a ≤ S2x1x1.size a
  hwx0_5 : ∀ i : grid0.Coords, EltTy.bits .f32 = 32 ∨ (Rect.block (s := S2x1x1) S1x1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x512.size a ≤ S2x1x512.size a
  hwx0_6 : ∀ i : grid0.Coords, EltTy.bits .f32 = 32 ∨ (Rect.block (s := S2x1x512) S1x1x512.size (cc0_transform_6 i) (hinb0_6 i)).WholeWords (EltTy.packing .f32)

variable [Facts₀]

def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def dot_S2000x1_S2000x512_S1x512_0_0_1_1_n_n : DotDims S2000x1 S2000x512 S1x512 where
  lhsContracting := [0]
  rhsContracting := [0]
  lhsNonContracting := [1]
  rhsNonContracting := [1]
  lhsBatch := []
  rhsBatch := []
  wf := dot_S2000x1_S2000x512_S1x512_0_0_1_1_n_n_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2_0) S2000x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_1) S1x1x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_2) S1x1x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2_3) S1x1x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun i => !(k0_cond2 i == 1#1) | 5 => fun i => !(k0_cond2 i == 1#1) | 6 => fun i => !(k0_cond2 i == 1#1) | ⟨_ + 7, h⟩ => absurd h (Nat.not_lt.2 (Nat.le_add_left _ _))

class Facts : Prop extends Facts₀ where

variable [Facts]
-- ==== ReferenceIdeal.lean ====
abbrev S100000x512 : Shape := ⟨2, ![100000, 512]⟩
abbrev S512x128 : Shape := ⟨2, ![512, 128]⟩
abbrev S128x1 : Shape := ⟨2, ![128, 1]⟩
abbrev S100000x128 : Shape := ⟨2, ![100000, 128]⟩
abbrev S_ : Shape := ⟨0, ![]⟩
abbrev S100000x1 : Shape := ⟨2, ![100000, 1]⟩
abbrev S1x100000x1 : Shape := ⟨3, ![1, 100000, 1]⟩
abbrev S1x1 : Shape := ⟨2, ![1, 1]⟩
abbrev S1x1x1 : Shape := ⟨3, ![1, 1, 1]⟩
abbrev S1x100000x512 : Shape := ⟨3, ![1, 100000, 512]⟩
abbrev S1x1x512 : Shape := ⟨3, ![1, 1, 512]⟩
abbrev S1x512 : Shape := ⟨2, ![1, 512]⟩

abbrev nBuf : Space → Nat
  | .hbm => 35
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S512x128, .f32⟩
  | .hbm, ⟨2, _⟩ => ⟨S512x128, .f32⟩
  | .hbm, ⟨3, _⟩ => ⟨S128x1, .f32⟩
  | .hbm, ⟨4, _⟩ => ⟨S100000x128, .f32⟩
  | .hbm, ⟨5, _⟩ => ⟨S100000x128, .f32⟩
  | .hbm, ⟨6, _⟩ => ⟨S100000x128, .f32⟩
  | .hbm, ⟨7, _⟩ => ⟨S100000x128, .f32⟩
  | .hbm, ⟨8, _⟩ => ⟨S100000x128, .f32⟩
  | .hbm, ⟨9, _⟩ => ⟨S_, .f32⟩
  | .hbm, ⟨10, _⟩ => ⟨S100000x128, .f32⟩
  | .hbm, ⟨11, _⟩ => ⟨S100000x128, .f32⟩
  | .hbm, ⟨12, _⟩ => ⟨S_, .f32⟩
  | .hbm, ⟨13, _⟩ => ⟨S100000x128, .f32⟩
  | .hbm, ⟨14, _⟩ => ⟨S100000x128, .f32⟩
  | .hbm, ⟨15, _⟩ => ⟨S100000x128, .f32⟩
  | .hbm, ⟨16, _⟩ => ⟨S100000x1, .f32⟩
  | .hbm, ⟨17, _⟩ => ⟨S1x100000x1, .f32⟩
  | .hbm, ⟨18, _⟩ => ⟨S_, .f32⟩
  | .hbm, ⟨19, _⟩ => ⟨S1x1, .f32⟩
  | .hbm, ⟨20, _⟩ => ⟨S_, .f32⟩
  | .hbm, ⟨21, _⟩ => ⟨S1x1, .f32⟩
  | .hbm, ⟨22, _⟩ => ⟨S1x1, .f32⟩
  | .hbm, ⟨23, _⟩ => ⟨S1x1x1, .f32⟩
  | .hbm, ⟨24, _⟩ => ⟨S1x100000x1, .f32⟩
  | .hbm, ⟨25, _⟩ => ⟨S1x100000x1, .f32⟩
  | .hbm, ⟨26, _⟩ => ⟨S1x100000x1, .f32⟩
  | .hbm, ⟨27, _⟩ => ⟨S_, .f32⟩
  | .hbm, ⟨28, _⟩ => ⟨S1x1, .f32⟩
  | .hbm, ⟨29, _⟩ => ⟨S1x1x1, .f32⟩
  | .hbm, ⟨30, _⟩ => ⟨S1x100000x1, .f32⟩
  | .hbm, ⟨31, _⟩ => ⟨S1x100000x1, .f32⟩
  | .hbm, ⟨32, _⟩ => ⟨S1x100000x512, .f32⟩
  | .hbm, ⟨33, _⟩ => ⟨S1x1x512, .f32⟩
  | .hbm, ⟨34, _⟩ => ⟨S1x512, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]

class Facts₀ : Prop where
  bcast_S_S100000x128 : S_.BroadcastsInDim S100000x128 (![] : Fin 0 → Fin S100000x128.rank)
  bcast_S100000x1_S1x100000x1_1_2 : S100000x1.BroadcastsInDim S1x100000x1 (![1, 2] : Fin 2 → Fin S1x100000x1.rank)
  reducesTo_S1x100000x1_S1x1_d1 : S1x100000x1.ReducesTo [1] S1x1
  h_S_ : 0 < S_.numel
  bcast_S_S1x1 : S_.BroadcastsInDim S1x1 (![] : Fin 0 → Fin S1x1.rank)
  bcast_S1x1_S1x1x1_0_2 : S1x1.BroadcastsInDim S1x1x1 (![0, 2] : Fin 2 → Fin S1x1x1.rank)
  bcast_S1x1x1_S1x100000x1_0_1_2 : S1x1x1.BroadcastsInDim S1x100000x1 (![0, 1, 2] : Fin 3 → Fin S1x100000x1.rank)
  bcast_S100000x512_S1x100000x512_1_2 : S100000x512.BroadcastsInDim S1x100000x512 (![1, 2] : Fin 2 → Fin S1x100000x512.rank)
  shapeCasts_S1x1x512_S1x512 : S1x1x512.ShapeCasts S1x512
  dot_S100000x512_S512x128_S100000x128_1_0_0_1_n_n_wf : DotDims.WF S100000x512 S512x128 S100000x128 [1] [0] [0] [1] [] []
  dot_S100000x128_S128x1_S100000x1_1_0_0_1_n_n_wf : DotDims.WF S100000x128 S128x1 S100000x1 [1] [0] [0] [1] [] []
  dot_S1x100000x1_S1x100000x512_S1x1x512_1_1_2_2_0_0_wf : DotDims.WF S1x100000x1 S1x100000x512 S1x1x512 [1] [1] [2] [2] [0] [0]

variable [Facts₀]

def dot_S100000x512_S512x128_S100000x128_1_0_0_1_n_n : DotDims S100000x512 S512x128 S100000x128 where
  lhsContracting := [1]
  rhsContracting := [0]
  lhsNonContracting := [0]
  rhsNonContracting := [1]
  lhsBatch := []
  rhsBatch := []
  wf := dot_S100000x512_S512x128_S100000x128_1_0_0_1_n_n_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf
def dot_S1x100000x1_S1x100000x512_S1x1x512_1_1_2_2_0_0 : DotDims S1x100000x1 S1x100000x512 S1x1x512 where
  lhsContracting := [1]
  rhsContracting := [1]
  lhsNonContracting := [2]
  rhsNonContracting := [2]
  lhsBatch := [0]
  rhsBatch := [0]
  wf := dot_S1x100000x1_S1x100000x512_S1x1x512_1_1_2_2_0_0_wf

class Facts : Prop extends Facts₀ where

variable [Facts]
-- ==== Proof.Base.lean ====
/-
  Names for what one grid point of the kernel reads and carries.

  Point t reads its row tile X0 : [2000, 512] (rows 2000·t … 2000·t + 1999 of x), the joined weights X1 : [512, 256] and the
  gate row X2 : [1, 128].  Three values are carried from point to point in buffers the kernel keeps: the running maximum,
  the running normaliser and the running weighted sum (`scr`); one tile updates them by `mNew`, `lNew`, `aNew`.
-/
import proofs.«422200_j18408229831053_4_alg».proof.Proof.Gen.KernelIdeal.Frame

noncomputable section

namespace Cert.KernelIdeal.Val

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ)

/-- The updated running maximum: the old one against the tile's largest score. -/
def mNew (x0 : Vec F S2000x512 .f32) (x1 : Vec F S512x256 .f32) (x2 : Vec F S1x128 .f32) (mp : Vec F S1x1 .f32) : Vec F S1x1 .f32 :=
  k0_pay2 (k0_pay10 x0 x1 x2 mp)

/-- The updated running normaliser: the old one rescaled to the new maximum, plus the tile's exponentials. -/
def lNew (x0 : Vec F S2000x512 .f32) (x1 : Vec F S512x256 .f32) (x2 : Vec F S1x128 .f32) (mp lp : Vec F S1x1 .f32) : Vec F S1x1 .f32 :=
  k0_pay13 x0 x1 x2 mp lp

/-- The updated running weighted sum: the old one rescaled, plus the tile's exponentials times its rows. -/
def aNew (x0 : Vec F S2000x512 .f32) (x1 : Vec F S512x256 .f32) (x2 : Vec F S1x128 .f32) (mp : Vec F S1x1 .f32)
    (ap : Vec F S1x512 .f32) : Vec F S1x512 .f32 :=
  k0_pay1 x0 (k0_pay11 x0 x1 x2 mp) (k0_pay12 x0 x1 x2 mp) ap

/-- The three input blocks of point `t`, at their literal types. -/
abbrev X0 (c : Dev nD) (t : Fin cfg0.N) : Vec F S2000x512 .f32 := iblk m c 0 t
abbrev X1 (c : Dev nD) (t : Fin cfg0.N) : Vec F S512x256 .f32 := iblk m c 1 t
abbrev X2 (c : Dev nD) (t : Fin cfg0.N) : Vec F S1x128 .f32 := iblk m c 2 t

/-- The carried values (maximum, normaliser, weighted sum) after point `n`. -/
def scr (c : Dev nD) (n : ℕ) (h : n < cfg0.N) : Vec F S1x1 .f32 × Vec F S1x1 .f32 × Vec F S1x512 .f32 :=
  (outsAt0 m c n h).2.2.2.2

end Cert.KernelIdeal.Val

end
-- ==== Proof.Pieces.lean ====
/-
  What one grid point of the kernel leaves behind, as pure functions of what it read.

  Point t reads its row tile x0 : [2000, 512], the joined weights x1 : [512, 256] and the gate row x2 : [1, 128], and the three
  values carried from the point before: the running maximum, the running normaliser and the running weighted sum.  It
  leaves the tile's scores in the score window, and the updated running values in the carried buffers (`mNew`, `lNew`,
  `aNew`); at the first tile of a core (t ≡ 0 mod 25) the carried values are first reset to -∞, 0 and 0; at the last tile
  of a core (t ≡ 24 mod 25) the updated values are also copied to the three per-core result windows.
-/
import proofs.«422200_j18408229831053_4_alg».proof.Proof.Base
import Idealize.ShloMosaic.Lib.Pipeline.Value
import Idealize.ShloMosaic.Lib.Tactic

noncomputable section

namespace Cert.KernelIdeal.Val

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ)

private theorem hz2 : (![0, 0] : Fin 2 → Nat) = fun _ => 0 := funext fun a => by fin_cases a <;> rfl
private theorem hz3 : (![0, 0, 0] : Fin 3 → Nat) = fun _ => 0 := funext fun a => by fin_cases a <;> rfl

/-! ## One case of the body at a time

  Each lemma reads one buffer after one case of the body, over arbitrary buffers and arbitrary contents read: the last
  store to the buffer covers it, so the buffer holds that store's payload, and every load in the payload reads either an
  input block, a carried value as the point before left it, or (after a store earlier in the same body) what that store
  wrote. -/

section pieces
variable (c : Dev nD) (i : grid0.Coords)
  (arg2 : Memref sig .tc .vmem S2000x512 .f32) (harg2 : arg2.IsWhole)
  (arg3 : Memref sig .tc .vmem S512x256 .f32) (harg3 : arg3.IsWhole)
  (arg4 : Memref sig .tc .vmem S1x128 .f32) (harg4 : arg4.IsWhole)
  (arg5 : Memref sig .tc .vmem S2000x1 .f32) (harg5 : arg5.IsWhole)
  (arg6 : Memref sig .tc .vmem S1x1x1 .f32) (harg6 : arg6.IsWhole)
  (arg7 : Memref sig .tc .vmem S1x1x1 .f32) (harg7 : arg7.IsWhole)
  (arg8 : Memref sig .tc .vmem S1x1x512 .f32) (harg8 : arg8.IsWhole)
  (arg9 : Memref sig .tc .vmem S1x1 .f32) (harg9 : arg9.IsWhole)
  (arg10 : Memref sig .tc .vmem S1x1 .f32) (harg10 : arg10.IsWhole)
  (arg11 : Memref sig .tc .vmem S1x512 .f32) (harg11 : arg11.IsWhole)
  (x0 : Vec F S2000x512 .f32) (x1 : Vec F S512x256 .f32) (x2 : Vec F S1x128 .f32)
  (s0 s1 : Vec F S1x1 .f32) (s2 : Vec F S1x512 .f32)

theorem piece_oA3 (hc0 : cond0_0 i) (hc1 : ¬cond0_1 i) :
    out0_A_3 c i arg2 harg2 arg3 harg3 arg4 harg4 arg5 harg5 arg6 harg6 arg7 harg7 arg8 harg8 arg9 harg9 arg10 harg10 arg11 harg11 hc0 hc1 x0 x1 x2 = k0_pay9 x0 x1 x2 := by
  unfold out0_A_3
  rw [View.read_writes_eq_canon _ _ _ (cover0_A_3 c i arg2 harg2 arg3 harg3 arg4 harg4 arg5 harg5 arg6 harg6 arg7 harg7 arg8 harg8 arg9 harg9 arg10 harg10 arg11 harg11 hc0 hc1 x0 x1 x2)]
  unfold kernelRun0_A
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread,
    View.readCov_unit_zero (S := S1x1) _ hz2, View.readCov_unit_zero (S := S1x512) _ hz2,
    View.ld_unit_zero (S := S2000x512) hz2, View.ld_unit_zero (S := S512x256) hz2, View.ld_unit_zero (S := S1x128) hz2,
    View.ld_unit_zero (S := S1x1) hz2, View.ld_unit_zero (S := S1x512) hz2, View.ld_unit_zero (S := S2000x1) hz2, shapeCast_self]

theorem piece_sA0 (hc0 : cond0_0 i) (hc1 : ¬cond0_1 i) :
    sout0_A_0 c i arg2 harg2 arg3 harg3 arg4 harg4 arg5 harg5 arg6 harg6 arg7 harg7 arg8 harg8 arg9 harg9 arg10 harg10 arg11 harg11 hc0 hc1 x0 x1 x2 = mNew x0 x1 x2 k0_pay6 := by
  unfold sout0_A_0 mNew
  rw [View.read_writes_eq_canon _ _ _ (scover0_A_0 c i arg2 harg2 arg3 harg3 arg4 harg4 arg5 harg5 arg6 harg6 arg7 harg7 arg8 harg8 arg9 harg9 arg10 harg10 arg11 harg11 hc0 hc1 x0 x1 x2)]
  unfold kernelRun0_A
  dsimp only
  sl_unfold_words
  rw [View.canon_cons_unit_zero (S := S1x1) hz2]
  simp only [View.readAt_eq_ld, harg2.read_unread, harg3.read_unread, harg4.read_unread, harg5.read_unread, harg6.read_unread, harg7.read_unread, harg8.read_unread, harg9.read_unread, harg10.read_unread, harg11.read_unread,
    View.readCov_unit_zero (S := S1x1) _ hz2, View.readCov_unit_zero (S := S1x512) _ hz2,
    View.ld_unit_zero (S := S2000x512) hz2, View.ld_unit_zero (S := S512x256) hz2, View.ld_unit_zero (S := S1x128) hz2,
    View.ld_unit_zero (S := S1x1) hz2, View.ld_unit_zero (S := S1x512) hz2, View.ld_unit_zero (S := S2000x1) hz2, shapeCast_self]

theorem piece_sA1 (hc0 : cond0_0 i) (hc1 : ¬cond0_1 i) :
    sout0_A_1 c i arg2 harg2 arg3 harg3 arg4 harg4 arg5 harg5 arg6 harg6 arg7 harg7 arg8 harg8 arg9 harg9 arg10 harg10 arg11 harg11 hc0 hc1 x0 x1 x2 = lNew x0 x1 x2 k0_pay6 k0_pay7 := by
  unfold sout0_A_1 lNew
  rw [View.read_writes_eq_canon _ _ _ (scover0_A_1 c i arg2 harg2 arg3 harg3 arg4 harg4 arg5 harg5 arg6 harg6 arg7 harg7 arg8 harg8 arg9 harg9 arg10 harg10 arg11 harg11 hc0 hc1 x0 x1 x2)]
  unfold kernelRun0_A
  dsimp only
  sl_unfold_words
  rw [View.canon_cons_unit_zero (S := S1x1) hz2]
  simp only [View.readAt_eq_ld, harg2.read_unread, harg3.read_unread, harg4.read_unread, harg5.read_unread, harg6.read_unread, harg7.read_unread, harg8.read_unread, harg9.read_unread, harg10.read_unread, harg11.read_unread,
    View.readCov_unit_zero (S := S1x1) _ hz2, View.readCov_unit_zero (S := S1x512) _ hz2,
    View.ld_unit_zero (S := S2000x512) hz2, View.ld_unit_zero (S := S512x256) hz2, View.ld_unit_zero (S := S1x128) hz2,
    View.ld_unit_zero (S := S1x1) hz2, View.ld_unit_zero (S := S1x512) hz2, View.ld_unit_zero (S := S2000x1) hz2, shapeCast_self]

theorem piece_sA2 (hc0 : cond0_0 i) (hc1 : ¬cond0_1 i) :
    sout0_A_2 c i arg2 harg2 arg3 harg3 arg4 harg4 arg5 harg5 arg6 harg6 arg7 harg7 arg8 harg8 arg9 harg9 arg10 harg10 arg11 harg11 hc0 hc1 x0 x1 x2 = aNew x0 x1 x2 k0_pay6 k0_pay8 := by
  unfold sout0_A_2 aNew
  rw [View.read_writes_eq_canon _ _ _ (scover0_A_2 c i arg2 harg2 arg3 harg3 arg4 harg4 arg5 harg5 arg6 harg6 arg7 harg7 arg8 harg8 arg9 harg9 arg10 harg10 arg11 harg11 hc0 hc1 x0 x1 x2)]
  unfold kernelRun0_A
  dsimp only
  sl_unfold_words
  rw [View.canon_cons_unit_zero (S := S1x512) hz2]
  simp only [View.readAt_eq_ld, harg2.read_unread, harg3.read_unread, harg4.read_unread, harg5.read_unread, harg6.read_unread, harg7.read_unread, harg8.read_unread, harg9.read_unread, harg10.read_unread, harg11.read_unread,
    View.readCov_unit_zero (S := S1x1) _ hz2, View.readCov_unit_zero (S := S1x512) _ hz2,
    View.ld_unit_zero (S := S2000x512) hz2, View.ld_unit_zero (S := S512x256) hz2, View.ld_unit_zero (S := S1x128) hz2,
    View.ld_unit_zero (S := S1x1) hz2, View.ld_unit_zero (S := S1x512) hz2, View.ld_unit_zero (S := S2000x1) hz2, shapeCast_self]

theorem piece_oC3 (hc0 : ¬cond0_0 i) (hc1 : cond0_1 i) :
    out0_C_3 c i arg2 harg2 arg3 harg3 arg4 harg4 arg5 harg5 arg6 harg6 arg7 harg7 arg8 harg8 arg9 harg9 arg10 harg10 arg11 harg11 hc0 hc1 x0 x1 x2 s0 s1 s2 = k0_pay9 x0 x1 x2 := by
  unfold out0_C_3
  rw [View.read_writes_eq_canon _ _ _ (cover0_C_3 c i arg2 harg2 arg3 harg3 arg4 harg4 arg5 harg5 arg6 harg6 arg7 harg7 arg8 harg8 arg9 harg9 arg10 harg10 arg11 harg11 hc0 hc1 x0 x1 x2 s0 s1 s2)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread,
    View.readCov_unit_zero (S := S1x1) _ hz2, View.readCov_unit_zero (S := S1x512) _ hz2,
    View.ld_unit_zero (S := S2000x512) hz2, View.ld_unit_zero (S := S512x256) hz2, View.ld_unit_zero (S := S1x128) hz2,
    View.ld_unit_zero (S := S1x1) hz2, View.ld_unit_zero (S := S1x512) hz2, View.ld_unit_zero (S := S2000x1) hz2, shapeCast_self]

theorem piece_oC4 (hc0 : ¬cond0_0 i) (hc1 : cond0_1 i) :
    out0_C_4 c i arg2 harg2 arg3 harg3 arg4 harg4 arg5 harg5 arg6 harg6 arg7 harg7 arg8 harg8 arg9 harg9 arg10 harg10 arg11 harg11 hc0 hc1 x0 x1 x2 s0 s1 s2 = k0_pay3 (mNew x0 x1 x2 s0) := by
  unfold out0_C_4 mNew
  rw [View.read_writes_eq_canon _ _ _ (cover0_C_4 c i arg2 harg2 arg3 harg3 arg4 harg4 arg5 harg5 arg6 harg6 arg7 harg7 arg8 harg8 arg9 harg9 arg10 harg10 arg11 harg11 hc0 hc1 x0 x1 x2 s0 s1 s2)]
  unfold kernelRun0_C
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread,
    View.readCov_unit_zero (S := S1x1) _ hz2, View.readCov_unit_zero (S := S1x512) _ hz2,
    View.ld_unit_zero (S := S2000x512) hz2, View.ld_unit_zero (S := S512x256) hz2, View.ld_unit_zero (S := S1x128) hz2,
    View.ld_unit_zero (S := S1x1) hz2, View.ld_unit_zero (S := S1x512) hz2, View.ld_unit_zero (S := S2000x1) hz2, shapeCast_self]

theorem piece_oC5 (hc0 : ¬cond0_0 i) (hc1 : cond0_1 i) :
    out0_C_5 c i arg2 harg2 arg3 harg3 arg4 harg4 arg5 harg5 arg6 harg6 arg7 harg7 arg8 harg8 arg9 harg9 arg10 harg10 arg11 harg11 hc0 hc1 x0 x1 x2 s0 s1 s2 = k0_pay4 (lNew x0 x1 x2 s0 s1) := by
  unfold out0_C_5 lNew
  rw [View.read_writes_eq_canon _ _ _ (cover0_C_5 c i arg2 harg2 arg3 harg3 arg4 harg4 arg5 harg5 arg6 harg6 arg7 harg7 arg8 harg8 arg9 harg9 arg10 harg10 arg11 harg11 hc0 hc1 x0 x1 x2 s0 s1 s2)]
  unfold kernelRun0_C
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread,
    View.readCov_unit_zero (S := S1x1) _ hz2, View.readCov_unit_zero (S := S1x512) _ hz2,
    View.ld_unit_zero (S := S2000x512) hz2, View.ld_unit_zero (S := S512x256) hz2, View.ld_unit_zero (S := S1x128) hz2,
    View.ld_unit_zero (S := S1x1) hz2, View.ld_unit_zero (S := S1x512) hz2, View.ld_unit_zero (S := S2000x1) hz2, shapeCast_self]

theorem piece_oC6 (hc0 : ¬cond0_0 i) (hc1 : cond0_1 i) :
    out0_C_6 c i arg2 harg2 arg3 harg3 arg4 harg4 arg5 harg5 arg6 harg6 arg7 harg7 arg8 harg8 arg9 harg9 arg10 harg10 arg11 harg11 hc0 hc1 x0 x1 x2 s0 s1 s2 = k0_pay5 (aNew x0 x1 x2 s0 s2) := by
  unfold out0_C_6 aNew
  rw [View.read_writes_eq_canon _ _ _ (cover0_C_6 c i arg2 harg2 arg3 harg3 arg4 harg4 arg5 harg5 arg6 harg6 arg7 harg7 arg8 harg8 arg9 harg9 arg10 harg10 arg11 harg11 hc0 hc1 x0 x1 x2 s0 s1 s2)]
  unfold kernelRun0_C
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread,
    View.readCov_unit_zero (S := S1x1) _ hz2, View.readCov_unit_zero (S := S1x512) _ hz2,
    View.ld_unit_zero (S := S2000x512) hz2, View.ld_unit_zero (S := S512x256) hz2, View.ld_unit_zero (S := S1x128) hz2,
    View.ld_unit_zero (S := S1x1) hz2, View.ld_unit_zero (S := S1x512) hz2, View.ld_unit_zero (S := S2000x1) hz2, shapeCast_self]

theorem piece_sC0 (hc0 : ¬cond0_0 i) (hc1 : cond0_1 i) :
    sout0_C_0 c i arg2 harg2 arg3 harg3 arg4 harg4 arg5 harg5 arg6 harg6 arg7 harg7 arg8 harg8 arg9 harg9 arg10 harg10 arg11 harg11 hc0 hc1 x0 x1 x2 s0 s1 s2 = mNew x0 x1 x2 s0 := by
  unfold sout0_C_0 mNew
  rw [View.read_writes_eq_canon _ _ _ (scover0_C_0 c i arg2 harg2 arg3 harg3 arg4 harg4 arg5 harg5 arg6 harg6 arg7 harg7 arg8 harg8 arg9 harg9 arg10 harg10 arg11 harg11 hc0 hc1 x0 x1 x2 s0 s1 s2)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread,
    View.readCov_unit_zero (S := S1x1) _ hz2, View.readCov_unit_zero (S := S1x512) _ hz2,
    View.ld_unit_zero (S := S2000x512) hz2, View.ld_unit_zero (S := S512x256) hz2, View.ld_unit_zero (S := S1x128) hz2,
    View.ld_unit_zero (S := S1x1) hz2, View.ld_unit_zero (S := S1x512) hz2, View.ld_unit_zero (S := S2000x1) hz2, shapeCast_self]

theorem piece_sC1 (hc0 : ¬cond0_0 i) (hc1 : cond0_1 i) :
    sout0_C_1 c i arg2 harg2 arg3 harg3 arg4 harg4 arg5 harg5 arg6 harg6 arg7 harg7 arg8 harg8 arg9 harg9 arg10 harg10 arg11 harg11 hc0 hc1 x0 x1 x2 s0 s1 s2 = lNew x0 x1 x2 s0 s1 := by
  unfold sout0_C_1 lNew
  rw [View.read_writes_eq_canon _ _ _ (scover0_C_1 c i arg2 harg2 arg3 harg3 arg4 harg4 arg5 harg5 arg6 harg6 arg7 harg7 arg8 harg8 arg9 harg9 arg10 harg10 arg11 harg11 hc0 hc1 x0 x1 x2 s0 s1 s2)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread,
    View.readCov_unit_zero (S := S1x1) _ hz2, View.readCov_unit_zero (S := S1x512) _ hz2,
    View.ld_unit_zero (S := S2000x512) hz2, View.ld_unit_zero (S := S512x256) hz2, View.ld_unit_zero (S := S1x128) hz2,
    View.ld_unit_zero (S := S1x1) hz2, View.ld_unit_zero (S := S1x512) hz2, View.ld_unit_zero (S := S2000x1) hz2, shapeCast_self]

theorem piece_sC2 (hc0 : ¬cond0_0 i) (hc1 : cond0_1 i) :
    sout0_C_2 c i arg2 harg2 arg3 harg3 arg4 harg4 arg5 harg5 arg6 harg6 arg7 harg7 arg8 harg8 arg9 harg9 arg10 harg10 arg11 harg11 hc0 hc1 x0 x1 x2 s0 s1 s2 = aNew x0 x1 x2 s0 s2 := by
  unfold sout0_C_2 aNew
  rw [View.read_writes_eq_canon _ _ _ (scover0_C_2 c i arg2 harg2 arg3 harg3 arg4 harg4 arg5 harg5 arg6 harg6 arg7 harg7 arg8 harg8 arg9 harg9 arg10 harg10 arg11 harg11 hc0 hc1 x0 x1 x2 s0 s1 s2)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread,
    View.readCov_unit_zero (S := S1x1) _ hz2, View.readCov_unit_zero (S := S1x512) _ hz2,
    View.ld_unit_zero (S := S2000x512) hz2, View.ld_unit_zero (S := S512x256) hz2, View.ld_unit_zero (S := S1x128) hz2,
    View.ld_unit_zero (S := S1x1) hz2, View.ld_unit_zero (S := S1x512) hz2, View.ld_unit_zero (S := S2000x1) hz2, shapeCast_self]

theorem piece_oB3 (hc0 : ¬cond0_0 i) (hc1 : ¬cond0_1 i) :
    out0_B_3 c i arg2 harg2 arg3 harg3 arg4 harg4 arg5 harg5 arg6 harg6 arg7 harg7 arg8 harg8 arg9 harg9 arg10 harg10 arg11 harg11 hc0 hc1 x0 x1 x2 s0 s1 s2 = k0_pay9 x0 x1 x2 := by
  unfold out0_B_3
  rw [View.read_writes_eq_canon _ _ _ (cover0_B_3 c i arg2 harg2 arg3 harg3 arg4 harg4 arg5 harg5 arg6 harg6 arg7 harg7 arg8 harg8 arg9 harg9 arg10 harg10 arg11 harg11 hc0 hc1 x0 x1 x2 s0 s1 s2)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread,
    View.readCov_unit_zero (S := S1x1) _ hz2, View.readCov_unit_zero (S := S1x512) _ hz2,
    View.ld_unit_zero (S := S2000x512) hz2, View.ld_unit_zero (S := S512x256) hz2, View.ld_unit_zero (S := S1x128) hz2,
    View.ld_unit_zero (S := S1x1) hz2, View.ld_unit_zero (S := S1x512) hz2, View.ld_unit_zero (S := S2000x1) hz2, shapeCast_self]

theorem piece_sB0 (hc0 : ¬cond0_0 i) (hc1 : ¬cond0_1 i) :
    sout0_B_0 c i arg2 harg2 arg3 harg3 arg4 harg4 arg5 harg5 arg6 harg6 arg7 harg7 arg8 harg8 arg9 harg9 arg10 harg10 arg11 harg11 hc0 hc1 x0 x1 x2 s0 s1 s2 = mNew x0 x1 x2 s0 := by
  unfold sout0_B_0 mNew
  rw [View.read_writes_eq_canon _ _ _ (scover0_B_0 c i arg2 harg2 arg3 harg3 arg4 harg4 arg5 harg5 arg6 harg6 arg7 harg7 arg8 harg8 arg9 harg9 arg10 harg10 arg11 harg11 hc0 hc1 x0 x1 x2 s0 s1 s2)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread,
    View.readCov_unit_zero (S := S1x1) _ hz2, View.readCov_unit_zero (S := S1x512) _ hz2,
    View.ld_unit_zero (S := S2000x512) hz2, View.ld_unit_zero (S := S512x256) hz2, View.ld_unit_zero (S := S1x128) hz2,
    View.ld_unit_zero (S := S1x1) hz2, View.ld_unit_zero (S := S1x512) hz2, View.ld_unit_zero (S := S2000x1) hz2, shapeCast_self]

theorem piece_sB1 (hc0 : ¬cond0_0 i) (hc1 : ¬cond0_1 i) :
    sout0_B_1 c i arg2 harg2 arg3 harg3 arg4 harg4 arg5 harg5 arg6 harg6 arg7 harg7 arg8 harg8 arg9 harg9 arg10 harg10 arg11 harg11 hc0 hc1 x0 x1 x2 s0 s1 s2 = lNew x0 x1 x2 s0 s1 := by
  unfold sout0_B_1 lNew
  rw [View.read_writes_eq_canon _ _ _ (scover0_B_1 c i arg2 harg2 arg3 harg3 arg4 harg4 arg5 harg5 arg6 harg6 arg7 harg7 arg8 harg8 arg9 harg9 arg10 harg10 arg11 harg11 hc0 hc1 x0 x1 x2 s0 s1 s2)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread,
    View.readCov_unit_zero (S := S1x1) _ hz2, View.readCov_unit_zero (S := S1x512) _ hz2,
    View.ld_unit_zero (S := S2000x512) hz2, View.ld_unit_zero (S := S512x256) hz2, View.ld_unit_zero (S := S1x128) hz2,
    View.ld_unit_zero (S := S1x1) hz2, View.ld_unit_zero (S := S1x512) hz2, View.ld_unit_zero (S := S2000x1) hz2, shapeCast_self]

theorem piece_sB2 (hc0 : ¬cond0_0 i) (hc1 : ¬cond0_1 i) :
    sout0_B_2 c i arg2 harg2 arg3 harg3 arg4 harg4 arg5 harg5 arg6 harg6 arg7 harg7 arg8 harg8 arg9 harg9 arg10 harg10 arg11 harg11 hc0 hc1 x0 x1 x2 s0 s1 s2 = aNew x0 x1 x2 s0 s2 := by
  unfold sout0_B_2 aNew
  rw [View.read_writes_eq_canon _ _ _ (scover0_B_2 c i arg2 harg2 arg3 harg3 arg4 harg4 arg5 harg5 arg6 harg6 arg7 harg7 arg8 harg8 arg9 harg9 arg10 harg10 arg11 harg11 hc0 hc1 x0 x1 x2 s0 s1 s2)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread,
    View.readCov_unit_zero (S := S1x1) _ hz2, View.readCov_unit_zero (S := S1x512) _ hz2,
    View.ld_unit_zero (S := S2000x512) hz2, View.ld_unit_zero (S := S512x256) hz2, View.ld_unit_zero (S := S1x128) hz2,
    View.ld_unit_zero (S := S1x1) hz2, View.ld_unit_zero (S := S1x512) hz2, View.ld_unit_zero (S := S2000x1) hz2, shapeCast_self]

end pieces

/-! ## The grid points -/

/-- Every point leaves its tile's scores in the score window. -/
theorem out3_eq (c : Dev nD) (t : Fin cfg0.N) :
    (outsAt0 m c t.val t.isLt).1 = k0_pay9 (X0 m c t) (X1 m c t) (X2 m c t) := by
  by_cases h0 : t.val % 25 = 0
  · have h1 : ¬t.val % 25 = 24 := by omega
    rw [outsAt0_A m c t h0 h1]
    dsimp only
    exact piece_oA3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole cc0_scratch0) scM0_1 (Memref.isWhole_whole cc0_scratch1) scM0_2 (Memref.isWhole_whole cc0_scratch2) (iblk m c 0 t) (iblk m c 1 t) (iblk m c 2 t) ((hcond0_0 t).mpr h0) (fun h => h1 ((hcond0_1 t).mp h))
  · by_cases h1 : t.val % 25 = 24
    · rw [outsAt0_C m c t h0 h1]
      dsimp only
      exact piece_oC3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole cc0_scratch0) scM0_1 (Memref.isWhole_whole cc0_scratch1) scM0_2 (Memref.isWhole_whole cc0_scratch2) (iblk m c 0 t) (iblk m c 1 t) (iblk m c 2 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 (fun h => h0 ((hcond0_0 t).mp h)) ((hcond0_1 t).mpr h1)
    · rw [outsAt0_B m c t h0 h1]
      dsimp only
      exact piece_oB3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole cc0_scratch0) scM0_1 (Memref.isWhole_whole cc0_scratch1) scM0_2 (Memref.isWhole_whole cc0_scratch2) (iblk m c 0 t) (iblk m c 1 t) (iblk m c 2 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 (fun h => h0 ((hcond0_0 t).mp h)) (fun h => h1 ((hcond0_1 t).mp h))

/-- The first tile of a core updates the reset values -∞, 0, 0. -/
theorem scr_first (c : Dev nD) (t : Fin cfg0.N) (h0 : t.val % 25 = 0) :
    scr m c t.val t.isLt
      = (mNew (X0 m c t) (X1 m c t) (X2 m c t) k0_pay6,
         lNew (X0 m c t) (X1 m c t) (X2 m c t) k0_pay6 k0_pay7,
         aNew (X0 m c t) (X1 m c t) (X2 m c t) k0_pay6 k0_pay8) := by
  have h1 : ¬t.val % 25 = 24 := by omega
  unfold scr
  rw [outsAt0_A m c t h0 h1]
  dsimp only
  refine congrArg₂ Prod.mk ?_ (congrArg₂ Prod.mk ?_ ?_)
  · exact piece_sA0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole cc0_scratch0) scM0_1 (Memref.isWhole_whole cc0_scratch1) scM0_2 (Memref.isWhole_whole cc0_scratch2) (iblk m c 0 t) (iblk m c 1 t) (iblk m c 2 t) ((hcond0_0 t).mpr h0) (fun h => h1 ((hcond0_1 t).mp h))
  · exact piece_sA1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole cc0_scratch0) scM0_1 (Memref.isWhole_whole cc0_scratch1) scM0_2 (Memref.isWhole_whole cc0_scratch2) (iblk m c 0 t) (iblk m c 1 t) (iblk m c 2 t) ((hcond0_0 t).mpr h0) (fun h => h1 ((hcond0_1 t).mp h))
  · exact piece_sA2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole cc0_scratch0) scM0_1 (Memref.isWhole_whole cc0_scratch1) scM0_2 (Memref.isWhole_whole cc0_scratch2) (iblk m c 0 t) (iblk m c 1 t) (iblk m c 2 t) ((hcond0_0 t).mpr h0) (fun h => h1 ((hcond0_1 t).mp h))

/-- Every other tile updates what the point before left. -/
theorem scr_next (c : Dev nD) (t : Fin cfg0.N) (h0 : ¬t.val % 25 = 0) :
    scr m c t.val t.isLt
      = (mNew (X0 m c t) (X1 m c t) (X2 m c t) (scr m c (t.val - 1) (Nat.lt_of_le_of_lt (Nat.sub_le _ _) t.isLt)).1,
         lNew (X0 m c t) (X1 m c t) (X2 m c t) (scr m c (t.val - 1) (Nat.lt_of_le_of_lt (Nat.sub_le _ _) t.isLt)).1
           (scr m c (t.val - 1) (Nat.lt_of_le_of_lt (Nat.sub_le _ _) t.isLt)).2.1,
         aNew (X0 m c t) (X1 m c t) (X2 m c t) (scr m c (t.val - 1) (Nat.lt_of_le_of_lt (Nat.sub_le _ _) t.isLt)).1
           (scr m c (t.val - 1) (Nat.lt_of_le_of_lt (Nat.sub_le _ _) t.isLt)).2.2) := by
  unfold scr
  by_cases h1 : t.val % 25 = 24
  · rw [outsAt0_C m c t h0 h1]
    dsimp only
    refine congrArg₂ Prod.mk ?_ (congrArg₂ Prod.mk ?_ ?_)
    · exact piece_sC0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole cc0_scratch0) scM0_1 (Memref.isWhole_whole cc0_scratch1) scM0_2 (Memref.isWhole_whole cc0_scratch2) (iblk m c 0 t) (iblk m c 1 t) (iblk m c 2 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 (fun h => h0 ((hcond0_0 t).mp h)) ((hcond0_1 t).mpr h1)
    · exact piece_sC1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole cc0_scratch0) scM0_1 (Memref.isWhole_whole cc0_scratch1) scM0_2 (Memref.isWhole_whole cc0_scratch2) (iblk m c 0 t) (iblk m c 1 t) (iblk m c 2 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 (fun h => h0 ((hcond0_0 t).mp h)) ((hcond0_1 t).mpr h1)
    · exact piece_sC2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole cc0_scratch0) scM0_1 (Memref.isWhole_whole cc0_scratch1) scM0_2 (Memref.isWhole_whole cc0_scratch2) (iblk m c 0 t) (iblk m c 1 t) (iblk m c 2 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 (fun h => h0 ((hcond0_0 t).mp h)) ((hcond0_1 t).mpr h1)
  · rw [outsAt0_B m c t h0 h1]
    dsimp only
    refine congrArg₂ Prod.mk ?_ (congrArg₂ Prod.mk ?_ ?_)
    · exact piece_sB0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole cc0_scratch0) scM0_1 (Memref.isWhole_whole cc0_scratch1) scM0_2 (Memref.isWhole_whole cc0_scratch2) (iblk m c 0 t) (iblk m c 1 t) (iblk m c 2 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 (fun h => h0 ((hcond0_0 t).mp h)) (fun h => h1 ((hcond0_1 t).mp h))
    · exact piece_sB1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole cc0_scratch0) scM0_1 (Memref.isWhole_whole cc0_scratch1) scM0_2 (Memref.isWhole_whole cc0_scratch2) (iblk m c 0 t) (iblk m c 1 t) (iblk m c 2 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 (fun h => h0 ((hcond0_0 t).mp h)) (fun h => h1 ((hcond0_1 t).mp h))
    · exact piece_sB2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole cc0_scratch0) scM0_1 (Memref.isWhole_whole cc0_scratch1) scM0_2 (Memref.isWhole_whole cc0_scratch2) (iblk m c 0 t) (iblk m c 1 t) (iblk m c 2 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 (fun h => h0 ((hcond0_0 t).mp h)) (fun h => h1 ((hcond0_1 t).mp h))

/-- The last tile of a core copies the updated values to the per-core result windows. -/
theorem outs_last (c : Dev nD) (t : Fin cfg0.N) (h1 : t.val % 25 = 24) :
    (outsAt0 m c t.val t.isLt).2.1 = k0_pay3 (scr m c t.val t.isLt).1
    ∧ (outsAt0 m c t.val t.isLt).2.2.1 = k0_pay4 (scr m c t.val t.isLt).2.1
    ∧ (outsAt0 m c t.val t.isLt).2.2.2.1 = k0_pay5 (scr m c t.val t.isLt).2.2 := by
  have h0 : ¬t.val % 25 = 0 := by omega
  unfold scr
  rw [outsAt0_C m c t h0 h1]
  dsimp only
  refine ⟨?_, ?_, ?_⟩
  · exact (piece_oC4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole cc0_scratch0) scM0_1 (Memref.isWhole_whole cc0_scratch1) scM0_2 (Memref.isWhole_whole cc0_scratch2) (iblk m c 0 t) (iblk m c 1 t) (iblk m c 2 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 (fun h => h0 ((hcond0_0 t).mp h)) ((hcond0_1 t).mpr h1)).trans
      (congrArg k0_pay3 (piece_sC0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole cc0_scratch0) scM0_1 (Memref.isWhole_whole cc0_scratch1) scM0_2 (Memref.isWhole_whole cc0_scratch2) (iblk m c 0 t) (iblk m c 1 t) (iblk m c 2 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 (fun h => h0 ((hcond0_0 t).mp h)) ((hcond0_1 t).mpr h1)).symm)
  · exact (piece_oC5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole cc0_scratch0) scM0_1 (Memref.isWhole_whole cc0_scratch1) scM0_2 (Memref.isWhole_whole cc0_scratch2) (iblk m c 0 t) (iblk m c 1 t) (iblk m c 2 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 (fun h => h0 ((hcond0_0 t).mp h)) ((hcond0_1 t).mpr h1)).trans
      (congrArg k0_pay4 (piece_sC1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole cc0_scratch0) scM0_1 (Memref.isWhole_whole cc0_scratch1) scM0_2 (Memref.isWhole_whole cc0_scratch2) (iblk m c 0 t) (iblk m c 1 t) (iblk m c 2 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 (fun h => h0 ((hcond0_0 t).mp h)) ((hcond0_1 t).mpr h1)).symm)
  · exact (piece_oC6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole cc0_scratch0) scM0_1 (Memref.isWhole_whole cc0_scratch1) scM0_2 (Memref.isWhole_whole cc0_scratch2) (iblk m c 0 t) (iblk m c 1 t) (iblk m c 2 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 (fun h => h0 ((hcond0_0 t).mp h)) ((hcond0_1 t).mpr h1)).trans
      (congrArg k0_pay5 (piece_sC2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole cc0_scratch0) scM0_1 (Memref.isWhole_whole cc0_scratch1) scM0_2 (Memref.isWhole_whole cc0_scratch2) (iblk m c 0 t) (iblk m c 1 t) (iblk m c 2 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 (fun h => h0 ((hcond0_0 t).mp h)) ((hcond0_1 t).mpr h1)).symm)

end Cert.KernelIdeal.Val

end
-- ==== Proof.PayIdeal.lean ====
/-
  The kernel's arithmetic over the extended reals, read at an index.

  With x0 the row tile, x1 the joined weights (columns 0..127 the tanh gate's, 128..255 the logistic gate's) and x2 the
  gate row: row r's score is  Σ_k tanh(Σ_d x0[r,d]·x1[d,k]) · logistic(Σ_d x0[r,d]·x1[d,128+k]) · x2[0,k];  the updated
  maximum is the old one against the largest score of the tile; the updated normaliser and weighted sum rescale the old
  ones by e^(old max - new max) and add Σ_r e^(score r - new max) (times x0[r,d] for the weighted sum).
-/
import proofs.«422200_j18408229831053_4_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.PayIdeal

open Idealize.ShloMosaic Idealize.ShloMosaic.ValueIdx
open Cert.KernelIdeal Cert.KernelIdeal.Gen

/-- Row `r`'s score in a tile. -/
def tileScore (x0 : Vec Ideal S2000x512 .f32) (x1 : Vec Ideal S512x256 .f32) (x2 : Vec Ideal S1x128 .f32) (r : Fin 2000) : EReal :=
  ∑ k : Fin 128, (Ideal.tanh (∑ d : Fin 512, x0 (ix2 r d) * x1 (ix2 d ⟨k.val, by omega⟩))
      * Ideal.logistic (∑ d : Fin 512, x0 (ix2 r d) * x1 (ix2 d ⟨128 + k.val, by omega⟩))) * x2 (ix2 0 k)

/-- The updated maximum at its one index. -/
def newMax (x0 : Vec Ideal S2000x512 .f32) (x1 : Vec Ideal S512x256 .f32) (x2 : Vec Ideal S1x128 .f32) (mp : EReal) : EReal :=
  max mp ((Finset.univ : Finset (Fin 2000)).fold max (⊥ : EReal) (fun r => tileScore x0 x1 x2 r))

/-! ## The pointwise transcendental operations at an index -/

private theorem tanh_apply {s : Shape} {φ : FTy} (a : FVec Ideal s φ) (i : s.Idx) : tanh a i = Ideal.tanh (a i) := rfl
private theorem logistic_apply {s : Shape} {φ : FTy} (a : FVec Ideal s φ) (i : s.Idx) : logistic a i = Ideal.logistic (a i) := rfl
private theorem exp_apply {s : Shape} {φ : FTy} (a : FVec Ideal s φ) (i : s.Idx) : exp a i = Ideal.exp (a i) := rfl

/-- The word of minus infinity denotes the bottom of the extended reals. -/
private theorem negInf_f32 : Ideal.ofBits .f32 0xFF800000#32 = (⊥ : EReal) := by
  simp [Ideal.ofBits, Ideal.ieee]

/-! ## The first product: rows of the tile against the joined weights -/

private theorem lhs1_0 (i : S2000x256.Idx) (q : dot_S2000x512_S512x256_S2000x256_1_0_0_1_n_n.contr.Idx) :
    (dot_S2000x512_S512x256_S2000x256_1_0_0_1_n_n.lhsIdx i q 0).val = (i 0).val := by
  unfold DotDims.lhsIdx
  rw [dif_neg (show ¬(0 : Fin S2000x512.rank) ∈ dot_S2000x512_S512x256_S2000x256_1_0_0_1_n_n.lhsBatch by decide), dif_pos (show (0 : Fin S2000x512.rank) ∈ dot_S2000x512_S512x256_S2000x256_1_0_0_1_n_n.lhsNonContracting by decide)]
  rfl
private theorem lhs1_1 (i : S2000x256.Idx) (q : dot_S2000x512_S512x256_S2000x256_1_0_0_1_n_n.contr.Idx) :
    (dot_S2000x512_S512x256_S2000x256_1_0_0_1_n_n.lhsIdx i q 1).val = (q ⟨0, by decide⟩).val :=
  dot_S2000x512_S512x256_S2000x256_1_0_0_1_n_n.lhsIdx_val_of_single rfl i q
private theorem rhs1_0 (i : S2000x256.Idx) (q : dot_S2000x512_S512x256_S2000x256_1_0_0_1_n_n.contr.Idx) :
    (dot_S2000x512_S512x256_S2000x256_1_0_0_1_n_n.rhsIdx i q 0).val = (q ⟨0, by decide⟩).val :=
  dot_S2000x512_S512x256_S2000x256_1_0_0_1_n_n.rhsIdx_val_of_single rfl i q
private theorem rhs1_1 (i : S2000x256.Idx) (q : dot_S2000x512_S512x256_S2000x256_1_0_0_1_n_n.contr.Idx) :
    (dot_S2000x512_S512x256_S2000x256_1_0_0_1_n_n.rhsIdx i q 1).val = (i 1).val := by
  unfold DotDims.rhsIdx
  rw [dif_neg (show ¬(1 : Fin S512x256.rank) ∈ dot_S2000x512_S512x256_S2000x256_1_0_0_1_n_n.rhsBatch by decide), dif_pos (show (1 : Fin S512x256.rank) ∈ dot_S2000x512_S512x256_S2000x256_1_0_0_1_n_n.rhsNonContracting by decide)]
  rfl

/-- The product into the zero splat, at (r, c): the sum over d of x0[r,d] · x1[d,c]. -/
private theorem matmul1_apply (x0 : FVec Ideal S2000x512 .f32) (x1 : FVec Ideal S512x256 .f32) (r : Fin 2000) (c : Fin 256) :
    matmul dot_S2000x512_S512x256_S2000x256_1_0_0_1_n_n none x0 x1 (constant (F := Ideal) S2000x256 .f32 0x00000000#32) (ix2 r c)
      = ∑ d : Fin 512, x0 (ix2 r d) * x1 (ix2 d c) := by
  simp only [matmul]
  rw [Ideal.matmul_constant_zero_apply, ← Equiv.sum_comp (contrEquiv1 dot_S2000x512_S512x256_S2000x256_1_0_0_1_n_n 512 rfl rfl).symm]
  refine Finset.sum_congr rfl fun k _ => ?_
  have hk := contrEquiv1_symm_val dot_S2000x512_S512x256_S2000x256_1_0_0_1_n_n 512 rfl rfl k
  have el : dot_S2000x512_S512x256_S2000x256_1_0_0_1_n_n.lhsIdx (ix2 r c) ((contrEquiv1 dot_S2000x512_S512x256_S2000x256_1_0_0_1_n_n 512 rfl rfl).symm k) = ix2 r k := funext fun a => Fin.ext (by
    match a with
    | ⟨0, _⟩ => exact lhs1_0 _ _
    | ⟨1, _⟩ => exact (lhs1_1 _ _).trans hk)
  have er : dot_S2000x512_S512x256_S2000x256_1_0_0_1_n_n.rhsIdx (ix2 r c) ((contrEquiv1 dot_S2000x512_S512x256_S2000x256_1_0_0_1_n_n 512 rfl rfl).symm k) = ix2 k c := funext fun a => Fin.ext (by
    match a with
    | ⟨0, _⟩ => exact (rhs1_0 _ _).trans hk
    | ⟨1, _⟩ => exact rhs1_1 _ _)
  rw [el, er]

/-! ## The two halves of the product's columns -/

private theorem slice_lo_apply (y : FVec Ideal S2000x256 .f32) (r : Fin 2000) (k : Fin 128) :
    extractStridedSlice S2000x128 ![0, 0] y slices_S2000x256_o0_0_S2000x128 (ix2 r k) = y (ix2 r ⟨k.val, by omega⟩) :=
  extractStridedSlice_apply _ y _ _ _ fun a => match a with
    | ⟨0, _⟩ => by show r.val = 0 + r.val; omega
    | ⟨1, _⟩ => by show k.val = 0 + k.val; omega

private theorem slice_hi_apply (y : FVec Ideal S2000x256 .f32) (r : Fin 2000) (k : Fin 128) :
    extractStridedSlice S2000x128 ![0, 128] y slices_S2000x256_o0_128_S2000x128 (ix2 r k) = y (ix2 r ⟨128 + k.val, by omega⟩) :=
  extractStridedSlice_apply _ y _ _ _ fun a => match a with
    | ⟨0, _⟩ => by show r.val = 0 + r.val; omega
    | ⟨1, _⟩ => by show 128 + k.val = 128 + k.val; rfl

/-! ## A row's sum over the 128 lanes, and the column it is stored as -/

private theorem rowSum_apply (y : FVec Ideal S2000x128 .f32) (r : Fin 2000) :
    multiReduction (F := Ideal) .add [1] S2000 y 0x00000000#32 reduces_S2000x128_S2000 (.inl rfl) rfl (ix1 r)
      = ∑ k : Fin 128, y (ix2 r k) := by
  refine (Ideal.multiReduction_add_single y 0x00000000#32 reduces_S2000x128_S2000 (.inl rfl) rfl (ix1 r)).trans ?_
  refine Finset.sum_congr rfl fun k _ => congrArg y ?_
  funext a
  match a with
  | ⟨0, _⟩ => rfl
  | ⟨1, _⟩ => rfl

/-- An `[a]` array cast to `[a, 1]` reads, at `(i, u)`, the operand at `i`. -/
private theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem pay9_apply (x0 : Vec Ideal S2000x512 .f32) (x1 : Vec Ideal S512x256 .f32) (x2 : Vec Ideal S1x128 .f32) (r : Fin 2000) :
    k0_pay9 x0 x1 x2 (ix2 r 0) = tileScore x0 x1 x2 r := by
  unfold k0_pay9
  refine (shapeCast_a_a1_apply _ _ r 0).trans ?_
  refine (rowSum_apply _ r).trans ?_
  unfold tileScore
  refine Finset.sum_congr rfl fun k _ => ?_
  rw [shapeCast_self x1, shapeCast_self x2, mulf_apply, mulf_apply, tanh_apply, logistic_apply,
    slice_lo_apply, slice_hi_apply, broadcastTo_1b_ab_apply, matmul1_apply, matmul1_apply]

theorem pay6_apply : k0_pay6 (F := Ideal) (ix2 0 0) = (⊥ : EReal) := by
  unfold k0_pay6
  refine (congrFun (shapeCast_self _ _) _).trans ?_
  exact negInf_f32

theorem pay7_apply : k0_pay7 (F := Ideal) (ix2 0 0) = (0 : EReal) := by
  unfold k0_pay7
  refine (congrFun (shapeCast_self _ _) _).trans ?_
  exact Ideal.ofBits_zero_f32

theorem pay8_apply (d : Fin 512) : k0_pay8 (F := Ideal) (ix2 0 d) = (0 : EReal) := by
  unfold k0_pay8
  refine (congrFun (shapeCast_self _ _) _).trans ?_
  exact Ideal.ofBits_zero_f32

/-! ## The column's maximum and sum over the 2000 rows -/

private theorem colMax_apply (y : FVec Ideal S2000x1 .f32) :
    multiReduction (F := Ideal) .maximumf [0] S1 y 0xFF800000#32 reduces_S2000x1_S1 (.inl rfl) rfl (ix1 0)
      = (Finset.univ : Finset (Fin 2000)).fold max (⊥ : EReal) (fun r => y (ix2 r 0)) := by
  refine (Ideal.multiReduction_maximumf_single y 0xFF800000#32 reduces_S2000x1_S1 (.inl rfl) rfl (ix1 0)).trans ?_
  have hb : (FloatOps.ofBits (F := Ideal) .f32 0xFF800000#32 : EReal) = ⊥ := negInf_f32
  have hf : (y ∘ reduces_S2000x1_S1.lift (ix1 0)) = fun r : Fin 2000 => y (ix2 r 0) := funext fun r => congrArg y (by
    funext a
    match a with
    | ⟨0, _⟩ => rfl
    | ⟨1, _⟩ => rfl)
  rw [hb, hf]
  rfl

private theorem colSum_apply (y : FVec Ideal S2000x1 .f32) :
    multiReduction (F := Ideal) .add [0] S1 y 0x00000000#32 reduces_S2000x1_S1 (.inl rfl) rfl (ix1 0)
      = ∑ r : Fin 2000, y (ix2 r 0) := by
  refine (Ideal.multiReduction_add_single y 0x00000000#32 reduces_S2000x1_S1 (.inl rfl) rfl (ix1 0)).trans ?_
  refine Finset.sum_congr rfl fun r _ => congrArg y ?_
  funext a
  match a with
  | ⟨0, _⟩ => rfl
  | ⟨1, _⟩ => rfl

/-- A `[1, 1]` array broadcast to `[1, b]` reads its one element everywhere. -/
private theorem broadcastTo_11_1b_apply {α : Type} {b : ℕ} (v : (⟨2, ![1, 1]⟩ : Shape).Idx → α) (h : (⟨2, ![1, 1]⟩ : Shape).Broadcasts ⟨2, ![1, b]⟩)
    (p : Fin 1) (c : Fin b) : broadcastTo ⟨2, ![1, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-! ## The second product: the rows' weights against the tile, contracted over the rows -/

private theorem lhs2_0 (i : S1x512.Idx) (q : dot_S2000x1_S2000x512_S1x512_0_0_1_1_n_n.contr.Idx) :
    (dot_S2000x1_S2000x512_S1x512_0_0_1_1_n_n.lhsIdx i q 0).val = (q ⟨0, by decide⟩).val :=
  dot_S2000x1_S2000x512_S1x512_0_0_1_1_n_n.lhsIdx_val_of_single rfl i q
private theorem lhs2_1 (i : S1x512.Idx) (q : dot_S2000x1_S2000x512_S1x512_0_0_1_1_n_n.contr.Idx) :
    (dot_S2000x1_S2000x512_S1x512_0_0_1_1_n_n.lhsIdx i q 1).val = (i 0).val := by
  unfold DotDims.lhsIdx
  rw [dif_neg (show ¬(1 : Fin S2000x1.rank) ∈ dot_S2000x1_S2000x512_S1x512_0_0_1_1_n_n.lhsBatch by decide), dif_pos (show (1 : Fin S2000x1.rank) ∈ dot_S2000x1_S2000x512_S1x512_0_0_1_1_n_n.lhsNonContracting by decide)]
  rfl
private theorem rhs2_0 (i : S1x512.Idx) (q : dot_S2000x1_S2000x512_S1x512_0_0_1_1_n_n.contr.Idx) :
    (dot_S2000x1_S2000x512_S1x512_0_0_1_1_n_n.rhsIdx i q 0).val = (q ⟨0, by decide⟩).val :=
  dot_S2000x1_S2000x512_S1x512_0_0_1_1_n_n.rhsIdx_val_of_single rfl i q
private theorem rhs2_1 (i : S1x512.Idx) (q : dot_S2000x1_S2000x512_S1x512_0_0_1_1_n_n.contr.Idx) :
    (dot_S2000x1_S2000x512_S1x512_0_0_1_1_n_n.rhsIdx i q 1).val = (i 1).val := by
  unfold DotDims.rhsIdx
  rw [dif_neg (show ¬(1 : Fin S2000x512.rank) ∈ dot_S2000x1_S2000x512_S1x512_0_0_1_1_n_n.rhsBatch by decide), dif_pos (show (1 : Fin S2000x512.rank) ∈ dot_S2000x1_S2000x512_S1x512_0_0_1_1_n_n.rhsNonContracting by decide)]
  rfl

/-- The product into the zero splat, at (0, d): the sum over r of p[r,0] · x0[r,d]. -/
private theorem matmul2_apply (p : FVec Ideal S2000x1 .f32) (x0 : FVec Ideal S2000x512 .f32) (u : Fin 1) (d : Fin 512) :
    matmul dot_S2000x1_S2000x512_S1x512_0_0_1_1_n_n none p x0 (constant (F := Ideal) S1x512 .f32 0x00000000#32) (ix2 u d)
      = ∑ r : Fin 2000, p (ix2 r 0) * x0 (ix2 r d) := by
  simp only [matmul]
  rw [Ideal.matmul_constant_zero_apply, ← Equiv.sum_comp (contrEquiv1 dot_S2000x1_S2000x512_S1x512_0_0_1_1_n_n 2000 rfl rfl).symm]
  refine Finset.sum_congr rfl fun k _ => ?_
  have hk := contrEquiv1_symm_val dot_S2000x1_S2000x512_S1x512_0_0_1_1_n_n 2000 rfl rfl k
  have hu : u.val = 0 := by omega
  have el : dot_S2000x1_S2000x512_S1x512_0_0_1_1_n_n.lhsIdx (ix2 u d) ((contrEquiv1 dot_S2000x1_S2000x512_S1x512_0_0_1_1_n_n 2000 rfl rfl).symm k) = ix2 k 0 := funext fun a => Fin.ext (by
    match a with
    | ⟨0, _⟩ => exact (lhs2_0 _ _).trans hk
    | ⟨1, _⟩ => exact (lhs2_1 _ _).trans hu)
  have er : dot_S2000x1_S2000x512_S1x512_0_0_1_1_n_n.rhsIdx (ix2 u d) ((contrEquiv1 dot_S2000x1_S2000x512_S1x512_0_0_1_1_n_n 2000 rfl rfl).symm k) = ix2 k d := funext fun a => Fin.ext (by
    match a with
    | ⟨0, _⟩ => exact (rhs2_0 _ _).trans hk
    | ⟨1, _⟩ => exact rhs2_1 _ _)
  rw [el, er]

/-! ## The running maximum, the rescaling factor and the rows' weights -/

/-- The updated maximum before it is stored: the old one against the tile's largest score. -/
theorem pay10_apply (x0 : Vec Ideal S2000x512 .f32) (x1 : Vec Ideal S512x256 .f32) (x2 : Vec Ideal S1x128 .f32) (mp : Vec Ideal S1x1 .f32) :
    k0_pay10 x0 x1 x2 mp (ix2 0 0) = newMax x0 x1 x2 (mp (ix2 0 0)) := by
  unfold k0_pay10
  rw [maximumf_apply, shapeCast_a_1a_apply, colMax_apply]
  unfold newMax
  exact congrArg (fun f => max (mp (ix2 0 0)) ((Finset.univ : Finset (Fin 2000)).fold max (⊥ : EReal) f))
    (funext fun r => pay9_apply x0 x1 x2 r)

/-- The rescaling factor e^(old max - new max). -/
theorem pay11_apply (x0 : Vec Ideal S2000x512 .f32) (x1 : Vec Ideal S512x256 .f32) (x2 : Vec Ideal S1x128 .f32) (mp : Vec Ideal S1x1 .f32) :
    k0_pay11 x0 x1 x2 mp (ix2 0 0) = Ideal.exp (mp (ix2 0 0) - newMax x0 x1 x2 (mp (ix2 0 0))) := by
  unfold k0_pay11
  rw [exp_apply, subf_apply, pay10_apply]

/-- Row r's weight e^(score r - new max). -/
theorem pay12_apply (x0 : Vec Ideal S2000x512 .f32) (x1 : Vec Ideal S512x256 .f32) (x2 : Vec Ideal S1x128 .f32) (mp : Vec Ideal S1x1 .f32) (r : Fin 2000) :
    k0_pay12 x0 x1 x2 mp (ix2 r 0) = Ideal.exp (tileScore x0 x1 x2 r - newMax x0 x1 x2 (mp (ix2 0 0))) := by
  unfold k0_pay12
  rw [exp_apply, subf_apply, broadcastTo_1b_ab_apply, pay9_apply, pay10_apply]

theorem pay2_pay10_apply (x0 : Vec Ideal S2000x512 .f32) (x1 : Vec Ideal S512x256 .f32) (x2 : Vec Ideal S1x128 .f32) (mp : Vec Ideal S1x1 .f32) :
    k0_pay2 (k0_pay10 x0 x1 x2 mp) (ix2 0 0) = newMax x0 x1 x2 (mp (ix2 0 0)) := by
  unfold k0_pay2
  exact (congrFun (shapeCast_self _ _) _).trans (pay10_apply x0 x1 x2 mp)

theorem pay13_apply (x0 : Vec Ideal S2000x512 .f32) (x1 : Vec Ideal S512x256 .f32) (x2 : Vec Ideal S1x128 .f32) (mp lp : Vec Ideal S1x1 .f32) :
    k0_pay13 x0 x1 x2 mp lp (ix2 0 0)
      = Ideal.exp (mp (ix2 0 0) - newMax x0 x1 x2 (mp (ix2 0 0))) * lp (ix2 0 0)
        + ∑ r : Fin 2000, Ideal.exp (tileScore x0 x1 x2 r - newMax x0 x1 x2 (mp (ix2 0 0))) := by
  unfold k0_pay13
  refine (congrFun (shapeCast_self _ _) _).trans ?_
  rw [addf_apply, mulf_apply, pay11_apply, shapeCast_a_1a_apply, colSum_apply]
  exact congrArg (fun t => Ideal.exp (mp (ix2 0 0) - newMax x0 x1 x2 (mp (ix2 0 0))) * lp (ix2 0 0) + t)
    (Finset.sum_congr rfl fun r _ => pay12_apply x0 x1 x2 mp r)

theorem pay1_apply (x0 : Vec Ideal S2000x512 .f32) (x1 : Vec Ideal S512x256 .f32) (x2 : Vec Ideal S1x128 .f32) (mp : Vec Ideal S1x1 .f32)
    (ap : Vec Ideal S1x512 .f32) (d : Fin 512) :
    k0_pay1 x0 (k0_pay11 x0 x1 x2 mp) (k0_pay12 x0 x1 x2 mp) ap (ix2 0 d)
      = Ideal.exp (mp (ix2 0 0) - newMax x0 x1 x2 (mp (ix2 0 0))) * ap (ix2 0 d)
        + ∑ r : Fin 2000, Ideal.exp (tileScore x0 x1 x2 r - newMax x0 x1 x2 (mp (ix2 0 0))) * x0 (ix2 r d) := by
  unfold k0_pay1
  refine (congrFun (shapeCast_self _ _) _).trans ?_
  rw [addf_apply, mulf_apply, broadcastTo_11_1b_apply, pay11_apply, matmul2_apply]
  exact congrArg (fun t => Ideal.exp (mp (ix2 0 0) - newMax x0 x1 x2 (mp (ix2 0 0))) * ap (ix2 0 d) + t)
    (Finset.sum_congr rfl fun r _ => by rw [pay12_apply])

theorem pay3_apply (v : Vec Ideal S1x1 .f32) : k0_pay3 v (ix3 0 0 0) = v (ix2 0 0) := by
  unfold k0_pay3
  exact shapeCast_ab_1ab_apply v _ 0 0 0

theorem pay4_apply (v : Vec Ideal S1x1 .f32) : k0_pay4 v (ix3 0 0 0) = v (ix2 0 0) := by
  unfold k0_pay4
  exact shapeCast_ab_1ab_apply v _ 0 0 0

theorem pay5_apply (v : Vec Ideal S1x512 .f32) (d : Fin 512) : k0_pay5 v (ix3 0 0 d) = v (ix2 0 d) := by
  unfold k0_pay5
  exact shapeCast_ab_1ab_apply v _ 0 0 d

end Cert.KernelIdeal.PayIdeal

end
-- ==== Proof.Blocks.lean ====
/-
  The three input blocks of a grid point, read at an index in terms of the argument arrays.

  Block t of x holds its rows 2000·t … 2000·t + 1999.  The joined weights are Wv beside Wu along the columns (columns
  0..127 are Wv's, 128..255 are Wu's), the same at every point, and the gate row is Wa's one column laid out as a row.
-/
import proofs.«422200_j18408229831053_4_alg».proof.Proof.Base
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Val

open Idealize.ShloMosaic Idealize.ShloMosaic.TcCoe Idealize.SL.Sem Idealize.ShloMosaic.ValueIdx
open Cert.KernelIdeal Cert.KernelIdeal.Gen

variable {F : FTy → Type} [FloatOps F]
variable (m : (ℓ : Loc nD τ sig) → Buf (Elt F) ℓ)

/-! ## What the region finds in the two arrays the host wrote -/

/-- The joined weights as the region finds them: Wv and Wu side by side along the columns. -/
theorem blk_joined_eq (c : Dev nD) :
    (V m c main_v0 : S512x256.Idx → Elt F .f32) =
      concatenate S512x256 1
        [⟨S512x128, m ((c : Thread nD τ).loc main_arg1)⟩, ⟨S512x128, m ((c : Thread nD τ).loc main_arg2)⟩]
        concatenates_S512x128_S512x128_S512x256_d1 := by
  show StableHlo.after hostOps0 (fun b => m (c, b)) (Proc.devRef .tc main_v0) = _
  after_results

/-- The gate row as the region finds it: Wa's [128, 1] entries relaid as [1, 128]. -/
theorem blk_gate_eq (c : Dev nD) :
    (V m c main_v1 : S1x128.Idx → Elt F .f32) =
      shapeCast S1x128 (m ((c : Thread nD τ).loc main_arg3)) shapeCasts_S128x1_S1x128 := by
  show StableHlo.after hostOps0 (fun b => m (c, b)) (Proc.devRef .tc main_v1) = _
  after_results
  rfl

/-! ## The host terms at an index, over any operands -/

/-- Column `k < 128` of two [512, 128] arrays joined along the columns is column `k` of the first. -/
theorem blk_join_left (a b : Vec F S512x128 .f32) (d : Fin 512) (k : Fin 128) :
    concatenate S512x256 1 [⟨S512x128, a⟩, ⟨S512x128, b⟩] concatenates_S512x128_S512x128_S512x256_d1
      (ix2 d ⟨k.val, by omega⟩) = a (ix2 d k) := by
  refine concatenate_pair_apply_left (t := S512x256) 1 a b _ _ rfl (ix2 d k) ?_
  intro e
  match e with
  | ⟨0, _⟩ => rfl
  | ⟨1, _⟩ => rfl

/-- Column `128 + k` of the join is column `k` of the second: the first piece is 128 columns wide. -/
theorem blk_join_right (a b : Vec F S512x128 .f32) (d : Fin 512) (k : Fin 128) :
    concatenate S512x256 1 [⟨S512x128, a⟩, ⟨S512x128, b⟩] concatenates_S512x128_S512x128_S512x256_d1
      (ix2 d ⟨128 + k.val, by omega⟩) = b (ix2 d k) := by
  refine concatenate_pair_apply_right (t := S512x256) 1 a b _ _ rfl rfl (ix2 d k) ?_ ?_
  · intro e he
    match e, he with
    | ⟨0, _⟩, _ => rfl
    | ⟨1, _⟩, he => exact absurd rfl he
  · show k.val + 128 = 128 + k.val
    omega

/-- A [128, 1] column relaid as a [1, 128] row: entry (0, k) of the row is entry (k, 0) of the column, both being the
    k-th entry in row-major order (k·1 + 0 = 0·128 + k). -/
theorem blk_row_of_col (x : Vec F S128x1 .f32) (k : Fin 128) :
    shapeCast S1x128 x shapeCasts_S128x1_S1x128 (ix2 0 k) = x (ix2 k 0) := by
  refine shapeCast_apply x _ _ (ix2 k 0) ?_
  rw [Shape.rowMajor_val_two, Shape.rowMajor_val_two]
  show k.val * 1 + 0 = 0 * 128 + k.val
  omega

/-! ## The one-block windows read their whole array

A block's coordinate along an axis is (block index) × (block extent) + 1 × (coordinate inside the block); for the joined
weights and the gate row the block index is (0, 0) at every grid point, so the block is the array. -/

/-- The joined-weights block at any point is the joined array itself. -/
theorem blk_X1_entry (c : Dev nD) (t : Fin cfg0.N) (d : Fin 512) (j : Fin 256) :
    X1 m c t (ix2 d j) = V m c main_v0 (ix2 d j) := by
  have hi : win0_1.index t 0 = 0 ∧ win0_1.index t 1 = 0 :=
    (by decide +kernel : ∀ t : Fin grid0.N, win0_1.index t 0 = 0 ∧ win0_1.index t 1 = 0) t
  unfold X1 iblk
  rw [View.read_apply]
  show V m c main_v0 _ = V m c main_v0 _
  congr 1
  funext a
  apply Fin.ext
  match a with
  | ⟨0, _⟩ => show win0_1.index t 0 * 512 + 1 * d.val = d.val; rw [hi.1]; omega
  | ⟨1, _⟩ => show win0_1.index t 1 * 256 + 1 * j.val = j.val; rw [hi.2]; omega

/-- The gate-row block at any point is the gate row itself. -/
theorem blk_X2_entry (c : Dev nD) (t : Fin cfg0.N) (k : Fin 128) :
    X2 m c t (ix2 0 k) = V m c main_v1 (ix2 0 k) := by
  have hi : win0_2.index t 0 = 0 ∧ win0_2.index t 1 = 0 :=
    (by decide +kernel : ∀ t : Fin grid0.N, win0_2.index t 0 = 0 ∧ win0_2.index t 1 = 0) t
  unfold X2 iblk
  rw [View.read_apply]
  show V m c main_v1 _ = V m c main_v1 _
  congr 1
  funext a
  apply Fin.ext
  match a with
  | ⟨0, _⟩ => show win0_2.index t 0 * 1 + 1 * 0 = 0; rw [hi.1]
  | ⟨1, _⟩ => show win0_2.index t 1 * 128 + 1 * k.val = k.val; rw [hi.2]; omega

/-! ## The three blocks in terms of the argument arrays -/

/-- Row `r` of tile `t` is row `2000·t + r` of x. -/
theorem X0_apply (c : Dev nD) (t : Fin cfg0.N) (r : Fin 2000) (d : Fin 512)
    (h : 2000 * t.val + r.val < 100000) :
    X0 m c t (ix2 r d) = m ((c : Thread nD τ).loc main_arg0) (ix2 ⟨2000 * t.val + r.val, h⟩ d) := by
  -- the row-block index of point t is t itself and the column-block index is 0; no host operation writes x
  have hi : win0_0.index t 0 = t.val ∧ win0_0.index t 1 = 0 :=
    (by decide +kernel : ∀ t : Fin grid0.N, win0_0.index t 0 = t.val ∧ win0_0.index t 1 = 0) t
  rw [← V_main_arg0 m c]
  unfold X0 iblk
  rw [View.read_apply]
  show V m c main_arg0 _ = V m c main_arg0 _
  congr 1
  funext a
  apply Fin.ext
  match a with
  | ⟨0, _⟩ => show win0_0.index t 0 * 2000 + 1 * r.val = 2000 * t.val + r.val; rw [hi.1]; omega
  | ⟨1, _⟩ => show win0_0.index t 1 * 512 + 1 * d.val = d.val; rw [hi.2]; omega

/-- The left half of the joined weights is Wv. -/
theorem X1_left (c : Dev nD) (t : Fin cfg0.N) (d : Fin 512) (k : Fin 128) :
    X1 m c t (ix2 d ⟨k.val, by omega⟩) = m ((c : Thread nD τ).loc main_arg1) (ix2 d k) :=
  (blk_X1_entry m c t d _).trans ((congrFun (blk_joined_eq m c) _).trans (blk_join_left _ _ d k))

/-- The right half of the joined weights is Wu. -/
theorem X1_right (c : Dev nD) (t : Fin cfg0.N) (d : Fin 512) (k : Fin 128) :
    X1 m c t (ix2 d ⟨128 + k.val, by omega⟩) = m ((c : Thread nD τ).loc main_arg2) (ix2 d k) :=
  (blk_X1_entry m c t d _).trans ((congrFun (blk_joined_eq m c) _).trans (blk_join_right _ _ d k))

/-- The gate row is Wa's column. -/
theorem X2_apply (c : Dev nD) (t : Fin cfg0.N) (k : Fin 128) :
    X2 m c t (ix2 0 k) = m ((c : Thread nD τ).loc main_arg3) (ix2 k 0) :=
  (blk_X2_entry m c t k).trans ((congrFun (blk_gate_eq m c) _).trans (blk_row_of_col _ k))

end Cert.KernelIdeal.Val

end
-- ==== Proof.OnlineSoftmax.lean ====
/-
  The algebra of a running ("online") softmax over the extended reals, for real scores.

  Rows are visited tile by tile.  After the rows `P` the running state is a maximum `m`, a normaliser `l` and a weighted
  sum `a`; one tile updates them by  m' = max m (tile max),  l' = e^(m - m') · l + Σ_r e^(s_r - m'),
  a' = e^(m - m') · a + Σ_r e^(s_r - m') · x_r.  The first tile starts from m = -∞, l = a = 0, where e^(-∞) = 0.
  For REAL scores the state after `P` is  m = max_P s (a real μ),  l = Σ_P e^(s - μ),  a = Σ_P e^(s - μ) · x
  (`Inv`, `InvAcc`), by e^(u) · e^(v) = e^(u + v).  Two disjoint halves that cover all rows combine, with
  M = max of the two maxima, to the global normaliser Σ_n e^(s_n - M) and weighted sum (`combine`, `combineAcc`);
  the plain two-pass softmax has the same normaliser (`ref_norm`), and dividing a sum by the normaliser is summing the
  quotients (`div_sum`).
-/
import Idealize.ShloMosaic.PureOps.Ideal
import Mathlib.Data.EReal.Operations
import Mathlib.Algebra.BigOperators.Group.Finset.Basic
import Mathlib.Analysis.SpecialFunctions.Exp

noncomputable section

namespace Cert.OnlineSoftmax

open Idealize.ShloMosaic

variable {ι : Type} [DecidableEq ι]

/-- Real scores as extended reals. -/
abbrev up (s : ι → ℝ) : ι → EReal := fun n => (s n : EReal)

/-- The running maximum `m` and normaliser `l` after the rows `P`: `m` is a real `μ`, the maximum of the scores over `P`,
    and `l = Σ_{n ∈ P} e^(s n - μ)`. -/
def Inv (s : ι → ℝ) (P : Finset ι) (m l : EReal) : Prop :=
  ∃ μ : ℝ, m = (μ : EReal) ∧ m = P.sup (up s) ∧ l = ((∑ n ∈ P, Real.exp (s n - μ) : ℝ) : EReal)

/-- The running weighted sum `a` of a real column `x` after the rows `P`, against the running maximum `m = μ`:
    `a = Σ_{n ∈ P} e^(s n - μ) · x n`. -/
def InvAcc (s x : ι → ℝ) (P : Finset ι) (m a : EReal) : Prop :=
  ∃ μ : ℝ, m = (μ : EReal) ∧ a = ((∑ n ∈ P, Real.exp (s n - μ) * x n : ℝ) : EReal)

/-- The inclusion of the reals in the extended reals is monotone, so it carries a maximum to the maximum. -/
private theorem coe_max (a b : ℝ) : ((max a b : ℝ) : EReal) = max (a : EReal) (b : EReal) :=
  EReal.coe_strictMono.monotone.map_max

/-- A real finite sum, seen in the extended reals, is the sum of the terms seen there. -/
private theorem coe_sum {α : Type} (P : Finset α) (f : α → ℝ) :
    ((∑ n ∈ P, f n : ℝ) : EReal) = ∑ n ∈ P, (f n : EReal) := by
  classical
  refine Finset.induction_on P (by simp) ?_
  intro a P ha ih
  rw [Finset.sum_insert ha, Finset.sum_insert ha, EReal.coe_add, ih]

/-- A tile's maximum, folded from -∞, is the supremum of the scores over the tile's rows. -/
private theorem tile_sup {R : ℕ} (s : ι → ℝ) (e : Fin R ↪ ι) :
    (Finset.univ : Finset (Fin R)).fold max (⊥ : EReal) (fun r => up s (e r))
      = (Finset.univ.map e).sup (up s) := by
  rw [Finset.sup_map]; rfl

/-- A tile of positive height has a row. -/
private theorem tile_nonempty {R : ℕ} (hR : 0 < R) (e : Fin R ↪ ι) : (Finset.univ.map e).Nonempty := by
  haveI : Nonempty (Fin R) := ⟨⟨0, hR⟩⟩
  exact Finset.univ_nonempty.map

/-- Against a real maximum `μ'` every term `e^(s_r - μ')` of a tile is real; the tile's sum is the sum over its rows. -/
private theorem tile_sum {R : ℕ} (s : ι → ℝ) (e : Fin R ↪ ι) (μ' : ℝ) :
    ∑ r : Fin R, Ideal.exp (up s (e r) - (μ' : EReal))
      = ((∑ n ∈ Finset.univ.map e, Real.exp (s n - μ') : ℝ) : EReal) := by
  rw [Finset.sum_map, coe_sum]
  refine Finset.sum_congr rfl fun r _ => ?_
  show Ideal.exp ((s (e r) : EReal) - (μ' : EReal)) = _
  rw [← EReal.coe_sub, Ideal.exp_coe]

/-- The same with a real column: the tile's weighted sum is the weighted sum over its rows. -/
private theorem tile_sumAcc {R : ℕ} (s x : ι → ℝ) (e : Fin R ↪ ι) (μ' : ℝ) :
    ∑ r : Fin R, Ideal.exp (up s (e r) - (μ' : EReal)) * (x (e r) : EReal)
      = ((∑ n ∈ Finset.univ.map e, Real.exp (s n - μ') * x n : ℝ) : EReal) := by
  rw [Finset.sum_map, coe_sum]
  refine Finset.sum_congr rfl fun r _ => ?_
  show Ideal.exp ((s (e r) : EReal) - (μ' : EReal)) * _ = _
  rw [← EReal.coe_sub, Ideal.exp_coe, ← EReal.coe_mul]

/-- Changing the reference maximum from `μ` to `μ'`: e^(μ - μ') · Σ_P e^(s - μ) = Σ_P e^(s - μ'),
    by e^u · e^v = e^(u + v) under the sum. -/
private theorem rescale (s : ι → ℝ) (P : Finset ι) (μ μ' : ℝ) :
    Ideal.exp ((μ : EReal) - (μ' : EReal)) * ((∑ n ∈ P, Real.exp (s n - μ) : ℝ) : EReal)
      = ((∑ n ∈ P, Real.exp (s n - μ') : ℝ) : EReal) := by
  rw [← EReal.coe_sub, Ideal.exp_coe, ← EReal.coe_mul, Finset.mul_sum]
  congr 1
  refine Finset.sum_congr rfl fun n _ => ?_
  rw [← Real.exp_add]
  congr 1
  ring

/-- The same for the weighted sum. -/
private theorem rescaleAcc (s x : ι → ℝ) (P : Finset ι) (μ μ' : ℝ) :
    Ideal.exp ((μ : EReal) - (μ' : EReal)) * ((∑ n ∈ P, Real.exp (s n - μ) * x n : ℝ) : EReal)
      = ((∑ n ∈ P, Real.exp (s n - μ') * x n : ℝ) : EReal) := by
  rw [← EReal.coe_sub, Ideal.exp_coe, ← EReal.coe_mul, Finset.mul_sum]
  congr 1
  refine Finset.sum_congr rfl fun n _ => ?_
  rw [← mul_assoc, ← Real.exp_add]
  congr 2
  ring

/-- Against a real maximum `μ'` every term `e^(s_n - μ')` is real, so the sum over `P` is the real sum. -/
private theorem sum_exp (s : ι → ℝ) (P : Finset ι) (μ' : ℝ) :
    ∑ n ∈ P, Ideal.exp (up s n - (μ' : EReal)) = ((∑ n ∈ P, Real.exp (s n - μ') : ℝ) : EReal) := by
  rw [coe_sum]
  refine Finset.sum_congr rfl fun n _ => ?_
  show Ideal.exp ((s n : EReal) - (μ' : EReal)) = _
  rw [← EReal.coe_sub, Ideal.exp_coe]

/-- The maximum of two values, folded from -∞ over the two-element index set, is their maximum. -/
private theorem fold_two (m : Fin 2 → EReal) :
    (Finset.univ : Finset (Fin 2)).fold max (⊥ : EReal) m = max (m 0) (m 1) := by
  have h01 : (Finset.univ : Finset (Fin 2)) = insert 0 {1} := by decide
  rw [h01, Finset.fold_insert (by decide), Finset.fold_singleton, max_eq_left (bot_le : (⊥ : EReal) ≤ m 1)]

/-- The maximum of finitely many reals over a nonempty set, taken in the extended reals from -∞, is a real. -/
theorem exists_coe_sup (s : ι → ℝ) (P : Finset ι) (hP : P.Nonempty) : ∃ μ : ℝ, P.sup (up s) = (μ : EReal) := by
  -- over a nonempty finite set in a linear order the supremum is attained, here at a real score
  obtain ⟨i, _, hi⟩ := Finset.exists_mem_eq_sup P hP (up s)
  exact ⟨s i, hi⟩

/-- The first tile of a half: from m = -∞, l = 0. -/
theorem Inv.first {R : ℕ} (hR : 0 < R) (s : ι → ℝ) (e : Fin R ↪ ι) (m' : EReal)
    (hm' : m' = max ⊥ ((Finset.univ : Finset (Fin R)).fold max (⊥ : EReal) (fun r => up s (e r)))) :
    Inv s (Finset.univ.map e) m' (Ideal.exp (⊥ - m') * 0 + ∑ r : Fin R, Ideal.exp (up s (e r) - m')) := by
  -- the tile is nonempty, so its maximum is a real μ'; then e^(-∞ - μ') = e^(-∞) = 0
  obtain ⟨μ', hμ'⟩ := exists_coe_sup s _ (tile_nonempty hR e)
  have hsup : m' = (Finset.univ.map e).sup (up s) := by rw [hm', tile_sup, max_eq_right bot_le]
  have hm : m' = (μ' : EReal) := hsup.trans hμ'
  refine ⟨μ', hm, hsup, ?_⟩
  rw [hm, EReal.bot_sub, Ideal.exp_bot, mul_zero, zero_add, tile_sum]

/-- The first tile of a half: from m = -∞, a = 0. -/
theorem InvAcc.first {R : ℕ} (hR : 0 < R) (s x : ι → ℝ) (e : Fin R ↪ ι) (m' : EReal)
    (hm' : m' = max ⊥ ((Finset.univ : Finset (Fin R)).fold max (⊥ : EReal) (fun r => up s (e r)))) :
    InvAcc s x (Finset.univ.map e) m'
      (Ideal.exp (⊥ - m') * 0 + ∑ r : Fin R, Ideal.exp (up s (e r) - m') * (x (e r) : EReal)) := by
  obtain ⟨μ', hμ'⟩ := exists_coe_sup s _ (tile_nonempty hR e)
  have hm : m' = (μ' : EReal) := by rw [hm', tile_sup, max_eq_right bot_le, hμ']
  refine ⟨μ', hm, ?_⟩
  rw [hm, EReal.bot_sub, Ideal.exp_bot, mul_zero, zero_add, tile_sumAcc]

/-- One more tile, disjoint from the rows already seen. -/
theorem Inv.step {R : ℕ} (hR : 0 < R) (s : ι → ℝ) (e : Fin R ↪ ι) (P : Finset ι) (hd : Disjoint P (Finset.univ.map e))
    (m l m' : EReal) (h : Inv s P m l)
    (hm' : m' = max m ((Finset.univ : Finset (Fin R)).fold max (⊥ : EReal) (fun r => up s (e r)))) :
    Inv s (P ∪ Finset.univ.map e) m' (Ideal.exp (m - m') * l + ∑ r : Fin R, Ideal.exp (up s (e r) - m')) := by
  obtain ⟨μ, hmμ, hmsup, hl⟩ := h
  -- the new maximum is the supremum over the union, a real μ'
  have hsup : m' = (P ∪ Finset.univ.map e).sup (up s) := by
    rw [hm', tile_sup, Finset.sup_union, ← hmsup]
  obtain ⟨μ', hμ'⟩ := exists_coe_sup s (P ∪ Finset.univ.map e) ((tile_nonempty hR e).mono Finset.subset_union_right)
  have hm : m' = (μ' : EReal) := hsup.trans hμ'
  refine ⟨μ', hm, hsup, ?_⟩
  -- rescale the old normaliser to μ', add the tile's terms, and join the two disjoint sums
  rw [hm, hmμ, hl, rescale, tile_sum, ← EReal.coe_add, ← Finset.sum_union hd]

/-- One more tile, for the weighted sum. -/
theorem InvAcc.step {R : ℕ} (hR : 0 < R) (s x : ι → ℝ) (e : Fin R ↪ ι) (P : Finset ι) (hd : Disjoint P (Finset.univ.map e))
    (m l a m' : EReal) (h : Inv s P m l) (ha : InvAcc s x P m a)
    (hm' : m' = max m ((Finset.univ : Finset (Fin R)).fold max (⊥ : EReal) (fun r => up s (e r)))) :
    InvAcc s x (P ∪ Finset.univ.map e) m'
      (Ideal.exp (m - m') * a + ∑ r : Fin R, Ideal.exp (up s (e r) - m') * (x (e r) : EReal)) := by
  obtain ⟨μ, hmμ, ha'⟩ := ha
  -- the tile's maximum is a real τ, so the new maximum max μ τ is a real
  obtain ⟨τ, hτ⟩ := exists_coe_sup s _ (tile_nonempty hR e)
  have hm : m' = ((max μ τ : ℝ) : EReal) := by rw [hm', tile_sup, hτ, hmμ, coe_max]
  refine ⟨max μ τ, hm, ?_⟩
  rw [hm, hmμ, ha', rescaleAcc, tile_sumAcc, ← EReal.coe_add, ← Finset.sum_union hd]

variable [Fintype ι]

/-- Two disjoint halves that cover every row: the combined maximum is the global one, a real, and the rescaled
    normalisers add up to the global normaliser. -/
theorem combine (s : ι → ℝ) (P : Fin 2 → Finset ι) (hdis : Disjoint (P 0) (P 1)) (hcov : P 0 ∪ P 1 = Finset.univ)
    (m l : Fin 2 → EReal) (h : ∀ c, Inv s (P c) (m c) (l c)) (M : EReal)
    (hM : M = (Finset.univ : Finset (Fin 2)).fold max (⊥ : EReal) m) :
    M = Finset.univ.sup (up s) ∧ ∃ Μ : ℝ, M = (Μ : EReal)
      ∧ (0 + ∑ c : Fin 2, Ideal.exp (m c - M) * l c) = ((∑ n, Real.exp (s n - Μ) : ℝ) : EReal) := by
  obtain ⟨μ0, h0μ, h0sup, h0l⟩ := h 0
  obtain ⟨μ1, h1μ, h1sup, h1l⟩ := h 1
  -- the fold over the two halves is the larger of the two maxima, the supremum over all rows
  have hMmax : M = max (m 0) (m 1) := by rw [hM, fold_two]
  have hMsup : M = Finset.univ.sup (up s) := by
    rw [hMmax, ← hcov, Finset.sup_union, ← h0sup, ← h1sup]
  have hMμ : M = ((max μ0 μ1 : ℝ) : EReal) := by rw [hMmax, h0μ, h1μ, coe_max]
  refine ⟨hMsup, max μ0 μ1, hMμ, ?_⟩
  -- rescale each half's normaliser to the global maximum and join the two disjoint sums
  rw [Fin.sum_univ_two, hMμ, h0μ, h1μ, h0l, h1l, rescale, rescale, zero_add, ← EReal.coe_add,
    ← Finset.sum_union hdis, hcov]

/-- The same for the weighted sums. -/
theorem combineAcc (s x : ι → ℝ) (P : Fin 2 → Finset ι) (hdis : Disjoint (P 0) (P 1)) (hcov : P 0 ∪ P 1 = Finset.univ)
    (m l a : Fin 2 → EReal) (h : ∀ c, Inv s (P c) (m c) (l c)) (ha : ∀ c, InvAcc s x (P c) (m c) (a c)) (M : EReal)
    (hM : M = (Finset.univ : Finset (Fin 2)).fold max (⊥ : EReal) m) :
    ∃ Μ : ℝ, M = (Μ : EReal)
      ∧ (0 + ∑ c : Fin 2, Ideal.exp (m c - M) * a c) = ((∑ n, Real.exp (s n - Μ) * x n : ℝ) : EReal) := by
  obtain ⟨μ0, h0μ, _, _⟩ := h 0
  obtain ⟨μ1, h1μ, _, _⟩ := h 1
  obtain ⟨ν0, h0ν, h0a⟩ := ha 0
  obtain ⟨ν1, h1ν, h1a⟩ := ha 1
  have hMμ : M = ((max ν0 ν1 : ℝ) : EReal) := by rw [hM, fold_two, h0ν, h1ν, coe_max]
  refine ⟨max ν0 ν1, hMμ, ?_⟩
  rw [Fin.sum_univ_two, hMμ, h0ν, h1ν, h0a, h1a, rescaleAcc, rescaleAcc, zero_add, ← EReal.coe_add,
    ← Finset.sum_union hdis, hcov]

/-- The two-pass softmax's normaliser, from the global maximum. -/
theorem ref_norm [Nonempty ι] (s : ι → ℝ) (M : EReal) (hM : M = Finset.univ.sup (up s)) :
    ∃ Μ : ℝ, M = (Μ : EReal) ∧ (0 + ∑ n, Ideal.exp (up s n - M)) = ((∑ n, Real.exp (s n - Μ) : ℝ) : EReal) := by
  -- the global maximum over the nonempty set of all rows is a real Μ
  obtain ⟨Μ, hΜ⟩ := exists_coe_sup s Finset.univ Finset.univ_nonempty
  have hMμ : M = (Μ : EReal) := hM.trans hΜ
  refine ⟨Μ, hMμ, ?_⟩
  rw [hMμ, zero_add, sum_exp]

/-- The normaliser is a positive real. -/
theorem norm_pos [Nonempty ι] (s : ι → ℝ) (Μ : ℝ) : 0 < ∑ n, Real.exp (s n - Μ) := by
  exact Finset.sum_pos (fun n _ => Real.exp_pos _) Finset.univ_nonempty

/-- A weighted sum divided by the normaliser is the sum of the quotients times the column. -/
theorem div_sum [Nonempty ι] (s x : ι → ℝ) (Μ : ℝ) :
    Ideal.div ((∑ n, Real.exp (s n - Μ) * x n : ℝ) : EReal) ((∑ n, Real.exp (s n - Μ) : ℝ) : EReal)
      = ∑ n, Ideal.div (Ideal.exp (up s n - (Μ : EReal))) ((∑ n, Real.exp (s n - Μ) : ℝ) : EReal) * (x n : EReal) := by
  -- the normaliser L is a nonzero real, so dividing by it is multiplying by the real 1 / L
  have hL : (∑ n, Real.exp (s n - Μ)) ≠ 0 := (norm_pos s Μ).ne'
  rw [Ideal.div_coe hL, ← EReal.coe_mul, Finset.sum_mul, coe_sum]
  refine Finset.sum_congr rfl fun n _ => ?_
  rw [Ideal.div_coe hL]
  show _ = Ideal.exp ((s n : EReal) - (Μ : EReal)) * _ * _
  rw [← EReal.coe_sub, Ideal.exp_coe, ← EReal.coe_mul, ← EReal.coe_mul]
  congr 1
  ring

end Cert.OnlineSoftmax

end
-- ==== Proof.Rows.lean ====
/-
  The 100000 rows as they are visited: tile t (t < 50) holds rows 2000·t … 2000·t + 1999; core k (k < 2) visits tiles
  25·k … 25·k + 24 in order, that is rows 50000·k … 50000·k + 49999.  `rowsUpTo k j` is the set of rows core k has seen after its
  tile number j; it grows by one tile at a time, each new tile disjoint from the rows before it, and after the last tiles
  the two cores' rows are disjoint and cover every row.
-/
import Mathlib.Data.Finset.Image
import Mathlib.Data.Fintype.Basic
import Mathlib.Data.Fin.Basic

namespace Cert.Rows

/-- Row `r` of tile `t`, among all rows. -/
def tileEmb (t : ℕ) (ht : t < 50) : Fin 2000 ↪ Fin 100000 :=
  ⟨fun r => ⟨2000 * t + r.val, by have := r.isLt; omega⟩,
   fun a b h => Fin.ext (by have := congrArg Fin.val h; simp only at this; omega)⟩

theorem tileEmb_val (t : ℕ) (ht : t < 50) (r : Fin 2000) : (tileEmb t ht r).val = 2000 * t + r.val := rfl

/-- The rows core `k` has seen after its tile number `j`. -/
def rowsUpTo (k j : ℕ) : Finset (Fin 100000) :=
  Finset.univ.filter fun n => 50000 * k ≤ n.val ∧ n.val < 50000 * k + 2000 * (j + 1)

/-- Membership in the rows seen so far is the pair of bounds on the row number. -/
private theorem mem_rowsUpTo (k j : ℕ) (n : Fin 100000) :
    n ∈ rowsUpTo k j ↔ 50000 * k ≤ n.val ∧ n.val < 50000 * k + 2000 * (j + 1) := by
  simp only [rowsUpTo, Finset.mem_filter, Finset.mem_univ, true_and]

/-- Membership in tile `t` is the pair of bounds `2000·t ≤ n < 2000·t + 2000`: the row inside the tile is `n - 2000·t`. -/
private theorem mem_tile (t : ℕ) (ht : t < 50) (n : Fin 100000) :
    n ∈ Finset.univ.map (tileEmb t ht) ↔ 2000 * t ≤ n.val ∧ n.val < 2000 * t + 2000 := by
  simp only [Finset.mem_map, Finset.mem_univ, true_and]
  constructor
  · rintro ⟨r, hr⟩
    have h := congrArg Fin.val hr
    rw [tileEmb_val] at h
    have := r.isLt
    omega
  · rintro ⟨h1, h2⟩
    refine ⟨⟨n.val - 2000 * t, by omega⟩, ?_⟩
    apply Fin.ext
    rw [tileEmb_val]
    show 2000 * t + (n.val - 2000 * t) = n.val
    omega

theorem rows_first (k : ℕ) (hk : k < 2) : rowsUpTo k 0 = Finset.univ.map (tileEmb (25 * k) (by omega)) := by
  ext n
  rw [mem_rowsUpTo, mem_tile]
  omega

theorem rows_succ (k j : ℕ) (hk : k < 2) (hj : j + 1 < 25) :
    rowsUpTo k (j + 1) = rowsUpTo k j ∪ Finset.univ.map (tileEmb (25 * k + (j + 1)) (by omega)) := by
  ext n
  rw [Finset.mem_union, mem_rowsUpTo, mem_rowsUpTo, mem_tile]
  omega

theorem rows_disj (k j : ℕ) (hk : k < 2) (hj : j + 1 < 25) :
    Disjoint (rowsUpTo k j) (Finset.univ.map (tileEmb (25 * k + (j + 1)) (by omega))) := by
  rw [Finset.disjoint_left]
  intro n h1 h2
  rw [mem_rowsUpTo] at h1
  rw [mem_tile] at h2
  omega

theorem rows_cores_disj : Disjoint (rowsUpTo 0 24) (rowsUpTo 1 24) := by
  rw [Finset.disjoint_left]
  intro n h1 h2
  rw [mem_rowsUpTo] at h1 h2
  omega

theorem rows_cores_cover : rowsUpTo 0 24 ∪ rowsUpTo 1 24 = Finset.univ := by
  ext n
  rw [Finset.mem_union, mem_rowsUpTo, mem_rowsUpTo]
  have := n.isLt
  simp only [Finset.mem_univ, iff_true]
  omega

/-- Every row is row `n % 2000` of tile `n / 2000`. -/
theorem row_eq (n : Fin 100000) : tileEmb (n.val / 2000) (by have := n.isLt; omega) ⟨n.val % 2000, Nat.mod_lt _ (by decide)⟩ = n := by
  apply Fin.ext
  rw [tileEmb_val]
  show 2000 * (n.val / 2000) + n.val % 2000 = n.val
  omega

end Cert.Rows
-- ==== Proof.Spec.lean ====
/-
  What both programs compute, as functions of the four argument arrays over the extended reals.

  x : [100000, 512], Wv, Wu : [512, 128], Wa : [128, 1].  Row n's score is
      s n = Σ_k tanh(Σ_d x[n,d] · Wv[d,k]) · logistic(Σ_d x[n,d] · Wu[d,k]) · Wa[k,0],
  the attention weights are the softmax of the scores over all rows, taken against their maximum,
      att n = e^(s n - M) / (0 + Σ_n' e^(s n' - M)),   M = max_n s n,
  and the pooled features are  hs d = Σ_n att n · x[n,d].
-/
import Idealize.ShloMosaic.PureOps.Ideal
import Idealize.ShloMosaic.Lib.ValueIdx

noncomputable section

namespace Cert.Spec

open Idealize.ShloMosaic Idealize.ShloMosaic.ValueIdx

/-- A rank-2 array of extended reals of extents `a × b`. -/
abbrev Arr (a b : Nat) : Type := (⟨2, ![a, b]⟩ : Shape).Idx → EReal

/-- Row `n`'s gated score. -/
def score (x : Arr 100000 512) (wv wu : Arr 512 128) (wa : Arr 128 1) (n : Fin 100000) : EReal :=
  ∑ k : Fin 128, (Ideal.tanh (∑ d : Fin 512, x (ix2 n d) * wv (ix2 d k))
      * Ideal.logistic (∑ d : Fin 512, x (ix2 n d) * wu (ix2 d k))) * wa (ix2 k 0)

/-- The maximum of the scores, from -∞. -/
def gmax (sc : Fin 100000 → EReal) : EReal := Finset.univ.sup sc

/-- The softmax normaliser against the maximum. -/
def norm (sc : Fin 100000 → EReal) : EReal := 0 + ∑ n : Fin 100000, Ideal.exp (sc n - gmax sc)

/-- Row `n`'s attention weight. -/
def att (sc : Fin 100000 → EReal) (n : Fin 100000) : EReal := Ideal.div (Ideal.exp (sc n - gmax sc)) (norm sc)

/-- Feature `d` of the attention-pooled row. -/
def hs (x : Arr 100000 512) (sc : Fin 100000 → EReal) (d : Fin 512) : EReal := ∑ n : Fin 100000, att sc n * x (ix2 n d)

end Cert.Spec

end
-- ==== Proof.ScoreReal.lean ====
/-
  For real argument arrays the scores are real: the gated score of row n is the real number
      Σ_k tanh(Σ_d x[n,d]·Wv[d,k]) · (1 + e^(-Σ_d x[n,d]·Wu[d,k]))⁻¹ · Wa[k],
  since sums and products of reals are real, tanh of a real is real, and the logistic of a real u is (1 + e^(-u))⁻¹.
-/
import proofs.«422200_j18408229831053_4_alg».proof.Proof.Spec
import Mathlib.Data.EReal.Operations
import Mathlib.Algebra.BigOperators.Group.Finset.Basic

noncomputable section

namespace Cert.Spec

open Idealize.ShloMosaic Idealize.ShloMosaic.ValueIdx

/-- The coercion of a finite sum of reals is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Row `n`'s score over the reals. -/
def scoreR (xR : Fin 100000 → Fin 512 → ℝ) (wvR wuR : Fin 512 → Fin 128 → ℝ) (waR : Fin 128 → ℝ) (n : Fin 100000) : ℝ :=
  ∑ k : Fin 128, (Real.tanh (∑ d : Fin 512, xR n d * wvR d k) * (1 + Real.exp (-(∑ d : Fin 512, xR n d * wuR d k)))⁻¹) * waR k

/-- For real arrays the score is that real. -/
theorem score_coe (x : Arr 100000 512) (wv wu : Arr 512 128) (wa : Arr 128 1)
    (xR : Fin 100000 → Fin 512 → ℝ) (wvR wuR : Fin 512 → Fin 128 → ℝ) (waR : Fin 128 → ℝ)
    (hx : ∀ n d, x (ix2 n d) = (xR n d : EReal)) (hwv : ∀ d k, wv (ix2 d k) = (wvR d k : EReal))
    (hwu : ∀ d k, wu (ix2 d k) = (wuR d k : EReal)) (hwa : ∀ k, wa (ix2 k 0) = (waR k : EReal)) (n : Fin 100000) :
    score x wv wu wa n = (scoreR xR wvR wuR waR n : EReal) := by
  unfold score scoreR
  rw [coe_sum]
  refine Finset.sum_congr rfl fun k _ => ?_
  have e1 : (∑ d : Fin 512, x (ix2 n d) * wv (ix2 d k)) = ((∑ d : Fin 512, xR n d * wvR d k : ℝ) : EReal) := by
    rw [coe_sum]; exact Finset.sum_congr rfl fun d _ => by rw [hx, hwv, EReal.coe_mul]
  have e2 : (∑ d : Fin 512, x (ix2 n d) * wu (ix2 d k)) = ((∑ d : Fin 512, xR n d * wuR d k : ℝ) : EReal) := by
    rw [coe_sum]; exact Finset.sum_congr rfl fun d _ => by rw [hx, hwu, EReal.coe_mul]
  rw [e1, e2, hwa, Ideal.tanh_coe, Ideal.logistic_coe, EReal.coe_mul, EReal.coe_mul]

end Cert.Spec

end
-- ==== Proof.Induct.lean ====
/-
  The kernel's running softmax, tile by tile, for real argument arrays.

  Core k (k < 2) visits tiles 25·k … 25·k + 24.  After its tile number j the carried maximum is the maximum μ of the scores of
  the rows seen so far, a real; the carried normaliser is Σ e^(s n - μ) over those rows and the carried weighted sum is
  Σ e^(s n - μ) · x[n,d]: by induction on j, the first tile starting from -∞, 0, 0 and each later tile rescaling by
  e^(old maximum - new maximum).
-/
import proofs.«422200_j18408229831053_4_alg».proof.Proof.Base
import proofs.«422200_j18408229831053_4_alg».proof.Proof.Pieces
import proofs.«422200_j18408229831053_4_alg».proof.Proof.PayIdeal
import proofs.«422200_j18408229831053_4_alg».proof.Proof.Blocks
import proofs.«422200_j18408229831053_4_alg».proof.Proof.OnlineSoftmax
import proofs.«422200_j18408229831053_4_alg».proof.Proof.Rows
import proofs.«422200_j18408229831053_4_alg».proof.Proof.Spec
import proofs.«422200_j18408229831053_4_alg».proof.Proof.ScoreReal

noncomputable section

namespace Cert.KernelIdeal.Val

open Idealize.ShloMosaic Idealize.ShloMosaic.TcCoe Idealize.SL.Sem Idealize.ShloMosaic.ValueIdx
open Cert.KernelIdeal Cert.KernelIdeal.Gen Cert.KernelIdeal.PayIdeal Cert.OnlineSoftmax Cert.Rows Cert.Spec

variable (m : (ℓ : Loc nD τ sig) → Buf (Elt Ideal) ℓ) (c : Dev nD)

/-- The four argument arrays as the program finds them. -/
abbrev argX : Arr 100000 512 := m ((c : Thread nD τ).loc main_arg0)
abbrev argWv : Arr 512 128 := m ((c : Thread nD τ).loc main_arg1)
abbrev argWu : Arr 512 128 := m ((c : Thread nD τ).loc main_arg2)
abbrev argWa : Arr 128 1 := m ((c : Thread nD τ).loc main_arg3)

/-- Real arrays that the argument arrays are the coercions of. -/
structure RealArgs where
  xR : Fin 100000 → Fin 512 → ℝ
  wvR : Fin 512 → Fin 128 → ℝ
  wuR : Fin 512 → Fin 128 → ℝ
  waR : Fin 128 → ℝ
  hx : ∀ n d, argX m c (ix2 n d) = (xR n d : EReal)
  hwv : ∀ d k, argWv m c (ix2 d k) = (wvR d k : EReal)
  hwu : ∀ d k, argWu m c (ix2 d k) = (wuR d k : EReal)
  hwa : ∀ k, argWa m c (ix2 k 0) = (waR k : EReal)

variable {m c} (A : RealArgs m c)

/-- The real scores. -/
def RealArgs.sR : Fin 100000 → ℝ := scoreR A.xR A.wvR A.wuR A.waR

theorem RealArgs.score_eq (n : Fin 100000) :
    score (argX m c) (argWv m c) (argWu m c) (argWa m c) n = (A.sR n : EReal) :=
  score_coe _ _ _ _ _ _ _ _ A.hx A.hwv A.hwu A.hwa n

/-- Row r of tile t has the score of row 2000·t + r. -/
theorem tileScore_eq (t : Fin cfg0.N) (ht : t.val < 50) (r : Fin 2000) :
    tileScore (X0 m c t) (X1 m c t) (X2 m c t) r = up A.sR (tileEmb t.val ht r) := by
  have h : 2000 * t.val + r.val < 100000 := by have := r.isLt; omega
  refine Eq.trans ?_ (A.score_eq (tileEmb t.val ht r))
  simp only [tileScore, score, fun d => X0_apply m c t r d h, X1_left, X1_right, X2_apply]
  rfl

/-- Row r of tile t, column d, is x at row 2000·t + r. -/
theorem tileX_eq (t : Fin cfg0.N) (ht : t.val < 50) (r : Fin 2000) (d : Fin 512) :
    X0 m c t (ix2 r d) = (A.xR (tileEmb t.val ht r) d : EReal) := by
  have h : 2000 * t.val + r.val < 100000 := by have := r.isLt; omega
  rw [X0_apply m c t r d h]
  exact A.hx _ d

variable (m c) in
/-- The carried maximum, normaliser and weighted sum after point n, at their indices. -/
abbrev mAt (n : ℕ) (h : n < cfg0.N) : EReal := (scr m c n h).1 (ix2 0 0)
variable (m c) in
abbrev lAt (n : ℕ) (h : n < cfg0.N) : EReal := (scr m c n h).2.1 (ix2 0 0)
variable (m c) in
abbrev aAt (n : ℕ) (h : n < cfg0.N) (d : Fin 512) : EReal := (scr m c n h).2.2 (ix2 0 d)

theorem lt_N (k j : ℕ) (hk : k < 2) (hj : j < 25) : 25 * k + j < cfg0.N :=
  lt_of_lt_of_eq (by omega) N_0.symm

/-- THE INVARIANT of core k after its tile number j. -/
theorem inv_core (k : ℕ) (hk : k < 2) : ∀ (j : ℕ) (hj : j < 25),
    Inv A.sR (rowsUpTo k j) (mAt m c (25 * k + j) (lt_N k j hk hj)) (lAt m c (25 * k + j) (lt_N k j hk hj))
    ∧ ∀ d : Fin 512, InvAcc A.sR (fun n => A.xR n d) (rowsUpTo k j) (mAt m c (25 * k + j) (lt_N k j hk hj))
        (aAt m c (25 * k + j) (lt_N k j hk hj) d)
  | 0, hj => by
    have ht : 25 * k + 0 < cfg0.N := lt_N k 0 hk hj
    have ht50 : 25 * k + 0 < 50 := by omega
    have e := scr_first m c ⟨25 * k + 0, ht⟩ (by show (25 * k + 0) % 25 = 0; omega)
    have hts : ∀ r, tileScore (X0 m c ⟨25 * k + 0, ht⟩) (X1 m c ⟨25 * k + 0, ht⟩) (X2 m c ⟨25 * k + 0, ht⟩) r
        = up A.sR (tileEmb (25 * k + 0) ht50 r) := fun r => tileScore_eq A ⟨25 * k + 0, ht⟩ ht50 r
    have hm : mAt m c (25 * k + 0) ht
        = max ⊥ ((Finset.univ : Finset (Fin 2000)).fold max (⊥ : EReal) (fun r => up A.sR (tileEmb (25 * k + 0) ht50 r))) := by
      show (scr m c (25 * k + 0) ht).1 (ix2 0 0) = _
      rw [e]
      show mNew _ _ _ _ (ix2 0 0) = _
      unfold mNew
      rw [pay2_pay10_apply, pay6_apply]
      unfold newMax
      simp only [hts]
    have hrows : rowsUpTo k 0 = Finset.univ.map (tileEmb (25 * k + 0) ht50) := rows_first k hk
    refine ⟨?_, fun d => ?_⟩
    · have hl : lAt m c (25 * k + 0) ht
          = Ideal.exp (⊥ - mAt m c (25 * k + 0) ht) * 0
            + ∑ r : Fin 2000, Ideal.exp (up A.sR (tileEmb (25 * k + 0) ht50 r) - mAt m c (25 * k + 0) ht) := by
        rw [hm]
        show (scr m c (25 * k + 0) ht).2.1 (ix2 0 0) = _
        rw [e]
        show lNew _ _ _ _ _ (ix2 0 0) = _
        unfold lNew
        rw [pay13_apply, pay6_apply, pay7_apply]
        unfold newMax
        simp only [hts]
      rw [hrows, hl]
      exact Inv.first (by decide) A.sR _ _ hm
    · have ha : aAt m c (25 * k + 0) ht d
          = Ideal.exp (⊥ - mAt m c (25 * k + 0) ht) * 0
            + ∑ r : Fin 2000, Ideal.exp (up A.sR (tileEmb (25 * k + 0) ht50 r) - mAt m c (25 * k + 0) ht)
                * (A.xR (tileEmb (25 * k + 0) ht50 r) d : EReal) := by
        rw [hm]
        show (scr m c (25 * k + 0) ht).2.2 (ix2 0 d) = _
        rw [e]
        show aNew _ _ _ _ _ (ix2 0 d) = _
        unfold aNew
        rw [pay1_apply, pay6_apply, pay8_apply]
        unfold newMax
        simp only [hts, fun r => tileX_eq A ⟨25 * k + 0, ht⟩ ht50 r d]
      rw [hrows, ha]
      exact InvAcc.first (by decide) A.sR (fun n => A.xR n d) _ _ hm
  | j + 1, hj => by
    obtain ⟨ih, iha⟩ := inv_core k hk j (by omega)
    have ht : 25 * k + (j + 1) < cfg0.N := lt_N k (j + 1) hk hj
    have ht50 : 25 * k + (j + 1) < 50 := by omega
    have hp : 25 * k + (j + 1) - 1 = 25 * k + j := by omega
    have e := scr_next m c ⟨25 * k + (j + 1), ht⟩ (by show ¬(25 * k + (j + 1)) % 25 = 0; omega)
    have hprev : scr m c ((⟨25 * k + (j + 1), ht⟩ : Fin cfg0.N).val - 1)
        (Nat.lt_of_le_of_lt (Nat.sub_le _ _) (⟨25 * k + (j + 1), ht⟩ : Fin cfg0.N).isLt)
        = scr m c (25 * k + j) (lt_N k j hk (by omega)) := by
      congr 1
    rw [hprev] at e
    have hts : ∀ r, tileScore (X0 m c ⟨25 * k + (j + 1), ht⟩) (X1 m c ⟨25 * k + (j + 1), ht⟩) (X2 m c ⟨25 * k + (j + 1), ht⟩) r
        = up A.sR (tileEmb (25 * k + (j + 1)) ht50 r) := fun r => tileScore_eq A ⟨25 * k + (j + 1), ht⟩ ht50 r
    have hm : mAt m c (25 * k + (j + 1)) ht
        = max (mAt m c (25 * k + j) (lt_N k j hk (by omega)))
            ((Finset.univ : Finset (Fin 2000)).fold max (⊥ : EReal) (fun r => up A.sR (tileEmb (25 * k + (j + 1)) ht50 r))) := by
      show (scr m c (25 * k + (j + 1)) ht).1 (ix2 0 0) = _
      rw [e]
      show mNew _ _ _ _ (ix2 0 0) = _
      unfold mNew
      rw [pay2_pay10_apply]
      unfold newMax
      simp only [hts]
    have hrows : rowsUpTo k (j + 1) = rowsUpTo k j ∪ Finset.univ.map (tileEmb (25 * k + (j + 1)) ht50) := rows_succ k j hk hj
    have hdis : Disjoint (rowsUpTo k j) (Finset.univ.map (tileEmb (25 * k + (j + 1)) ht50)) := rows_disj k j hk hj
    refine ⟨?_, fun d => ?_⟩
    · have hl : lAt m c (25 * k + (j + 1)) ht
          = Ideal.exp (mAt m c (25 * k + j) (lt_N k j hk (by omega)) - mAt m c (25 * k + (j + 1)) ht)
              * lAt m c (25 * k + j) (lt_N k j hk (by omega))
            + ∑ r : Fin 2000, Ideal.exp (up A.sR (tileEmb (25 * k + (j + 1)) ht50 r) - mAt m c (25 * k + (j + 1)) ht) := by
        rw [hm]
        show (scr m c (25 * k + (j + 1)) ht).2.1 (ix2 0 0) = _
        rw [e]
        show lNew _ _ _ _ _ (ix2 0 0) = _
        unfold lNew
        rw [pay13_apply]
        unfold newMax
        simp only [hts]
      rw [hrows, hl]
      exact Inv.step (by decide) A.sR _ _ hdis _ _ _ ih hm
    · have ha : aAt m c (25 * k + (j + 1)) ht d
          = Ideal.exp (mAt m c (25 * k + j) (lt_N k j hk (by omega)) - mAt m c (25 * k + (j + 1)) ht)
              * aAt m c (25 * k + j) (lt_N k j hk (by omega)) d
            + ∑ r : Fin 2000, Ideal.exp (up A.sR (tileEmb (25 * k + (j + 1)) ht50 r) - mAt m c (25 * k + (j + 1)) ht)
                * (A.xR (tileEmb (25 * k + (j + 1)) ht50 r) d : EReal) := by
        rw [hm]
        show (scr m c (25 * k + (j + 1)) ht).2.2 (ix2 0 d) = _
        rw [e]
        show aNew _ _ _ _ _ (ix2 0 d) = _
        unfold aNew
        rw [pay1_apply]
        unfold newMax
        simp only [hts, fun r => tileX_eq A ⟨25 * k + (j + 1), ht⟩ ht50 r d]
      rw [hrows, ha]
      exact InvAcc.step (by decide) A.sR (fun n => A.xR n d) _ _ hdis _ _ _ _ ih (iha d) hm

end Cert.KernelIdeal.Val

end
-- ==== Proof.Arrays.lean ====
/-
  The four result arrays of the kernel's one launch, after its last grid point.

  The score window's block at point t is rows 2000·t … 2000·t + 1999 of the score array, written back after every point, so
  row n of the score array is row n mod 2000 of what point n / 2000 left.  The three per-core windows (maximum, normaliser,
  weighted sum) have block index the core number k = t / 25 and are written back only after a core's last tile, point
  25·k + 24, so entry k of each holds what that point left.
-/
import proofs.«422200_j18408229831053_4_alg».proof.Proof.Base
import Idealize.ShloMosaic.Lib.Pipeline.Value
import Idealize.ShloMosaic.Lib.ValueIdx

noncomputable section

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen

variable {F : FTy → Type} [FloatOps F]
variable (m : (ℓ : Loc nD τ sig) → Buf (Elt F) ℓ)

/-- Points named by equal numbers leave the same. -/
theorem outsAt0_congr (c : Dev nD) {n n' : ℕ} (e : n = n') (h : n < cfg0.N) (h' : n' < cfg0.N) :
    outsAt0 m c n h = outsAt0 m c n' h' := by
  subst e; rfl

/-! ## The score array -/

/-- The score window's block index at point `t` is `(t, 0)`. -/
theorem index3 : ∀ t : Fin cfg0.N, win0_3.index t (0 : Fin 2) = t.val ∧ win0_3.index t (1 : Fin 2) = 0 :=
  (by decide +kernel : ∀ t : Fin grid0.N, _)

/-- The whole score array as one function: row `r` is row `r mod 2000` of what point `r / 2000` left. -/
def G3 (c : Dev nD) : Vec F S100000x1 .f32 := fun i =>
  (outsAt0 m c ((i 0).val / 2000)
      (lt_of_lt_of_eq (by have := idx2_lt0 i; omega : (i 0).val / 2000 < 50) N_0.symm)).1
    (ix2 ⟨(i 0).val % 2000, Nat.mod_lt _ (by decide)⟩ 0)

/-- What point `t` writes back is its block of `G3`. -/
theorem flushed3_eq (c : Dev nD) (t : Fin cfg0.N) :
    (dats m 0 c).flushed 3 t = ((cfg0.win 3).blk t).view.read (Elt F) (G3 m c) := by
  show (cfg0.win 3).cut (grid0.coords t) ((dats m 0 c).after 3 t) = _
  rw [after0_3]
  funext j
  obtain ⟨e0, e1⟩ := index3 t
  have hj0 : (j 0).val < 2000 := (j 0).isLt
  have hj1 : (j 1).val < 1 := (j 1).isLt
  have hr : ((((cfg0.win 3).blk t).view.emb j) 0).val = t.val * 2000 + (j 0).val := by
    show win0_3.index t (0 : Fin 2) * 2000 + 1 * (j 0).val = _
    rw [e0]; omega
  have hq : ((((cfg0.win 3).blk t).view.emb j) 0).val / 2000 = t.val := by rw [hr]; omega
  show (outsAt0 m c t.val t.isLt).1 (win0_3.xinj (grid0.coords t) j) = G3 m c (((cfg0.win 3).blk t).view.emb j)
  unfold G3
  rw [outsAt0_congr m c hq _ t.isLt]
  refine congrArg _ (funext fun a => Fin.ext ?_)
  match a with
  | ⟨0, _⟩ => show (j 0).val = ((((cfg0.win 3).blk t).view.emb j) 0).val % 2000; rw [hr]; omega
  | ⟨1, _⟩ => show (j 1).val = 0; omega

/-- Row `n` of the score array. -/
theorem arr3 (c : Dev nD) (n : Fin 100000) :
    ((dats m 0 c).arrAt 3 cfg0.N : Vec F S100000x1 .f32) (ix2 n 0)
      = (outsAt0 m c (n.val / 2000) (lt_of_lt_of_eq (by omega : n.val / 2000 < 50) N_0.symm)).1
          (ix2 ⟨n.val % 2000, Nat.mod_lt _ (by decide)⟩ 0) := by
  have hn : n.val < 100000 := n.isLt
  have hq : n.val / 2000 < cfg0.N := lt_of_lt_of_eq (by omega : n.val / 2000 < 50) N_0.symm
  obtain ⟨e0, e1⟩ := index3 ⟨n.val / 2000, hq⟩
  refine ((dats m 0 c).arrAt_apply_of_mem 3 (G3 m c) (fun t _ => flushed3_eq m c t) cfg0.N ⟨n.val / 2000, hq⟩
    (ix2 n 0) hq (flush0_3 _) ?_).trans rfl
  show ix2 n 0 ∈ ((View.whole main_v2_0).slice (win0_3.rect ⟨n.val / 2000, hq⟩)).set
  rw [View.set_slice_whole, Rect.mem_set_unit]
  intro a
  match a with
  | ⟨0, _⟩ =>
    show win0_3.index ⟨n.val / 2000, hq⟩ (0 : Fin 2) * 2000 ≤ n.val
      ∧ n.val < win0_3.index ⟨n.val / 2000, hq⟩ (0 : Fin 2) * 2000 + 2000
    rw [e0]; show n.val / 2000 * 2000 ≤ n.val ∧ n.val < n.val / 2000 * 2000 + 2000; omega
  | ⟨1, _⟩ =>
    show win0_3.index ⟨n.val / 2000, hq⟩ (1 : Fin 2) * 1 ≤ 0 ∧ 0 < win0_3.index ⟨n.val / 2000, hq⟩ (1 : Fin 2) * 1 + 1
    rw [e1]; omega

/-! ## The per-core maxima -/

/-- Window 4's block index at point `t` is `(t / 25, 0, 0)`: the core number. -/
theorem index4 : ∀ t : Fin cfg0.N, win0_4.index t (0 : Fin 3) = t.val / 25 ∧ win0_4.index t (1 : Fin 3) = 0
    ∧ win0_4.index t (2 : Fin 3) = 0 :=
  (by decide +kernel : ∀ t : Fin grid0.N, _)

/-- The whole array of per-core maxima as one function: core `k`'s entry is what the core's last point, `25·k + 24`, left. -/
def G4 (c : Dev nD) : Vec F S2x1x1 .f32 := fun i =>
  (outsAt0 m c (25 * (i 0).val + 24)
      (lt_of_lt_of_eq (by have : (i 0).val < 2 := (i 0).isLt; omega : 25 * (i 0).val + 24 < 50) N_0.symm)).2.1
    (ix3 0 0 0)

/-- What a core's last point writes back is its block of `G4`. -/
theorem flushed4_eq (c : Dev nD) (t : Fin cfg0.N) (hf : (cfg0.win 4).flush t = true) :
    (dats m 0 c).flushed 4 t = ((cfg0.win 4).blk t).view.read (Elt F) (G4 m c) := by
  show (cfg0.win 4).cut (grid0.coords t) ((dats m 0 c).after 4 t) = _
  rw [after0_4]
  funext j
  have h24 : t.val % 25 = 24 := (flush0_4 t).mp hf
  obtain ⟨e0, e1, e2⟩ := index4 t
  have hj0 : (j 0).val < 1 := (j 0).isLt
  have hj1 : (j 1).val < 1 := (j 1).isLt
  have hj2 : (j 2).val < 1 := (j 2).isLt
  have hr : ((((cfg0.win 4).blk t).view.emb j) 0).val = t.val / 25 + (j 0).val := by
    show win0_4.index t (0 : Fin 3) * 1 + 1 * (j 0).val = _
    rw [e0]; omega
  have hq : 25 * ((((cfg0.win 4).blk t).view.emb j) 0).val + 24 = t.val := by rw [hr]; omega
  show (outsAt0 m c t.val t.isLt).2.1 (win0_4.xinj (grid0.coords t) j) = G4 m c (((cfg0.win 4).blk t).view.emb j)
  unfold G4
  rw [outsAt0_congr m c hq _ t.isLt]
  refine congrArg _ (funext fun a => Fin.ext ?_)
  match a with
  | ⟨0, _⟩ => show (j 0).val = 0; omega
  | ⟨1, _⟩ => show (j 1).val = 0; omega
  | ⟨2, _⟩ => show (j 2).val = 0; omega

/-- Core `k`'s entry of the per-core maxima. -/
theorem arr4 (c : Dev nD) (k : Fin 2) :
    ((dats m 0 c).arrAt 4 cfg0.N : Vec F S2x1x1 .f32) (ix3 k 0 0)
      = (outsAt0 m c (25 * k.val + 24) (lt_of_lt_of_eq (by omega : 25 * k.val + 24 < 50) N_0.symm)).2.1 (ix3 0 0 0) := by
  have hk : k.val < 2 := k.isLt
  have hq : 25 * k.val + 24 < cfg0.N := lt_of_lt_of_eq (by omega : 25 * k.val + 24 < 50) N_0.symm
  obtain ⟨e0, e1, e2⟩ := index4 ⟨25 * k.val + 24, hq⟩
  have hf : (cfg0.win 4).flush ⟨25 * k.val + 24, hq⟩ = true :=
    (flush0_4 _).mpr (by show (25 * k.val + 24) % 25 = 24; omega)
  refine ((dats m 0 c).arrAt_apply_of_mem 4 (G4 m c) (fun t hf => flushed4_eq m c t hf) cfg0.N ⟨25 * k.val + 24, hq⟩
    (ix3 k 0 0) hq hf ?_).trans rfl
  show ix3 k 0 0 ∈ ((View.whole main_v2_1).slice (win0_4.rect ⟨25 * k.val + 24, hq⟩)).set
  rw [View.set_slice_whole, Rect.mem_set_unit]
  intro a
  match a with
  | ⟨0, _⟩ =>
    show win0_4.index ⟨25 * k.val + 24, hq⟩ (0 : Fin 3) * 1 ≤ k.val
      ∧ k.val < win0_4.index ⟨25 * k.val + 24, hq⟩ (0 : Fin 3) * 1 + 1
    rw [e0]; show (25 * k.val + 24) / 25 * 1 ≤ k.val ∧ k.val < (25 * k.val + 24) / 25 * 1 + 1; omega
  | ⟨1, _⟩ =>
    show win0_4.index ⟨25 * k.val + 24, hq⟩ (1 : Fin 3) * 1 ≤ 0 ∧ 0 < win0_4.index ⟨25 * k.val + 24, hq⟩ (1 : Fin 3) * 1 + 1
    rw [e1]; omega
  | ⟨2, _⟩ =>
    show win0_4.index ⟨25 * k.val + 24, hq⟩ (2 : Fin 3) * 1 ≤ 0 ∧ 0 < win0_4.index ⟨25 * k.val + 24, hq⟩ (2 : Fin 3) * 1 + 1
    rw [e2]; omega

/-! ## The per-core normalisers -/

/-- Window 5's block index at point `t` is `(t / 25, 0, 0)`: the core number. -/
theorem index5 : ∀ t : Fin cfg0.N, win0_5.index t (0 : Fin 3) = t.val / 25 ∧ win0_5.index t (1 : Fin 3) = 0
    ∧ win0_5.index t (2 : Fin 3) = 0 :=
  (by decide +kernel : ∀ t : Fin grid0.N, _)

/-- The whole array of per-core normalisers as one function: core `k`'s entry is what the core's last point, `25·k + 24`, left. -/
def G5 (c : Dev nD) : Vec F S2x1x1 .f32 := fun i =>
  (outsAt0 m c (25 * (i 0).val + 24)
      (lt_of_lt_of_eq (by have : (i 0).val < 2 := (i 0).isLt; omega : 25 * (i 0).val + 24 < 50) N_0.symm)).2.2.1
    (ix3 0 0 0)

/-- What a core's last point writes back is its block of `G5`. -/
theorem flushed5_eq (c : Dev nD) (t : Fin cfg0.N) (hf : (cfg0.win 5).flush t = true) :
    (dats m 0 c).flushed 5 t = ((cfg0.win 5).blk t).view.read (Elt F) (G5 m c) := by
  show (cfg0.win 5).cut (grid0.coords t) ((dats m 0 c).after 5 t) = _
  rw [after0_5]
  funext j
  have h24 : t.val % 25 = 24 := (flush0_5 t).mp hf
  obtain ⟨e0, e1, e2⟩ := index5 t
  have hj0 : (j 0).val < 1 := (j 0).isLt
  have hj1 : (j 1).val < 1 := (j 1).isLt
  have hj2 : (j 2).val < 1 := (j 2).isLt
  have hr : ((((cfg0.win 5).blk t).view.emb j) 0).val = t.val / 25 + (j 0).val := by
    show win0_5.index t (0 : Fin 3) * 1 + 1 * (j 0).val = _
    rw [e0]; omega
  have hq : 25 * ((((cfg0.win 5).blk t).view.emb j) 0).val + 24 = t.val := by rw [hr]; omega
  show (outsAt0 m c t.val t.isLt).2.2.1 (win0_5.xinj (grid0.coords t) j) = G5 m c (((cfg0.win 5).blk t).view.emb j)
  unfold G5
  rw [outsAt0_congr m c hq _ t.isLt]
  refine congrArg _ (funext fun a => Fin.ext ?_)
  match a with
  | ⟨0, _⟩ => show (j 0).val = 0; omega
  | ⟨1, _⟩ => show (j 1).val = 0; omega
  | ⟨2, _⟩ => show (j 2).val = 0; omega

/-- Core `k`'s entry of the per-core normalisers. -/
theorem arr5 (c : Dev nD) (k : Fin 2) :
    ((dats m 0 c).arrAt 5 cfg0.N : Vec F S2x1x1 .f32) (ix3 k 0 0)
      = (outsAt0 m c (25 * k.val + 24) (lt_of_lt_of_eq (by omega : 25 * k.val + 24 < 50) N_0.symm)).2.2.1 (ix3 0 0 0) := by
  have hk : k.val < 2 := k.isLt
  have hq : 25 * k.val + 24 < cfg0.N := lt_of_lt_of_eq (by omega : 25 * k.val + 24 < 50) N_0.symm
  obtain ⟨e0, e1, e2⟩ := index5 ⟨25 * k.val + 24, hq⟩
  have hf : (cfg0.win 5).flush ⟨25 * k.val + 24, hq⟩ = true :=
    (flush0_5 _).mpr (by show (25 * k.val + 24) % 25 = 24; omega)
  refine ((dats m 0 c).arrAt_apply_of_mem 5 (G5 m c) (fun t hf => flushed5_eq m c t hf) cfg0.N ⟨25 * k.val + 24, hq⟩
    (ix3 k 0 0) hq hf ?_).trans rfl
  show ix3 k 0 0 ∈ ((View.whole main_v2_2).slice (win0_5.rect ⟨25 * k.val + 24, hq⟩)).set
  rw [View.set_slice_whole, Rect.mem_set_unit]
  intro a
  match a with
  | ⟨0, _⟩ =>
    show win0_5.index ⟨25 * k.val + 24, hq⟩ (0 : Fin 3) * 1 ≤ k.val
      ∧ k.val < win0_5.index ⟨25 * k.val + 24, hq⟩ (0 : Fin 3) * 1 + 1
    rw [e0]; show (25 * k.val + 24) / 25 * 1 ≤ k.val ∧ k.val < (25 * k.val + 24) / 25 * 1 + 1; omega
  | ⟨1, _⟩ =>
    show win0_5.index ⟨25 * k.val + 24, hq⟩ (1 : Fin 3) * 1 ≤ 0 ∧ 0 < win0_5.index ⟨25 * k.val + 24, hq⟩ (1 : Fin 3) * 1 + 1
    rw [e1]; omega
  | ⟨2, _⟩ =>
    show win0_5.index ⟨25 * k.val + 24, hq⟩ (2 : Fin 3) * 1 ≤ 0 ∧ 0 < win0_5.index ⟨25 * k.val + 24, hq⟩ (2 : Fin 3) * 1 + 1
    rw [e2]; omega

/-! ## The per-core weighted sums -/

/-- Window 6's block index at point `t` is `(t / 25, 0, 0)`: the core number. -/
theorem index6 : ∀ t : Fin cfg0.N, win0_6.index t (0 : Fin 3) = t.val / 25 ∧ win0_6.index t (1 : Fin 3) = 0
    ∧ win0_6.index t (2 : Fin 3) = 0 :=
  (by decide +kernel : ∀ t : Fin grid0.N, _)

/-- The whole array of per-core weighted sums as one function: core `k`'s entry is what the core's last point, `25·k + 24`, left. -/
def G6 (c : Dev nD) : Vec F S2x1x512 .f32 := fun i =>
  (outsAt0 m c (25 * (i 0).val + 24)
      (lt_of_lt_of_eq (by have : (i 0).val < 2 := (i 0).isLt; omega : 25 * (i 0).val + 24 < 50) N_0.symm)).2.2.2.1
    (ix3 0 0 (i 2))

/-- What a core's last point writes back is its block of `G6`. -/
theorem flushed6_eq (c : Dev nD) (t : Fin cfg0.N) (hf : (cfg0.win 6).flush t = true) :
    (dats m 0 c).flushed 6 t = ((cfg0.win 6).blk t).view.read (Elt F) (G6 m c) := by
  show (cfg0.win 6).cut (grid0.coords t) ((dats m 0 c).after 6 t) = _
  rw [after0_6]
  funext j
  have h24 : t.val % 25 = 24 := (flush0_6 t).mp hf
  obtain ⟨e0, e1, e2⟩ := index6 t
  have hj0 : (j 0).val < 1 := (j 0).isLt
  have hj1 : (j 1).val < 1 := (j 1).isLt
  have hj2 : (j 2).val < 512 := (j 2).isLt
  have hr : ((((cfg0.win 6).blk t).view.emb j) 0).val = t.val / 25 + (j 0).val := by
    show win0_6.index t (0 : Fin 3) * 1 + 1 * (j 0).val = _
    rw [e0]; omega
  have hq : 25 * ((((cfg0.win 6).blk t).view.emb j) 0).val + 24 = t.val := by rw [hr]; omega
  show (outsAt0 m c t.val t.isLt).2.2.2.1 (win0_6.xinj (grid0.coords t) j) = G6 m c (((cfg0.win 6).blk t).view.emb j)
  unfold G6
  rw [outsAt0_congr m c hq _ t.isLt]
  refine congrArg _ (funext fun a => Fin.ext ?_)
  match a with
  | ⟨0, _⟩ => show (j 0).val = 0; omega
  | ⟨1, _⟩ => show (j 1).val = 0; omega
  | ⟨2, _⟩ => show (j 2).val = win0_6.index t (2 : Fin 3) * 512 + 1 * (j 2).val; rw [e2]; omega

/-- Core `k`'s row of the per-core weighted sums. -/
theorem arr6 (c : Dev nD) (k : Fin 2) (d : Fin 512) :
    ((dats m 0 c).arrAt 6 cfg0.N : Vec F S2x1x512 .f32) (ix3 k 0 d)
      = (outsAt0 m c (25 * k.val + 24) (lt_of_lt_of_eq (by omega : 25 * k.val + 24 < 50) N_0.symm)).2.2.2.1 (ix3 0 0 d) := by
  have hk : k.val < 2 := k.isLt
  have hq : 25 * k.val + 24 < cfg0.N := lt_of_lt_of_eq (by omega : 25 * k.val + 24 < 50) N_0.symm
  obtain ⟨e0, e1, e2⟩ := index6 ⟨25 * k.val + 24, hq⟩
  have hf : (cfg0.win 6).flush ⟨25 * k.val + 24, hq⟩ = true :=
    (flush0_6 _).mpr (by show (25 * k.val + 24) % 25 = 24; omega)
  refine ((dats m 0 c).arrAt_apply_of_mem 6 (G6 m c) (fun t hf => flushed6_eq m c t hf) cfg0.N ⟨25 * k.val + 24, hq⟩
    (ix3 k 0 d) hq hf ?_).trans rfl
  show ix3 k 0 d ∈ ((View.whole main_v2_3).slice (win0_6.rect ⟨25 * k.val + 24, hq⟩)).set
  rw [View.set_slice_whole, Rect.mem_set_unit]
  intro a
  match a with
  | ⟨0, _⟩ =>
    show win0_6.index ⟨25 * k.val + 24, hq⟩ (0 : Fin 3) * 1 ≤ k.val
      ∧ k.val < win0_6.index ⟨25 * k.val + 24, hq⟩ (0 : Fin 3) * 1 + 1
    rw [e0]; show (25 * k.val + 24) / 25 * 1 ≤ k.val ∧ k.val < (25 * k.val + 24) / 25 * 1 + 1; omega
  | ⟨1, _⟩ =>
    show win0_6.index ⟨25 * k.val + 24, hq⟩ (1 : Fin 3) * 1 ≤ 0 ∧ 0 < win0_6.index ⟨25 * k.val + 24, hq⟩ (1 : Fin 3) * 1 + 1
    rw [e1]; omega
  | ⟨2, _⟩ =>
    show win0_6.index ⟨25 * k.val + 24, hq⟩ (2 : Fin 3) * 512 ≤ d.val
      ∧ d.val < win0_6.index ⟨25 * k.val + 24, hq⟩ (2 : Fin 3) * 512 + 512
    rw [e2]; have := d.isLt; omega

end Cert.KernelIdeal.Val

end
-- ==== Proof.Tail.lean ====
/-
  The host operations after the launch: the two cores' running values combined into the results.

  With per-core maxima Mv, normalisers Lv and weighted sums Av, and the score array S: the global maximum is
  M = max(-∞, Mv 0, Mv 1); core k's rescaling is e^(Mv k - M); the global normaliser is L = 0 + Σ_k e^(Mv k - M) · Lv k;
  the attention weights are e^(S n - M) / L and the pooled features (0 + Σ_k e^(Mv k - M) · Av k d) / L.
-/
import proofs.«422200_j18408229831053_4_alg».proof.Proof.Base
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

noncomputable section

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen

variable {F : FTy → Type} [FloatOps F]
variable (m : (ℓ : Loc nD τ sig) → Buf (Elt F) ℓ)

/-- The per-core maxima as a [2,1] array. -/
def mvOf (Mv : Vec F S2x1x1 .f32) : Vec F S2x1 .f32 := shapeCast S2x1 Mv shapeCasts_S2x1x1_S2x1

/-- The global maximum as a [1,1] array: the maximum over the two cores, from -∞. -/
def gmaxOf (Mv : Vec F S2x1x1 .f32) : Vec F S1x1 .f32 :=
  broadcastInDim S1x1 ![1] bcast_S1_S1x1_1
    (Host.reduce FloatOps.maximumf (mvOf Mv) (constant (F := F) S_ .f32 0xFF800000#32) reducesTo_S2x1_S1_d0 h_S_)

/-- Each core's rescaling e^(Mv k - M) as a [2,1] array. -/
def gscaleOf (Mv : Vec F S2x1x1 .f32) : Vec F S2x1 .f32 :=
  Host.exp (subf (mvOf Mv) (broadcastInDim S2x1 ![0, 1] bcast_S1x1_S2x1_0_1 (gmaxOf Mv)))

/-- The global normaliser as a [1,1] array: the sum over the two cores of the rescaled normalisers, from 0. -/
def gnormOf (Mv Lv : Vec F S2x1x1 .f32) : Vec F S1x1 .f32 :=
  broadcastInDim S1x1 ![1] bcast_S1_S1x1_1
    (Host.reduceAdd (mulf (gscaleOf Mv) (shapeCast S2x1 Lv shapeCasts_S2x1x1_S2x1))
      (constant (F := F) S_ .f32 0x00000000#32) reducesTo_S2x1_S1_d0 h_S_)

/-- The attention weights as the host operations compute them from the score array and the per-core maxima and normalisers:
    the composed term of the operations after the launch that lead to the first result. -/
def attOf (S : Vec F S100000x1 .f32) (Mv Lv : Vec F S2x1x1 .f32) : Vec F S1x100000x1 .f32 :=
  shapeCast S1x100000x1
    (Host.divf
      (Host.exp (subf S (broadcastInDim S100000x1 ![0, 1] bcast_S1x1_S100000x1_0_1 (gmaxOf Mv))))
      (broadcastInDim S100000x1 ![0, 1] bcast_S1x1_S100000x1_0_1 (gnormOf Mv Lv)))
    shapeCasts_S100000x1_S1x100000x1

/-- The pooled features as the host operations compute them from the per-core maxima, normalisers and weighted sums. -/
def hsOf (Mv Lv : Vec F S2x1x1 .f32) (Av : Vec F S2x1x512 .f32) : Vec F S1x512 .f32 :=
  Host.divf
    (broadcastInDim S1x512 ![1] bcast_S512_S1x512_1
      (Host.reduceAdd
        (mulf (broadcastInDim S2x512 ![0, 1] bcast_S2x1_S2x512_0_1 (gscaleOf Mv)) (shapeCast S2x512 Av shapeCasts_S2x1x512_S2x512))
        (constant (F := F) S_ .f32 0x00000000#32) reducesTo_S2x512_S512_d0 h_S_))
    (broadcastInDim S1x512 ![0, 1] bcast_S1x1_S1x512_0_1 (gnormOf Mv Lv))

set_option maxHeartbeats 1000000 in
/-- The first result of the operations after the launch, from any contents of the seven arrays. -/
theorem tail_att_aux (c : Dev nD) (V : Valuation τ sig (Elt F))
    (A : (w : Fin 7) → Buf (Elt F) ((spec0 w).arr.view.loc (c.tc : Thread nD τ))) :
    StableHlo.after (hostOps1 (F := F)) (Pipeline.withArrays spec0 c V A) (Proc.devRef .tc main_v25)
      = attOf (A 3) (A 4) (A 5) := by
  have h3 : Pipeline.withArrays spec0 c V A (Proc.devRef .tc main_v2_0) = A 3 :=
    Pipeline.withArrays_arr spec0 launch0.win.arr_inj c V A 3
  have h4 : Pipeline.withArrays spec0 c V A (Proc.devRef .tc main_v2_1) = A 4 :=
    Pipeline.withArrays_arr spec0 launch0.win.arr_inj c V A 4
  have h5 : Pipeline.withArrays spec0 c V A (Proc.devRef .tc main_v2_2) = A 5 :=
    Pipeline.withArrays_arr spec0 launch0.win.arr_inj c V A 5
  after_results_simp
  rw [h3, h4, h5]
  rfl

/-- The first result after the whole program: the host operations applied to the launch's result arrays. -/
theorem tail_att (c : Dev nD) :
    Pipeline.afterTail₀ cfgs (dats m) 0 (V0 m) [hostOps1] c main_v25
      = attOf ((dats m 0 c).arrAt 3 cfg0.N) ((dats m 0 c).arrAt 4 cfg0.N) ((dats m 0 c).arrAt 5 cfg0.N) := by
  exact tail_att_aux c (V0 m c) fun w => (dats m 0 c).arrAt w cfg0.N

set_option maxHeartbeats 1000000 in
/-- The second result of the operations after the launch, from any contents of the seven arrays. -/
theorem tail_hs_aux (c : Dev nD) (V : Valuation τ sig (Elt F))
    (A : (w : Fin 7) → Buf (Elt F) ((spec0 w).arr.view.loc (c.tc : Thread nD τ))) :
    StableHlo.after (hostOps1 (F := F)) (Pipeline.withArrays spec0 c V A) (Proc.devRef .tc main_v19)
      = hsOf (A 4) (A 5) (A 6) := by
  have h4 : Pipeline.withArrays spec0 c V A (Proc.devRef .tc main_v2_1) = A 4 :=
    Pipeline.withArrays_arr spec0 launch0.win.arr_inj c V A 4
  have h5 : Pipeline.withArrays spec0 c V A (Proc.devRef .tc main_v2_2) = A 5 :=
    Pipeline.withArrays_arr spec0 launch0.win.arr_inj c V A 5
  have h6 : Pipeline.withArrays spec0 c V A (Proc.devRef .tc main_v2_3) = A 6 :=
    Pipeline.withArrays_arr spec0 launch0.win.arr_inj c V A 6
  after_results_simp
  rw [h4, h5, h6]
  rfl

/-- The second result after the whole program. -/
theorem tail_hs (c : Dev nD) :
    Pipeline.afterTail₀ cfgs (dats m) 0 (V0 m) [hostOps1] c main_v19
      = hsOf ((dats m 0 c).arrAt 4 cfg0.N) ((dats m 0 c).arrAt 5 cfg0.N) ((dats m 0 c).arrAt 6 cfg0.N) := by
  exact tail_hs_aux c (V0 m c) fun w => (dats m 0 c).arrAt w cfg0.N

/-- The global maximum of the two cores' maxima, from -∞. -/
def kmax (Mv : Vec Ideal S2x1x1 .f32) : EReal :=
  (Finset.univ : Finset (Fin 2)).fold max (⊥ : EReal) (fun k => Mv (ix3 k 0 0))

/-- The global normaliser from the two cores'. -/
def knorm (Mv Lv : Vec Ideal S2x1x1 .f32) : EReal :=
  0 + ∑ k : Fin 2, Ideal.exp (Mv (ix3 k 0 0) - kmax Mv) * Lv (ix3 k 0 0)

/-! ## The composed terms read at an index, over the extended reals -/

/-- The bit pattern of -∞. -/
private theorem ofBits_negInf : Ideal.ofBits .f32 0xFF800000#32 = (⊥ : EReal) := by simp [Ideal.ofBits, Ideal.ieee]

/-- The [2,1] array of maxima at core `k`. -/
theorem mvOf_apply (Mv : Vec Ideal S2x1x1 .f32) (k : Fin 2) : mvOf (F := Ideal) Mv (ix2 k 0) = Mv (ix3 k 0 0) := by
  unfold mvOf
  exact shapeCast_apply Mv shapeCasts_S2x1x1_S2x1 (ix2 k 0) (ix3 k 0 0) (by
    rewrite [Shape.rowMajor_val_three, Shape.rowMajor_val_two]
    show (k.val * 1 + 0) * 1 + 0 = k.val * 1 + 0
    omega)

/-- The reduced index of the one-element row with core `k` put back is (k, 0). -/
private theorem lift_S2x1 (hr : S2x1.Reduces [0] S1) (j : S1.Idx) (k : Fin 2) : hr.lift j k = ix2 k 0 :=
  funext fun a => Fin.ext (by
    match a with
    | ⟨0, _⟩ => rfl
    | ⟨1, _⟩ => exact Nat.lt_one_iff.mp (hr.lift j k 1).isLt)

/-- The global maximum, at its one index, is the maximum of the two cores' maxima from -∞. -/
theorem gmaxOf_apply (Mv : Vec Ideal S2x1x1 .f32) (i : S1x1.Idx) : gmaxOf (F := Ideal) Mv i = kmax Mv := by
  have hr : S2x1.Reduces [0] S1 := by decide
  have hf : (mvOf (F := Ideal) Mv ∘ hr.lift (ix1 0)) = fun k : Fin 2 => Mv (ix3 k 0 0) := funext fun k => by
    show mvOf (F := Ideal) Mv (hr.lift (ix1 0) k) = _
    rw [lift_S2x1 hr (ix1 0) k]
    exact mvOf_apply Mv k
  unfold gmaxOf
  refine (broadcastInDim_apply _ bcast_S1_S1x1_1 _ i (ix1 0) (fun a => ?_)).trans ?_
  · match a with
    | ⟨0, _⟩ => show 0 = if (1 : Nat) = 1 then 0 else (i 1).val; rw [if_pos rfl]
  rw [Host.reduce_eq_fold_single FloatOps.maximumf _ _ reducesTo_S2x1_S1_d0 hr h_S_]
  unfold kmax
  exact congrArg₂ (fun b f => Finset.fold max b f (Finset.univ : Finset (Fin 2))) ofBits_negInf hf

/-- Core `k`'s rescaling is e^(Mv k - M). -/
theorem gscaleOf_apply (Mv : Vec Ideal S2x1x1 .f32) (k : Fin 2) :
    gscaleOf (F := Ideal) Mv (ix2 k 0) = Ideal.exp (Mv (ix3 k 0 0) - kmax Mv) := by
  unfold gscaleOf
  show Ideal.exp (mvOf (F := Ideal) Mv (ix2 k 0)
    - broadcastInDim S2x1 ![0, 1] bcast_S1x1_S2x1_0_1 (gmaxOf (F := Ideal) Mv) (ix2 k 0)) = _
  rw [mvOf_apply Mv k]
  exact congrArg (fun y => Ideal.exp (Mv (ix3 k 0 0) - y)) (gmaxOf_apply Mv _)

/-- The global normaliser, at its one index, is the sum over the two cores of the rescaled normalisers, from 0. -/
theorem gnormOf_apply (Mv Lv : Vec Ideal S2x1x1 .f32) (i : S1x1.Idx) : gnormOf (F := Ideal) Mv Lv i = knorm Mv Lv := by
  have hr : S2x1.Reduces [0] S1 := by decide
  have hl : ∀ k : Fin 2, shapeCast S2x1 Lv shapeCasts_S2x1x1_S2x1 (ix2 k 0) = Lv (ix3 k 0 0) := fun k => mvOf_apply Lv k
  unfold gnormOf
  refine (broadcastInDim_apply _ bcast_S1_S1x1_1 _ i (ix1 0) (fun a => ?_)).trans ?_
  · match a with
    | ⟨0, _⟩ => show 0 = if (1 : Nat) = 1 then 0 else (i 1).val; rw [if_pos rfl]
  simp only [Host.reduceAdd, Ideal.hostReduceAdd_def]
  rw [Ideal.hostReduceAdd_single reducesTo_S2x1_S1_d0 hr]
  unfold knorm
  refine congrArg₂ (· + ·) Ideal.ofBits_zero_f32 (Finset.sum_congr rfl fun k _ => ?_)
  rw [lift_S2x1 hr (ix1 0) k]
  show gscaleOf (F := Ideal) Mv (ix2 k 0) * shapeCast S2x1 Lv shapeCasts_S2x1x1_S2x1 (ix2 k 0) = _
  rw [gscaleOf_apply Mv k, hl k]

/-- Row `n`'s attention weight over the extended reals. -/
theorem attOf_apply (S : Vec Ideal S100000x1 .f32) (Mv Lv : Vec Ideal S2x1x1 .f32) (n : Fin 100000) :
    attOf (F := Ideal) S Mv Lv (ix3 0 n 0) = Ideal.div (Ideal.exp (S (ix2 n 0) - kmax Mv)) (knorm Mv Lv) := by
  unfold attOf
  refine (shapeCast_apply _ shapeCasts_S100000x1_S1x100000x1 (ix3 0 n 0) (ix2 n 0) (by
    rewrite [Shape.rowMajor_val_three, Shape.rowMajor_val_two]
    show n.val * 1 + 0 = (0 * 100000 + n.val) * 1 + 0
    omega)).trans ?_
  exact congrArg₂ (fun y z => Ideal.div (Ideal.exp (S (ix2 n 0) - y)) z) (gmaxOf_apply Mv _) (gnormOf_apply Mv Lv _)

/-- Feature `d` of the pooled row over the extended reals. -/
theorem hsOf_apply (Mv Lv : Vec Ideal S2x1x1 .f32) (Av : Vec Ideal S2x1x512 .f32) (d : Fin 512) :
    hsOf (F := Ideal) Mv Lv Av (ix2 0 d)
      = Ideal.div (0 + ∑ k : Fin 2, Ideal.exp (Mv (ix3 k 0 0) - kmax Mv) * Av (ix3 k 0 d)) (knorm Mv Lv) := by
  have hr : S2x512.Reduces [0] S512 := by decide
  have hlift : ∀ k : Fin 2, hr.lift (ix1 d) k = ix2 k d := fun k => funext fun a => Fin.ext (by
    match a with
    | ⟨0, _⟩ => rfl
    | ⟨1, _⟩ => rfl)
  have hs : ∀ k : Fin 2, broadcastInDim S2x512 ![0, 1] bcast_S2x1_S2x512_0_1 (gscaleOf (F := Ideal) Mv) (ix2 k d)
      = Ideal.exp (Mv (ix3 k 0 0) - kmax Mv) := fun k =>
    (broadcastInDim_apply _ bcast_S2x1_S2x512_0_1 (gscaleOf (F := Ideal) Mv) (ix2 k d) (ix2 k 0) (fun a => by
      match a with
      | ⟨0, _⟩ => show k.val = if (2 : Nat) = 1 then 0 else k.val; rw [if_neg (by decide)]
      | ⟨1, _⟩ => show 0 = if (1 : Nat) = 1 then 0 else d.val; rw [if_pos rfl])).trans (gscaleOf_apply Mv k)
  have ha : ∀ k : Fin 2, shapeCast S2x512 Av shapeCasts_S2x1x512_S2x512 (ix2 k d) = Av (ix3 k 0 d) := fun k =>
    shapeCast_apply Av shapeCasts_S2x1x512_S2x512 (ix2 k d) (ix3 k 0 d) (by
      rewrite [Shape.rowMajor_val_three, Shape.rowMajor_val_two]
      show (k.val * 1 + 0) * 512 + d.val = k.val * 512 + d.val
      omega)
  unfold hsOf
  refine congrArg₂ Ideal.div ?_ (gnormOf_apply Mv Lv _)
  refine (broadcastInDim_apply _ bcast_S512_S1x512_1 _ (ix2 0 d) (ix1 d) (fun a => ?_)).trans ?_
  · match a with
    | ⟨0, _⟩ => show d.val = if (512 : Nat) = 1 then 0 else d.val; rw [if_neg (by decide)]
  simp only [Host.reduceAdd, Ideal.hostReduceAdd_def]
  rw [Ideal.hostReduceAdd_single reducesTo_S2x512_S512_d0 hr]
  refine congrArg₂ (· + ·) Ideal.ofBits_zero_f32 (Finset.sum_congr rfl fun k _ => ?_)
  rw [hlift k]
  show broadcastInDim S2x512 ![0, 1] bcast_S2x1_S2x512_0_1 (gscaleOf (F := Ideal) Mv) (ix2 k d)
    * shapeCast S2x512 Av shapeCasts_S2x1x512_S2x512 (ix2 k d) = _
  rw [hs k, ha k]

end Cert.KernelIdeal.Val

end
-- ==== Proof.KernelValue.lean ====
/-
  The kernel's two results are the specification's attention weights and pooled features, for real argument arrays.

  After the launch, entry k of the per-core arrays holds core k's running maximum μ_k, normaliser Σ e^(s - μ_k) and weighted sums
  after its last tile, and the score array holds every row's score.  The host combines the two cores: with M the larger
  maximum, Σ_k e^(μ_k - M) · (core k's normaliser) is the global normaliser Σ_n e^(s n - M), and likewise for the weighted
  sums; so the kernel's attention weights e^(s n - M) / L and pooled features (Σ_n e^(s n - M) x[n,d]) / L are the
  softmax's, the latter because a sum divided by L is the sum of the quotients.
-/
import proofs.«422200_j18408229831053_4_alg».proof.Proof.Base
import proofs.«422200_j18408229831053_4_alg».proof.Proof.Pieces
import proofs.«422200_j18408229831053_4_alg».proof.Proof.PayIdeal
import proofs.«422200_j18408229831053_4_alg».proof.Proof.Blocks
import proofs.«422200_j18408229831053_4_alg».proof.Proof.OnlineSoftmax
import proofs.«422200_j18408229831053_4_alg».proof.Proof.Rows
import proofs.«422200_j18408229831053_4_alg».proof.Proof.Spec
import proofs.«422200_j18408229831053_4_alg».proof.Proof.ScoreReal
import proofs.«422200_j18408229831053_4_alg».proof.Proof.Induct
import proofs.«422200_j18408229831053_4_alg».proof.Proof.Arrays
import proofs.«422200_j18408229831053_4_alg».proof.Proof.Tail

noncomputable section

namespace Cert.KernelIdeal.Val

open Idealize.ShloMosaic Idealize.ShloMosaic.TcCoe Idealize.SL.Sem Idealize.ShloMosaic.ValueIdx
open Cert.KernelIdeal Cert.KernelIdeal.Gen Cert.KernelIdeal.PayIdeal Cert.OnlineSoftmax Cert.Rows Cert.Spec

variable {m : (ℓ : Loc nD τ sig) → Buf (Elt Ideal) ℓ} {c : Dev nD} (A : RealArgs m c)

theorem lt_N_last (k : Fin 2) : 25 * k.val + 24 < cfg0.N := lt_N k.val 24 k.isLt (by decide)

variable (m c) in
/-- Core k's running values after its last tile. -/
def mFin (k : Fin 2) : EReal := mAt m c (25 * k.val + 24) (lt_N_last k)
variable (m c) in
def lFin (k : Fin 2) : EReal := lAt m c (25 * k.val + 24) (lt_N_last k)
variable (m c) in
def aFin (d : Fin 512) (k : Fin 2) : EReal := aAt m c (25 * k.val + 24) (lt_N_last k) d

/-- The rows of core k. -/
abbrev coreRows (k : Fin 2) : Finset (Fin 100000) := rowsUpTo k.val 24

theorem inv_fin (k : Fin 2) : Inv A.sR (coreRows k) (mFin m c k) (lFin m c k) := (inv_core A k.val k.isLt 24 (by decide)).1

theorem invAcc_fin (d : Fin 512) (k : Fin 2) : InvAcc A.sR (fun n => A.xR n d) (coreRows k) (mFin m c k) (aFin m c d k) :=
  (inv_core A k.val k.isLt 24 (by decide)).2 d

theorem cores_disj : Disjoint (coreRows 0) (coreRows 1) := rows_cores_disj
theorem cores_cover : coreRows 0 ∪ coreRows 1 = Finset.univ := rows_cores_cover

variable (m c) in
/-- Entry k of the per-core maxima is core k's running maximum after its last tile. -/
theorem arr4_fin (k : Fin 2) : ((dats m 0 c).arrAt 4 cfg0.N : Vec Ideal S2x1x1 .f32) (ix3 k 0 0) = mFin m c k := by
  refine (arr4 m c k).trans ?_
  have h := (outs_last m c ⟨25 * k.val + 24, lt_N_last k⟩ (by show (25 * k.val + 24) % 25 = 24; omega)).1
  exact (congrFun h (ix3 0 0 0)).trans (pay3_apply _)

variable (m c) in
theorem arr5_fin (k : Fin 2) : ((dats m 0 c).arrAt 5 cfg0.N : Vec Ideal S2x1x1 .f32) (ix3 k 0 0) = lFin m c k := by
  refine (arr5 m c k).trans ?_
  have h := (outs_last m c ⟨25 * k.val + 24, lt_N_last k⟩ (by show (25 * k.val + 24) % 25 = 24; omega)).2.1
  exact (congrFun h (ix3 0 0 0)).trans (pay4_apply _)

variable (m c) in
theorem arr6_fin (k : Fin 2) (d : Fin 512) : ((dats m 0 c).arrAt 6 cfg0.N : Vec Ideal S2x1x512 .f32) (ix3 k 0 d) = aFin m c d k := by
  refine (arr6 m c k d).trans ?_
  have h := (outs_last m c ⟨25 * k.val + 24, lt_N_last k⟩ (by show (25 * k.val + 24) % 25 = 24; omega)).2.2
  exact (congrFun h (ix3 0 0 d)).trans (pay5_apply _ d)

/-- Row n of the score array is row n's score. -/
theorem arr3_score (n : Fin 100000) :
    ((dats m 0 c).arrAt 3 cfg0.N : Vec Ideal S100000x1 .f32) (ix2 n 0) = up A.sR n := by
  refine (arr3 m c n).trans ?_
  have hlt : n.val / 2000 < 50 := by have := n.isLt; omega
  have h := out3_eq m c ⟨n.val / 2000, lt_of_lt_of_eq hlt N_0.symm⟩
  refine (congrFun h (ix2 ⟨n.val % 2000, Nat.mod_lt _ (by decide)⟩ 0)).trans ?_
  rw [pay9_apply, tileScore_eq A ⟨n.val / 2000, lt_of_lt_of_eq hlt N_0.symm⟩ hlt]
  exact congrArg (up A.sR) (row_eq n)

/-- The scores as a function are the coercions of the real scores. -/
theorem score_fun : score (argX m c) (argWv m c) (argWu m c) (argWa m c) = up A.sR := funext A.score_eq

/-- The kernel's global maximum and normaliser are the specification's. -/
theorem kmax_knorm :
    kmax ((dats m 0 c).arrAt 4 cfg0.N) = gmax (up A.sR)
    ∧ ∃ Μ : ℝ, gmax (up A.sR) = (Μ : EReal)
      ∧ knorm ((dats m 0 c).arrAt 4 cfg0.N) ((dats m 0 c).arrAt 5 cfg0.N) = ((∑ n, Real.exp (A.sR n - Μ) : ℝ) : EReal)
      ∧ norm (up A.sR) = ((∑ n, Real.exp (A.sR n - Μ) : ℝ) : EReal) := by
  haveI : Nonempty (Fin 100000) := ⟨0⟩
  have hk : kmax ((dats m 0 c).arrAt 4 cfg0.N) = (Finset.univ : Finset (Fin 2)).fold max (⊥ : EReal) (mFin m c) := by
    unfold kmax; simp only [arr4_fin m c]
  obtain ⟨hsup, Μ, hΜ, hL⟩ := combine A.sR coreRows cores_disj cores_cover (mFin m c) (lFin m c) (inv_fin A) _ hk
  have hg : kmax ((dats m 0 c).arrAt 4 cfg0.N) = gmax (up A.sR) := hsup
  refine ⟨hg, Μ, hg ▸ hΜ, ?_, ?_⟩
  · unfold knorm
    simp only [arr4_fin m c, arr5_fin m c]
    exact hL
  · obtain ⟨Μ', hΜ', hn⟩ := ref_norm A.sR (gmax (up A.sR)) rfl
    have : Μ' = Μ := EReal.coe_eq_coe_iff.mp (hΜ'.symm.trans (hg ▸ hΜ))
    subst this
    exact hn

include A in
/-- The kernel's attention weights are the softmax's. -/
theorem kernel_att (n : Fin 100000) :
    attOf (F := Ideal) ((dats m 0 c).arrAt 3 cfg0.N) ((dats m 0 c).arrAt 4 cfg0.N) ((dats m 0 c).arrAt 5 cfg0.N) (ix3 0 n 0)
      = att (score (argX m c) (argWv m c) (argWu m c) (argWa m c)) n := by
  obtain ⟨hg, Μ, hΜ, hkn, hn⟩ := kmax_knorm A
  rw [attOf_apply, score_fun A, arr3_score A n, hg, hkn]
  unfold att
  rw [hn]

include A in
/-- The kernel's pooled features are the softmax-weighted sums of x's rows. -/
theorem kernel_hs (d : Fin 512) :
    hsOf (F := Ideal) ((dats m 0 c).arrAt 4 cfg0.N) ((dats m 0 c).arrAt 5 cfg0.N) ((dats m 0 c).arrAt 6 cfg0.N) (ix2 0 d)
      = hs (argX m c) (score (argX m c) (argWv m c) (argWu m c) (argWa m c)) d := by
  haveI : Nonempty (Fin 100000) := ⟨0⟩
  obtain ⟨hg, Μ, hΜ, hkn, hn⟩ := kmax_knorm A
  have hk : kmax ((dats m 0 c).arrAt 4 cfg0.N) = (Finset.univ : Finset (Fin 2)).fold max (⊥ : EReal) (mFin m c) := by
    unfold kmax; simp only [arr4_fin m c]
  obtain ⟨Μ', hΜ', hacc⟩ := combineAcc A.sR (fun n => A.xR n d) coreRows cores_disj cores_cover (mFin m c) (lFin m c)
    (aFin m c d) (inv_fin A) (invAcc_fin A d) _ hk
  have : Μ' = Μ := EReal.coe_eq_coe_iff.mp (hΜ'.symm.trans (hg.trans hΜ))
  subst this
  rw [hsOf_apply, hkn]
  simp only [arr4_fin m c, arr6_fin m c]
  rw [hacc, div_sum A.sR (fun n => A.xR n d) Μ', score_fun A]
  unfold hs att
  rw [hn, hΜ]
  exact Finset.sum_congr rfl fun n _ => by rw [A.hx n d]

end Cert.KernelIdeal.Val

end
-- ==== Proof.Finite.lean ====
/-
  The precondition "every float input is finite", opened: over the extended reals each entry of the four argument arrays is a
  real number (neither +∞ nor -∞), because its absolute value is below +∞ and the conjunction over all entries holds.
-/
import proofs.«422200_j18408229831053_4_alg».proof.Pre_finite_inputs
import Idealize.ShloMosaic.PureOps.Ideal
import Idealize.ShloMosaic.PureOps.Ideal.Laws
import Idealize.ShloMosaic.Lib.ValueIdx
import Idealize.ShloMosaic.Lib.ReduceAll

noncomputable section

namespace Cert.Finite

open Idealize.ShloMosaic Idealize.ShloMosaic.ValueIdx
open Cert.Pre_finite_inputs

/-- The rank-0 shape has one index. -/
private instance : Subsingleton S_.Idx := ⟨fun a b => funext fun d => d.elim0⟩

/-- One entry: an extended real whose absolute value, max a (-a), is strictly below +∞ is a real number;
    at ⊥ and at ⊤ the absolute value is ⊤, which is not below ⊤. -/
private theorem real_of_abs_lt_inf (a : Ideal .f32)
    (h : FloatOps.cmpf .olt (FloatOps.hostAbsf a) (FloatOps.ofBits (F := Ideal) .f32 0x7F800000#32) = 1#1) :
    ∃ r : ℝ, a = (r : EReal) := by
  have htop : Ideal.ofBits .f32 0x7F800000#32 = ⊤ := by simp [Ideal.ofBits, Ideal.ieee]
  change Ideal.cmp .olt (max (a : EReal) (-(a : EReal))) (Ideal.ofBits .f32 0x7F800000#32) = 1#1 at h
  rw [htop] at h
  induction a using EReal.rec with
  | bot => simp [Ideal.cmp] at h
  | coe r => exact ⟨r, rfl⟩
  | top => simp [Ideal.cmp] at h

/-- One array of any shape: if the conjunction over all entries of "|a i| < +∞" is 1, every entry is a real. -/
private theorem reals_of_all {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi
          (cmpf .olt (Host.absf a) (broadcastInDim s ![] hb (constant S_ .f32 0x7F800000#32)))
          (constantI S_ 1 1#1) hr hu ix0 = 1#1) :
    ∀ i, ∃ r : ℝ, a i = (r : EReal) := fun i =>
  real_of_abs_lt_inf (a i) (Host.reduce_andi_all _ _ hr hu ix0 e i)

variable [Cert.Pre_finite_inputs.Facts]

/-- If the finiteness predicate of four arrays over the extended reals is all ones, every entry of each is a real. -/
theorem reals_of_pre (x : FVec Ideal S100000x512 .f32) (wv wu : FVec Ideal S512x128 .f32) (wa : FVec Ideal S128x1 .f32)
    (h : Cert.Pre_finite_inputs.fn (F := Ideal) x wv wu wa = (fun _ => 1#1)) :
    (∀ i, ∃ r : ℝ, x i = (r : EReal)) ∧ (∀ i, ∃ r : ℝ, wv i = (r : EReal))
      ∧ (∀ i, ∃ r : ℝ, wu i = (r : EReal)) ∧ (∀ i, ∃ r : ℝ, wa i = (r : EReal)) := by
  have h0 := congrFun h ix0
  unfold Cert.Pre_finite_inputs.fn Cert.Pre_finite_inputs.fn_part1 at h0
  dsimp only at h0
  obtain ⟨h123, h4⟩ := IntOp.andi_eq_one.1 h0
  obtain ⟨h12, h3⟩ := IntOp.andi_eq_one.1 h123
  obtain ⟨h1, h2⟩ := IntOp.andi_eq_one.1 h12
  exact ⟨reals_of_all x _ _ _ h1, reals_of_all wv _ _ _ h2, reals_of_all wu _ _ _ h3, reals_of_all wa _ _ _ h4⟩

end Cert.Finite

end
-- ==== Proof.Idx.lean ====
/-
  An index of a [1, 100000, 1] array is (0, n, 0) and an index of a [1, 512] array is (0, d): the unit axes have one coordinate.
-/
import Idealize.ShloMosaic.Lib.ValueIdx

namespace Cert.Spec

open Idealize.ShloMosaic Idealize.ShloMosaic.ValueIdx

theorem idx3_mid (i : (⟨3, ![1, 100000, 1]⟩ : Shape).Idx) : i = ix3 (0 : Fin 1) (i 1 : Fin 100000) (0 : Fin 1) := by
  funext a
  apply Fin.ext
  match a with
  | ⟨0, _⟩ => have h : (i 0).val < 1 := (i 0).isLt; show (i 0).val = 0; omega
  | ⟨1, _⟩ => rfl
  | ⟨2, _⟩ => have h : (i 2).val < 1 := (i 2).isLt; show (i 2).val = 0; omega

theorem idx2_snd (i : (⟨2, ![1, 512]⟩ : Shape).Idx) : i = ix2 (0 : Fin 1) (i 1 : Fin 512) := by
  funext a
  apply Fin.ext
  match a with
  | ⟨0, _⟩ => have h : (i 0).val < 1 := (i 0).isLt; show (i 0).val = 0; omega
  | ⟨1, _⟩ => rfl

end Cert.Spec
-- ==== Proof.KernelRun.lean ====
/-
  The idealized kernel's run, read: from any memory whose four argument arrays are real, every weakly fair execution
  terminates with the first result the softmax attention weights of the rows' scores and the second the attention-pooled
  row, the arguments unchanged.  The launch's frame run gives the four result arrays of the launch and the host
  operations after it; their values are the specification's by the running-softmax invariant.
-/
import proofs.«422200_j18408229831053_4_alg».proof.Proof.KernelValue
import proofs.«422200_j18408229831053_4_alg».proof.Proof.Finite
import proofs.«422200_j18408229831053_4_alg».proof.Proof.Idx

noncomputable section

namespace Cert.KernelIdeal.Val

open Idealize.ShloMosaic Idealize.ShloMosaic.TcCoe Idealize.SL.Sem Idealize.ShloMosaic.ValueIdx
open Cert.KernelIdeal Cert.KernelIdeal.Gen Cert.Spec

variable (m : (ℓ : Loc nD τ sig) → Buf (Elt Ideal) ℓ) (ρ : Dev nD → PrngReg)

/-- The attention weights as contents of the first result. -/
def attArr (c : Dev nD) : Buf (Elt Ideal) ((c.tc : Thread nD τ).loc main_v25) :=
  fun i : S1x100000x1.Idx => att (score (argX m c) (argWv m c) (argWu m c) (argWa m c)) (i 1)

/-- The pooled features as contents of the second result. -/
def hsArr (c : Dev nD) : Buf (Elt Ideal) ((c.tc : Thread nD τ).loc main_v19) :=
  fun i : S1x512.Idx => hs (argX m c) (score (argX m c) (argWv m c) (argWu m c) (argWa m c)) (i 1)

/-- Real argument arrays from the finiteness precondition. -/
theorem realArgs_of_pre [hf : Cert.Pre_finite_inputs.Facts] (c : Dev nD)
    (h : Cert.Pre_finite_inputs.fn (F := Ideal) (m ((c.tc : Thread nD τ).loc main_arg0)) (m ((c.tc : Thread nD τ).loc main_arg1))
      (m ((c.tc : Thread nD τ).loc main_arg2)) (m ((c.tc : Thread nD τ).loc main_arg3)) = (fun _ => 1#1)) :
    Nonempty (RealArgs m c) := by
  obtain ⟨hx, hwv, hwu, hwa⟩ := Cert.Finite.reals_of_pre _ _ _ _ h
  choose xR hxR using hx
  choose wvR hwvR using hwv
  choose wuR hwuR using hwu
  choose waR hwaR using hwa
  exact ⟨⟨fun n d => xR (ix2 n d), fun d k => wvR (ix2 d k), fun d k => wuR (ix2 d k), fun k => waR (ix2 k 0),
    fun n d => hxR _, fun d k => hwvR _, fun d k => hwuR _, fun k => hwaR _⟩⟩

/-- The run of the idealized kernel, with its results named. -/
theorem run (A : ∀ c : Dev nD, RealArgs m c) :
    θ_run defs (onTc (τ := τ) (main (F := Ideal))) ⟨m, fun _ => 0, ρ⟩ (fun r => ∀ c : Dev nD,
      r.2.mem ((c.tc : Thread nD τ).loc main_v25) = attArr m c
      ∧ r.2.mem ((c.tc : Thread nD τ).loc main_v19) = hsArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ⟨?_, ?_, ?_, ?_, ?_, ?_⟩) (run_main m ρ)
  · refine ((h c).2 main_v25 (Pipeline.mem_restRefs_of main_v25 (by decide) (by decide))).trans ((tail_att m c).trans ?_)
    funext i
    exact (congrArg _ (idx3_mid i)).trans (kernel_att (A c) (i 1))
  · refine ((h c).2 main_v19 (Pipeline.mem_restRefs_of main_v19 (by decide) (by decide))).trans ((tail_hs m c).trans ?_)
    funext i
    exact (congrArg _ (idx2_snd i)).trans (kernel_hs (A c) (i 1))
  · exact ((h c).1 0).trans (((dats m 0 c).arrAt_in 0 rfl _).trans ((A_eq m c 0).trans (V_main_arg0 m c)))
  · exact ((h c).2 main_arg1 (Pipeline.mem_restRefs_of main_arg1 (by decide) (by decide))).trans (W_main_arg1 m (dats m) c)
  · exact ((h c).2 main_arg2 (Pipeline.mem_restRefs_of main_arg2 (by decide) (by decide))).trans (W_main_arg2 m (dats m) c)
  · exact ((h c).2 main_arg3 (Pipeline.mem_restRefs_of main_arg3 (by decide) (by decide))).trans (W_main_arg3 m (dats m) c)

end Cert.KernelIdeal.Val

end
-- ==== Proof.RefValue.lean ====
/-
  The reference program over the extended reals, read at an index: its two results are the specification's attention weights and
  pooled features of the four argument arrays.  The reference computes the scores by three matrix products, a tanh and a
  logistic spelt 1 / (1 + e^(-u)), takes the maximum over all rows from -∞ (and once more against -∞), exponentiates the
  differences, sums them from 0, divides, and contracts the weights with x over the rows.
-/
import proofs.«422200_j18408229831053_4_alg».proof.Proof.Gen.ReferenceIdeal.Read
import proofs.«422200_j18408229831053_4_alg».proof.Proof.Spec
import Idealize.ShloMosaic.PureOps.Ideal.Laws
import Idealize.ShloMosaic.Lib.ValueIdx
import Idealize.ShloMosaic.Lib.Pipeline.Value

noncomputable section

namespace Cert.ReferenceIdeal.RefValue

open Idealize.ShloMosaic Idealize.ShloMosaic.ValueIdx
open Cert.ReferenceIdeal Cert.ReferenceIdeal.Gen Cert.ReferenceIdeal.Read

/-- The word 0x3F800000 denotes one. -/
theorem one_word : Ideal.ofBits .f32 0x3F800000#32 = 1 := by
  simp [Ideal.ofBits, Ideal.ieee, -EReal.coe_mul]; norm_num

/-- The word 0xFF800000 denotes -∞. -/
theorem ninf_word : Ideal.ofBits .f32 0xFF800000#32 = ⊥ := by
  simp [Ideal.ofBits, Ideal.ieee]

/-- Row `n`'s score as the reference computes it: the gated product contracted with Wa. -/
theorem ref_score (x : (⟨S100000x512, .f32⟩ : BufTy).Contents (Elt Ideal)) (wv wu : (⟨S512x128, .f32⟩ : BufTy).Contents (Elt Ideal))
    (wa : (⟨S128x1, .f32⟩ : BufTy).Contents (Elt Ideal)) (n : Fin 100000) :
    val_main_v10 (F := Ideal) x wv wu wa (ix2 n 0) = Cert.Spec.score x wv wu wa n := by
  have el10 : ∀ k : Fin 128, lidx_main_v10 (ix2 n 0) k = ix2 n k := fun k =>
    funext fun a => Fin.ext (by match a with | ⟨0, _⟩ => rfl | ⟨1, _⟩ => rfl)
  have er10 : ∀ k : Fin 128, ridx_main_v10 (ix2 n 0) k = ix2 k 0 := fun k =>
    funext fun a => Fin.ext (by match a with | ⟨0, _⟩ => rfl | ⟨1, _⟩ => rfl)
  have el0 : ∀ (k : Fin 128) (d : Fin 512), lidx_main_v0 (ix2 n k) d = ix2 n d := fun k d =>
    funext fun a => Fin.ext (by match a with | ⟨0, _⟩ => rfl | ⟨1, _⟩ => rfl)
  have er0 : ∀ (k : Fin 128) (d : Fin 512), ridx_main_v0 (ix2 n k) d = ix2 d k := fun k d =>
    funext fun a => Fin.ext (by match a with | ⟨0, _⟩ => rfl | ⟨1, _⟩ => rfl)
  have el2 : ∀ (k : Fin 128) (d : Fin 512), lidx_main_v2 (ix2 n k) d = ix2 n d := fun k d =>
    funext fun a => Fin.ext (by match a with | ⟨0, _⟩ => rfl | ⟨1, _⟩ => rfl)
  have er2 : ∀ (k : Fin 128) (d : Fin 512), ridx_main_v2 (ix2 n k) d = ix2 d k := fun k d =>
    funext fun a => Fin.ext (by match a with | ⟨0, _⟩ => rfl | ⟨1, _⟩ => rfl)
  rw [val_main_v10_apply]
  unfold Cert.Spec.score
  refine Finset.sum_congr rfl fun k _ => ?_
  rw [el10, er10, val_main_v9_apply, val_main_v1_apply, val_main_v0_apply, val_main_v8_apply, val_main_v7_apply,
    val_main_cst_0_apply, val_main_v6_apply, val_main_v5_apply, val_main_cst_apply, val_main_v4_apply, val_main_v3_apply,
    val_main_v2_apply]
  simp only [el0, er0, el2, er2, Ideal.mulf_def, Ideal.hostUnary_tanh_def, Ideal.hostDivf_def, Ideal.ofBits_def, one_word,
    Ideal.addf_def, Ideal.hostUnary_exp_def, Ideal.hostNegf_def, Ideal.negf_def]
  rfl

/-- The reduced index (0, 0) with row `k` put back on the middle axis, read through the broadcast, is row `k` of the scores. -/
theorem lift_row (hR : S1x100000x1.Reduces [1] S1x1) (k : Fin 100000) :
    idx_main_v11 (hR.lift (ix2 0 0) k) = ix2 k 0 :=
  funext fun a => Fin.ext (by match a with | ⟨0, _⟩ => rfl | ⟨1, _⟩ => rfl)

/-- The maximum the reference subtracts: the fold of max from -∞ over the rows, once more against -∞. -/
theorem ref_gmax (x : (⟨S100000x512, .f32⟩ : BufTy).Contents (Elt Ideal)) (wv wu : (⟨S512x128, .f32⟩ : BufTy).Contents (Elt Ideal))
    (wa : (⟨S128x1, .f32⟩ : BufTy).Contents (Elt Ideal)) :
    val_main_v14 (F := Ideal) x wv wu wa (ix2 0 0) = Cert.Spec.gmax (Cert.Spec.score x wv wu wa) := by
  have hR : S1x100000x1.Reduces [1] S1x1 := by decide
  rw [val_main_v14_apply, val_main_v13_apply, val_main_cst_2_apply]
  unfold val_main_v12
  rw [Host.reduce_eq_fold_single FloatOps.maximumf _ _ reducesTo_S1x100000x1_S1x1_d1 hR h_S_, val_main_cst_1_apply]
  have hf : (val_main_v11 (F := Ideal) x wv wu wa ∘ hR.lift (ix2 0 0)) = fun k : Fin 100000 => Cert.Spec.score x wv wu wa k :=
    funext fun (k : Fin 100000) => by
      show val_main_v11 (F := Ideal) x wv wu wa (hR.lift (ix2 0 0) k) = _
      rw [val_main_v11_apply, lift_row hR k]
      exact ref_score x wv wu wa k
  rw [hf]
  show max (Ideal.ofBits .f32 0xFF800000#32)
    (Finset.fold max (Ideal.ofBits .f32 0xFF800000#32) (fun k : Fin 100000 => Cert.Spec.score x wv wu wa k) Finset.univ) = _
  rw [ninf_word, max_bot_left]
  rfl

/-- Row `n`'s exponential of its score less the maximum, as the reference computes it. -/
theorem ref_exp (x : (⟨S100000x512, .f32⟩ : BufTy).Contents (Elt Ideal)) (wv wu : (⟨S512x128, .f32⟩ : BufTy).Contents (Elt Ideal))
    (wa : (⟨S128x1, .f32⟩ : BufTy).Contents (Elt Ideal)) (n : Fin 100000) :
    val_main_v18 (F := Ideal) x wv wu wa (ix3 0 n 0)
      = Ideal.exp (Cert.Spec.score x wv wu wa n - Cert.Spec.gmax (Cert.Spec.score x wv wu wa)) := by
  have e11 : idx_main_v11 (ix3 0 n 0) = ix2 n 0 :=
    funext fun a => Fin.ext (by match a with | ⟨0, _⟩ => rfl | ⟨1, _⟩ => rfl)
  have e16 : idx_main_v15 (idx_main_v16 (ix3 0 n 0)) = ix2 0 0 :=
    funext fun a => Fin.ext (by match a with | ⟨0, _⟩ => rfl | ⟨1, _⟩ => rfl)
  rw [val_main_v18_apply, val_main_v17_apply, val_main_v11_apply, val_main_v16_apply, val_main_v15_apply, e11, e16, ref_score,
    ref_gmax]
  rfl

/-- The normaliser: from 0, the sum over the rows of the exponentials. -/
theorem ref_norm (x : (⟨S100000x512, .f32⟩ : BufTy).Contents (Elt Ideal)) (wv wu : (⟨S512x128, .f32⟩ : BufTy).Contents (Elt Ideal))
    (wa : (⟨S128x1, .f32⟩ : BufTy).Contents (Elt Ideal)) :
    val_main_v19 (F := Ideal) x wv wu wa (ix2 0 0) = Cert.Spec.norm (Cert.Spec.score x wv wu wa) := by
  have e19 : ∀ k : Fin 100000, idx_main_v19 (ix2 0 0) k = ix3 0 k 0 := fun k =>
    funext fun a => Fin.ext (by match a with | ⟨0, _⟩ => rfl | ⟨1, _⟩ => rfl | ⟨2, _⟩ => rfl)
  rw [val_main_v19_apply, val_main_cst_3_apply]
  unfold Cert.Spec.norm
  simp only [Ideal.ofBits_def, Ideal.ofBits_zero_f32, e19, ref_exp]

/-- Row `n`'s attention weight as the reference computes it. -/
theorem ref_att (x : (⟨S100000x512, .f32⟩ : BufTy).Contents (Elt Ideal)) (wv wu : (⟨S512x128, .f32⟩ : BufTy).Contents (Elt Ideal))
    (wa : (⟨S128x1, .f32⟩ : BufTy).Contents (Elt Ideal)) (n : Fin 100000) :
    val_main_v22 (F := Ideal) x wv wu wa (ix3 0 n 0) = Cert.Spec.att (Cert.Spec.score x wv wu wa) n := by
  have e21 : idx_main_v20 (idx_main_v21 (ix3 0 n 0)) = ix2 0 0 :=
    funext fun a => Fin.ext (by match a with | ⟨0, _⟩ => rfl | ⟨1, _⟩ => rfl)
  rw [val_main_v22_apply, val_main_v21_apply, val_main_v20_apply, e21, ref_exp, ref_norm]
  rfl

/-- Feature `d` of the pooled row as the reference computes it. -/
theorem ref_hs (x : (⟨S100000x512, .f32⟩ : BufTy).Contents (Elt Ideal)) (wv wu : (⟨S512x128, .f32⟩ : BufTy).Contents (Elt Ideal))
    (wa : (⟨S128x1, .f32⟩ : BufTy).Contents (Elt Ideal)) (d : Fin 512) :
    val_main_v25 (F := Ideal) x wv wu wa (ix2 0 d) = Cert.Spec.hs x (Cert.Spec.score x wv wu wa) d := by
  have el : ∀ k : Fin 100000, lidx_main_v24 (idx_main_v25 (ix2 0 d)) k = ix3 0 k 0 := fun k =>
    funext fun a => Fin.ext (by match a with | ⟨0, _⟩ => rfl | ⟨1, _⟩ => rfl | ⟨2, _⟩ => rfl)
  have er : ∀ k : Fin 100000, idx_main_v23 (ridx_main_v24 (idx_main_v25 (ix2 0 d)) k) = ix2 k d := fun k =>
    funext fun a => Fin.ext (by
      match a with
      | ⟨0, _⟩ => rfl
      | ⟨1, _⟩ => show (0 * 512 + d.val) % 512 = d.val; have := d.isLt; omega)
  rw [val_main_v25_apply, val_main_v24_apply]
  unfold Cert.Spec.hs
  refine Finset.sum_congr rfl fun k _ => ?_
  rw [el, val_main_v23_apply, er, ref_att]

end Cert.ReferenceIdeal.RefValue

end
-- ==== Proof.lean ====
/-
  Gated attention pooling over 100000 rows: the kernel computes the rows' scores and a running softmax tile by tile on two
  cores (a running maximum, normaliser and weighted sum per core, rescaled by e^(old maximum - new maximum) at every tile),
  and the host combines the two cores; the reference computes the scores, one softmax over all rows against their maximum,
  and the weighted sum of the rows.  Over the extended reals, for finite inputs, both are the same functions of the four
  argument arrays: every score is a real, the running values after a core's last tile are its maximum μ, Σ e^(s - μ) and
  Σ e^(s - μ)·x, the combination of the cores gives the global maximum M, Σ_n e^(s n - M) and Σ_n e^(s n - M)·x[n,d], and a
  sum divided by the normaliser is the sum of the quotients.  The three frames are the launch's frame certificates and the
  reference's run; the idealization rewrote nothing.
-/
import proofs.«422200_j18408229831053_4_alg».proof.Defs
import proofs.«422200_j18408229831053_4_alg».proof.Proof.Gen.Kernel
import proofs.«422200_j18408229831053_4_alg».proof.Proof.Gen.Kernel.Frame
import proofs.«422200_j18408229831053_4_alg».proof.Proof.Gen.KernelIdeal
import proofs.«422200_j18408229831053_4_alg».proof.Proof.Gen.KernelIdeal.Frame
import proofs.«422200_j18408229831053_4_alg».proof.Proof.Gen.ReferenceIdeal
import proofs.«422200_j18408229831053_4_alg».proof.Proof.Gen.ReferenceIdeal.Run
import proofs.«422200_j18408229831053_4_alg».proof.Proof.Gen.ReferenceIdeal.Read
import proofs.«422200_j18408229831053_4_alg».proof.Proof.Gen.Pre_finite_inputs
import proofs.«422200_j18408229831053_4_alg».proof.Proof.KernelRun
import proofs.«422200_j18408229831053_4_alg».proof.Proof.RefValue
import proofs.«422200_j18408229831053_4_alg».proof.Proof.Idx
import Idealize.ShloMosaic.Adequacy
import Idealize.ShloMosaic.Init

noncomputable section

namespace Cert.Proof

open Idealize.ShloMosaic Idealize.SL.Sem Idealize.ShloMosaic.ValueIdx

/-- The printed kernel runs and keeps its arguments. -/
theorem frame_kernel : Cert.frame_Kernel (hKernel := Cert.Kernel.Gen.facts) (hPre_finite_inputs := Cert.Pre_finite_inputs.Gen.facts) :=
  fun m ρ _ => Cert.Kernel.Gen.frame m ρ

/-- The idealized kernel runs and keeps its arguments. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference runs and keeps its arguments: its run with the results dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.Value.run (F := Ideal) m ρ)

/-- Both idealized programs end with the softmax attention weights and the attention-pooled row of the argument arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have A : ∀ c, Cert.KernelIdeal.Val.RealArgs m c := fun c =>
    (Cert.KernelIdeal.Val.realArgs_of_pre (hf := Cert.Pre_finite_inputs.Gen.facts) m c (hpre c)).some
  refine ⟨Cert.KernelIdeal.Val.attArr m, Cert.KernelIdeal.Val.hsArr m, Cert.KernelIdeal.Val.run m ρ A, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v22_eq, (hagree c).1, (hagree c).2.1, (hagree c).2.2.1, (hagree c).2.2.2]
    funext i
    exact (congrArg _ (Cert.Spec.idx3_mid i)).trans (Cert.ReferenceIdeal.RefValue.ref_att _ _ _ _ (i 1))
  · rw [Cert.ReferenceIdeal.Read.val_main_v25_eq, (hagree c).1, (hagree c).2.1, (hagree c).2.2.1, (hagree c).2.2.2]
    funext i
    exact (congrArg _ (Cert.Spec.idx2_snd i)).trans (Cert.ReferenceIdeal.RefValue.ref_hs _ _ _ _ (i 1))

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
